-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x1600000 : Shape := ⟨2, ![2, 1600000]⟩
abbrev S8x64 : Shape := ⟨2, ![8, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x10 .f32) (main_arg11 : FVec F S10 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x10 .f32 := Host.absf main_arg10
  let main_cst_16 : FVec F S_ .f32 := constant S_ .f32 0x7F800000#32
  let main_v45 : FVec F S64x10 .f32 := broadcastInDim S64x10 ![] bcast_S_S64x10 main_cst_16
  let main_v46 : IVec S64x10 1 := cmpf .olt main_v44 main_v45
  let main_c_17 : IVec S_ 1 := constantI S_ 1 1#1
  let main_v47 : IVec S_ 1 := (fun x v => Host.reduce IntOp.andi x v reducesTo_S64x10_S_d0_1 h_S_) main_v46 main_c_17
  let main_v48 : IVec S_ 1 := andi main_v43 main_v47
  let main_v49 : FVec F S10 .f32 := Host.absf main_arg11
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x10 .f32) (main_arg11 : FVec F S10 .f32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x8 .f32) (main_arg1 : IVec S2x1600000 32) (main_arg2 : FVec F S8x64 .f32) (main_arg3 : FVec F S64 .f32) (main_arg4 : FVec F S8x64 .f32) (main_arg5 : FVec F S64x64 .f32) (main_arg6 : FVec F S64 .f32) (main_arg7 : FVec F S64x64 .f32) (main_arg8 : FVec F S64x64 .f32) (main_arg9 : FVec F S64 .f32) (main_arg10 : FVec F S64x10 .f32) (main_arg11 : FVec F S10 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x64 .f32 := Host.absf main_arg2
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8x64 .f32 := Host.absf main_arg4
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg5 main_arg6 main_arg7 main_arg8 main_arg9 main_arg10 main_arg11 main_v13 main_v16
-- ==== Kernel.lean ====
abbrev S100000x8 : Shape := ⟨2, ![100000, 8]⟩
abbrev S2x1600000 : Shape := ⟨2, ![2, 1600000]⟩
abbrev S8x64 : Shape := ⟨2, ![8, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x8 : Shape := ⟨2, ![1600000, 8]⟩
abbrev S100000x1 : Shape := ⟨2, ![100000, 1]⟩
abbrev S100000x64 : Shape := ⟨2, ![100000, 64]⟩
abbrev S5000x8 : Shape := ⟨2, ![5000, 8]⟩
abbrev S5000x64 : Shape := ⟨2, ![5000, 64]⟩
abbrev S1x64 : Shape := ⟨2, ![1, 64]⟩
abbrev S1600000x64 : Shape := ⟨2, ![1600000, 64]⟩
abbrev S1x10 : Shape := ⟨2, ![1, 10]⟩
abbrev S1 : Shape := ⟨1, ![1]⟩
abbrev S1x1 : Shape := ⟨2, ![1, 1]⟩

abbrev nBuf : Space → Nat
  | .hbm => 62
  | .vmem => 22
  | .smem => 0
  | _ => 0

abbrev bufTy : (tb : Table) → Fin (tcTables nBuf tb) → BufTy
  | .hbm, ⟨0, _⟩ => ⟨S100000x8, .f32⟩
  | .hbm, ⟨1, _⟩ => ⟨S2x1600000, .i32⟩
  | .hbm, ⟨2, _⟩ => ⟨S8x64, .f32⟩
  | .hbm, ⟨3, _⟩ => ⟨S64, .f32⟩
  | .hbm, ⟨4, _⟩ => ⟨S8x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x10, .f32⟩
  | .hbm, ⟨11, _⟩ => ⟨S10, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x8, .f32⟩
  | .hbm, ⟨31, _⟩ => ⟨S_, .f32⟩
  | .hbm, ⟨32, _⟩ => ⟨S100000x8, .f32⟩
  | .hbm, ⟨33, _⟩ => ⟨S1600000x1, .i32⟩
  | .hbm, ⟨34, _⟩ => ⟨S100000x8, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x8, .f32⟩
  | .hbm, ⟨40, _⟩ => ⟨S100000x8, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S1x10, .f32⟩
  | .local _ .vmem, ⟨0, _⟩ => ⟨S5000x8, .f32⟩
  | .local _ .vmem, ⟨1, _⟩ => ⟨S5000x8, .f32⟩
  | .local _ .vmem, ⟨2, _⟩ => ⟨S5000x8, .f32⟩
  | .local _ .vmem, ⟨3, _⟩ => ⟨S5000x8, .f32⟩
  | .local _ .vmem, ⟨4, _⟩ => ⟨S8x64, .f32⟩
  | .local _ .vmem, ⟨5, _⟩ => ⟨S64, .f32⟩
  | .local _ .vmem, ⟨6, _⟩ => ⟨S8x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64, .f32⟩
  | .local _ .vmem, ⟨15, _⟩ => ⟨S64x64, .f32⟩
  | .local _ .vmem, ⟨16, _⟩ => ⟨S64x64, .f32⟩
  | .local _ .vmem, ⟨17, _⟩ => ⟨S64, .f32⟩
  | .local _ .vmem, ⟨18, _⟩ => ⟨S64x10, .f32⟩
  | .local _ .vmem, ⟨19, _⟩ => ⟨S10, .f32⟩
  | .local _ .vmem, ⟨20, _⟩ => ⟨S1x10, .f32⟩
  | .local _ .vmem, ⟨21, _⟩ => ⟨S1x64, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v29 : BitVec 1 := Scalar.cmpi .eq arg0 c19_i32
  let v30 : BitVec 32 := Scalar.extui v29
  let c0_i32_16 : BitVec 32 := 0#32
  let v31 : BitVec 1 := Scalar.cmpi .ne v30 c0_i32_16
  v31

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x10 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x8 : S_.BroadcastsInDim S100000x8 (![] : Fin 0 → Fin S100000x8.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  inb_S5000x8_S5000x8_0_0 : ∀ a, (![0, 0] : Fin 2 → Nat) a + S5000x8.size a ≤ S5000x8.size a
  h_S5000x8 : 0 < S5000x8.numel
  bitsLt_bf16_f32 : FTy.bits .bf16 < FTy.bits .f32
  shapeCasts_S5000x8_S5000x8 : S5000x8.ShapeCasts S5000x8
  inb_S8x64_S8x64_0_0 : ∀ a, (![0, 0] : Fin 2 → Nat) a + S8x64.size a ≤ S8x64.size a
  h_S8x64 : 0 < S8x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  reduces_S5000x64_S64 : S5000x64.Reduces [0] S64
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  reduces_S1x10_S1 : S1x10.Reduces [1] S1
  shapeCasts_S1_S1x1 : S1.ShapeCasts S1x1
  broadcasts_S1x1_S1x10 : S1x1.Broadcasts S1x10
  inb_S1x10_S1x10_0_0 : ∀ a, (![0, 0] : Fin 2 → Nat) a + S1x10.size a ≤ S1x10.size a
  h_S1x10 : 0 < S1x10.numel
  scatter_S100000_S1600000x1_S1600000_n_0_0_1_wf : ScatterDims.WF S100000 S1600000x1 S1600000 [] [0] [0] 1
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  dot_S5000x8_S8x64_S5000x64_1_0_0_1_n_n_wf : DotDims.WF S5000x8 S8x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S1x64_S64x64_S1x64_1_0_0_1_n_n_wf : DotDims.WF S1x64 S64x64 S1x64 [1] [0] [0] [1] [] []
  dot_S1x64_S64x10_S1x10_1_0_0_1_n_n_wf : DotDims.WF S1x64 S64x10 S1x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S100000x8.size a
  hwx0_0 : ∀ i : grid0.Coords, EltTy.bits .f32 = 32 ∨ (Rect.block (s := S100000x8) S5000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x8.size a ≤ S100000x8.size a
  hwx0_1 : ∀ i : grid0.Coords, EltTy.bits .f32 = 32 ∨ (Rect.block (s := S100000x8) S5000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S8x64.size a
  hwx0_2 : ∀ i : grid0.Coords, EltTy.bits .f32 = 32 ∨ (Rect.block (s := S8x64) S8x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S8x64.size a
  hwx0_4 : ∀ i : grid0.Coords, EltTy.bits .f32 = 32 ∨ (Rect.block (s := S8x64) S8x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x10.size a ≤ S64x10.size a
  hwx1_7 : ∀ i : grid1.Coords, EltTy.bits .f32 = 32 ∨ (Rect.block (s := S64x10) S64x10.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S10.size a ≤ S10.size a
  hwx1_8 : ∀ i : grid1.Coords, EltTy.bits .f32 = 32 ∨ (Rect.block (s := S10) S10.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x10.size a ≤ S1x10.size a
  hwx1_9 : ∀ i : grid1.Coords, EltTy.bits .f32 = 32 ∨ (Rect.block (s := S1x10) S1x10.size (cc1_transform_9 i) (hinb1_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x10_S1x10_1_0_0_1_n_n : DotDims S1x64 S64x10 S1x10 where
  lhsContracting := [1]
  rhsContracting := [0]
  lhsNonContracting := [0]
  rhsNonContracting := [1]
  lhsBatch := []
  rhsBatch := []
  wf := dot_S1x64_S64x10_S1x10_1_0_0_1_n_n_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S64x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S10.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v39) S1x10.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun _ => false | 9 => fun i => !(k1_cond2 i == 1#1) | ⟨_ + 10, h⟩ => absurd h (Nat.not_lt.2 (Nat.le_add_left _ _))

class Facts : Prop extends Facts₀ where

variable [Facts]
-- ==== ReferenceIdeal.lean ====
abbrev S100000x8 : Shape := ⟨2, ![100000, 8]⟩
abbrev S2x1600000 : Shape := ⟨2, ![2, 1600000]⟩
abbrev S8x64 : Shape := ⟨2, ![8, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x8 : Shape := ⟨2, ![1600000, 8]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S1x10 : Shape := ⟨2, ![1, 10]⟩
abbrev S1 : Shape := ⟨1, ![1]⟩
abbrev S1x1 : Shape := ⟨2, ![1, 1]⟩

abbrev nBuf : Space → Nat
  | .hbm => 117
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2x1600000, .i32⟩
  | .hbm, ⟨2, _⟩ => ⟨S8x64, .f32⟩
  | .hbm, ⟨3, _⟩ => ⟨S64, .f32⟩
  | .hbm, ⟨4, _⟩ => ⟨S8x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x10, .f32⟩
  | .hbm, ⟨11, _⟩ => ⟨S10, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x8, .f32⟩
  | .hbm, ⟨25, _⟩ => ⟨S_, .f32⟩
  | .hbm, ⟨26, _⟩ => ⟨S100000x8, .f32⟩
  | .hbm, ⟨27, _⟩ => ⟨S1600000x1, .i32⟩
  | .hbm, ⟨28, _⟩ => ⟨S100000x8, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x8, .f32⟩
  | .hbm, ⟨40, _⟩ => ⟨S100000x8, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S1x1600000, .i32⟩
  | .hbm, ⟨51, _⟩ => ⟨S1600000, .i32⟩
  | .hbm, ⟨52, _⟩ => ⟨S1x1600000, .i32⟩
  | .hbm, ⟨53, _⟩ => ⟨S1600000, .i32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S_, .f32⟩
  | .hbm, ⟨68, _⟩ => ⟨S1600000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S64, .f32⟩
  | .hbm, ⟨90, _⟩ => ⟨S1x64, .f32⟩
  | .hbm, ⟨91, _⟩ => ⟨S_, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S1x64, .f32⟩
  | .hbm, ⟨96, _⟩ => ⟨S1x64, .f32⟩
  | .hbm, ⟨97, _⟩ => ⟨S_, .f32⟩
  | .hbm, ⟨98, _⟩ => ⟨S1x64, .f32⟩
  | .hbm, ⟨99, _⟩ => ⟨S1x64, .f32⟩
  | .hbm, ⟨100, _⟩ => ⟨S1x10, .f32⟩
  | .hbm, ⟨101, _⟩ => ⟨S1x10, .f32⟩
  | .hbm, ⟨102, _⟩ => ⟨S1x10, .f32⟩
  | .hbm, ⟨103, _⟩ => ⟨S_, .f32⟩
  | .hbm, ⟨104, _⟩ => ⟨S1, .f32⟩
  | .hbm, ⟨105, _⟩ => ⟨S_, .f32⟩
  | .hbm, ⟨106, _⟩ => ⟨S1, .f32⟩
  | .hbm, ⟨107, _⟩ => ⟨S1, .f32⟩
  | .hbm, ⟨108, _⟩ => ⟨S1x1, .f32⟩
  | .hbm, ⟨109, _⟩ => ⟨S1x10, .f32⟩
  | .hbm, ⟨110, _⟩ => ⟨S1x10, .f32⟩
  | .hbm, ⟨111, _⟩ => ⟨S1x10, .f32⟩
  | .hbm, ⟨112, _⟩ => ⟨S_, .f32⟩
  | .hbm, ⟨113, _⟩ => ⟨S1, .f32⟩
  | .hbm, ⟨114, _⟩ => ⟨S1x1, .f32⟩
  | .hbm, ⟨115, _⟩ => ⟨S1x10, .f32⟩
  | .hbm, ⟨116, _⟩ => ⟨S1x10, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_cst_10 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_12 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_14 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  reducesTo_S100000x64_S64_d0 : S100000x64.ReducesTo [0] S64
  h_S_ : 0 < S_.numel
  bcast_S_S1x64 : S_.BroadcastsInDim S1x64 (![] : Fin 0 → Fin S1x64.rank)
  bcast_S10_S1x10_1 : S10.BroadcastsInDim S1x10 (![1] : Fin 1 → Fin S1x10.rank)
  reducesTo_S1x10_S1_d1 : S1x10.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x10_0_1 : S1x1.BroadcastsInDim S1x10 (![0, 1] : Fin 2 → Fin S1x10.rank)
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  scatter_S100000_S1600000x1_S1600000_n_0_0_1_wf : ScatterDims.WF S100000 S1600000x1 S1600000 [] [0] [0] 1
  dot_S100000x8_S8x64_S100000x64_1_0_0_1_n_n_wf : DotDims.WF S100000x8 S8x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S1x64_S64x64_S1x64_1_0_0_1_n_n_wf : DotDims.WF S1x64 S64x64 S1x64 [1] [0] [0] [1] [] []
  dot_S1x64_S64x10_S1x10_1_0_0_1_n_n_wf : DotDims.WF S1x64 S64x10 S1x10 [1] [0] [0] [1] [] []

variable [Facts₀]

def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x8_S8x64_S100000x64_1_0_0_1_n_n : DotDims S100000x8 S8x64 S100000x64 where
  lhsContracting := [1]
  rhsContracting := [0]
  lhsNonContracting := [0]
  rhsNonContracting := [1]
  lhsBatch := []
  rhsBatch := []
  wf := dot_S100000x8_S8x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x10_S1x10_1_0_0_1_n_n : DotDims S1x64 S64x10 S1x10 where
  lhsContracting := [1]
  rhsContracting := [0]
  lhsNonContracting := [0]
  rhsNonContracting := [1]
  lhsBatch := []
  rhsBatch := []
  wf := dot_S1x64_S64x10_S1x10_1_0_0_1_n_n_wf

class Facts : Prop extends Facts₀ where

variable [Facts]
-- ==== Proof.K.R0.lean ====
/-
  Region 0 of the program (the first dense layer) at a parameter `V`, the TensorCore's buffer contents when the region is
  entered: each window's block at a grid point, what the body leaves in the output window's staging buffer as a function
  of the five input blocks, the body's triple, the pipeline's proof data and the body obligation at every point.
  The body loads its five input blocks whole, computes one value and stores it whole into the output block; it carries
  nothing from point to point, so the region invariant is the scoped rest and the generator register, untouched.
-/
import proofs.«156587_j64527588655232_1_alg».proof.Proof.Gen.Kernel.Launch
import proofs.«156587_j64527588655232_1_alg».proof.Proof.Gen.Kernel.Skeleton
import proofs.«156587_j64527588655232_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S5000x8 := Rect.unit (s := S5000x8) ![0, 0] S5000x8.size inb_S5000x8_S5000x8_0_0
abbrev r0_w : Rect S8x64 := Rect.unit (s := S8x64) ![0, 0] S8x64.size inb_S8x64_S8x64_0_0
abbrev r0_b : Rect S64 := Rect.unit (s := S64) ![0] S64.size inb_S64_S64_0
abbrev r0_o : Rect S5000x64 := Rect.unit (s := S5000x64) ![0, 0] S5000x64.size inb_S5000x64_S5000x64_0_0

/-- Input window 0's current staging buffer holds its block at every point, fetched there or not: where it is not
    fetched its block index has not moved, so the block kept from the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved, so the block kept from the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved, so the block kept from the point before is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved, so the block kept from the point before is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is not
    fetched its block index has not moved, so the block kept from the point before is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole output block, so it covers it. -/
theorem cover0_5 (p0 : Vec F S5000x64 .f32) (y : S5000x64.Idx) :
    ∃ pc ∈ ([⟨r0_o, p0⟩] : List (View.Piece (Elt F) S5000x64 .f32)), y ∈ pc.1.set :=
  View.cover_of_tiled [⟨r0_o, p0⟩] S5000x64.size (by rfl) y

/-- The output window's staging buffer after the body, from the five input blocks (windows 0 to 4 in order): the one
    store's payload over the loaded blocks. -/
def out0_5 (x0 : Vec F S5000x8 .f32) (x1 : Vec F S5000x8 .f32) (x2 : Vec F S8x64 .f32) (x3 : Vec F S64 .f32) (x4 : Vec F S8x64 .f32) : Vec F S5000x64 .f32 :=
  View.canon [⟨r0_o, k0_pay1 (View.ld x0 r0_a) (View.ld x1 r0_a) (View.ld x2 r0_w) (View.ld x4 r0_w) (View.ld x3 r0_b)⟩]

set_option maxHeartbeats 4000000 in
/-- The kernel body on whole staging memrefs, the five inputs' at read contents and the output's at anything, runs to
    the continuation holding the inputs' as they were and the output's at `out0_5` of the inputs'. -/
theorem sound_kernel0 (c : Dev nD) (E : Set ℕ) (i : grid0.Coords)
    (arg1 : Memref sig .tc .vmem S5000x8 .f32) (harg1 : arg1.IsWhole) (arg2 : Memref sig .tc .vmem S5000x8 .f32) (harg2 : arg2.IsWhole)
    (arg3 : Memref sig .tc .vmem S8x64 .f32) (harg3 : arg3.IsWhole) (arg4 : Memref sig .tc .vmem S64 .f32) (harg4 : arg4.IsWhole)
    (arg5 : Memref sig .tc .vmem S8x64 .f32) (harg5 : arg5.IsWhole) (arg6 : Memref sig .tc .vmem S5000x64 .f32) (harg6 : arg6.IsWhole)
    (x0 : Vec F S5000x8 .f32) (x1 : Vec F S5000x8 .f32) (x2 : Vec F S8x64 .f32) (x3 : Vec F S64 .f32) (x4 : Vec F S8x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage1_kernel i arg1 harg1 arg2 harg2 arg3 harg3 arg4 harg4 arg5 harg5 arg6 harg6) K := by
  simp only [cc0__sage1_kernel_eq_skeleton]; unfold cc0__sage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- What the body leaves in each input window's buffer: its block, in place. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Base.lean ====
/-
  Region 1 of the program at a parameter `V`, the TensorCore's buffer contents when the region is entered: what the
  three control cases of its body share. Each window's block at a grid point; the two conditions on the grid
  coordinate in closed form (the first holds at point 0 only, the second at point 19 only); where the output window is
  idle; the staging memrefs at a point and the scratch buffer that carries the column sums from point to point; and the
  class invariant with that scratch buffer set apart from the nine staging buffers of the other call.
-/
import proofs.«156587_j64527588655232_1_alg».proof.Proof.Gen.Kernel.Launch
import proofs.«156587_j64527588655232_1_alg».proof.Proof.Gen.Kernel.Skeleton
import proofs.«156587_j64527588655232_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, so the block kept from the point before is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved, so the block kept from the point before is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved, so the block kept from the point before is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved, so the block kept from the point before is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved, so the block kept from the point before is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched its block index has not moved, so the block kept from the point before is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: where it is not
    fetched its block index has not moved, so the block kept from the point before is this point's. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: where it is not
    fetched its block index has not moved, so the block kept from the point before is this point's. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not: where it is not
    fetched its block index has not moved, so the block kept from the point before is this point's. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions on the grid coordinate -/

/-- The first condition: the grid coordinate is 0 (the scratch buffer is zeroed there). -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- The second condition: the grid coordinate is 19 (the pooled mean, the two small layers and the softmax are computed there). -/
abbrev cond1_1 (i : grid1.Coords) : Prop := k1_cond2 i = 1#1
/-- It holds at point 19 only. -/
theorem hcond1_1 : ∀ t : Fin cfg1.N, cond1_1 (grid1.coords t) ↔ t.val = 19 :=
  (by decide +kernel : ∀ t : Fin grid1.N, cond1_1 (grid1.coords t) ↔ t.val = 19)

/-! ## Where the windows are idle -/

/-- Window 0, an input, is never idle. -/
theorem liveAt1_0 : ∀ t : Fin cfg1.N, cfg1.idle 0 (grid1.coords t) = false := by decide +kernel
/-- Window 1, an input, is never idle. -/
theorem liveAt1_1 : ∀ t : Fin cfg1.N, cfg1.idle 1 (grid1.coords t) = false := by decide +kernel
/-- Window 2, an input, is never idle. -/
theorem liveAt1_2 : ∀ t : Fin cfg1.N, cfg1.idle 2 (grid1.coords t) = false := by decide +kernel
/-- Window 3, an input, is never idle. -/
theorem liveAt1_3 : ∀ t : Fin cfg1.N, cfg1.idle 3 (grid1.coords t) = false := by decide +kernel
/-- Window 4, an input, is never idle. -/
theorem liveAt1_4 : ∀ t : Fin cfg1.N, cfg1.idle 4 (grid1.coords t) = false := by decide +kernel
/-- Window 5, an input, is never idle. -/
theorem liveAt1_5 : ∀ t : Fin cfg1.N, cfg1.idle 5 (grid1.coords t) = false := by decide +kernel
/-- Window 6, an input, is never idle. -/
theorem liveAt1_6 : ∀ t : Fin cfg1.N, cfg1.idle 6 (grid1.coords t) = false := by decide +kernel
/-- Window 7, an input, is never idle. -/
theorem liveAt1_7 : ∀ t : Fin cfg1.N, cfg1.idle 7 (grid1.coords t) = false := by decide +kernel
/-- Window 8, an input, is never idle. -/
theorem liveAt1_8 : ∀ t : Fin cfg1.N, cfg1.idle 8 (grid1.coords t) = false := by decide +kernel
/-- Where the second condition fails nothing is stored into the output window: it is idle there, -/
theorem idleAt1_9 : ∀ t : Fin cfg1.N, ¬cond1_1 (grid1.coords t) → cfg1.idle 9 (grid1.coords t) = true := by decide +kernel
/-- and its block is not written back there. -/
theorem noFlush1_9 : ∀ t : Fin cfg1.N, ¬cond1_1 (grid1.coords t) → (cfg1.win 9).flush t = false := by decide +kernel
/-- Where the second condition holds the output window is live. -/
theorem liveAt1_9 : ∀ t : Fin cfg1.N, cond1_1 (grid1.coords t) → cfg1.idle 9 (grid1.coords t) = false := by decide +kernel

/-! ## The memrefs the body is called with -/

/-- One staging buffer of the output window, through which its contents are stated. -/
abbrev VO1_9 : View sig .tc .vmem S1x10 .f32 := (Memref.whole cc1_stg9_0 : Memref sig .tc .vmem S1x10 .f32).view
/-- Each window's current staging memref at point `t`, and its wholeness. -/
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x10 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S10 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x10 .f32 := win1_9.stage (cfg1.slots t 9)
abbrev hs1_9 (t : Fin cfg1.N) : (ms1_9 t).IsWhole := hstage1_9 ((cfg1.slots t 9).cast nbuf1_9)
/-- The scratch operand: a whole scoped buffer of the kernel's own, in which the column sums are carried. -/
abbrev scM1 : Memref sig .tc .vmem S1x64 .f32 := Memref.whole cc1_scratch0
/-- The same as a view: what the scratch buffer holds is stated through it. -/
abbrev VS1 : View sig .tc .vmem S1x64 .f32 := (scM1).view

/-! ## The class invariant, the scratch buffer set apart -/

/-- The nine staging buffers of the other call, each whole at some contents: the region never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant is the nine staging buffers of the other call, the scratch buffer owned at some contents, and the
    generator register at some state. -/
theorem PhiA1_eq (c : Dev nD) :
    (Pipeline.ΦA spec1 c : sProp 𝕄)
      = iprop(iprop(others1 (F := F) c ∗ (∃ d, owns (c : Thread nD τ) scM1 fullShare d)) ∗ (∃ r, prngReg c r)) := by
  unfold Pipeline.ΦA; rw [scopedRest1_eq]; simp only [scM1, owns_whole]
  unfold others1
  refine BI.equiv_iff.mp ⟨?_, ?_⟩
  · show (_ : sProp 𝕄) ⊢ _
    iintro ⟨⟨R0, R1, R2, R3, R4, R5, R6, R7, R8, HS⟩, Hg⟩
    isplitr [Hg]
    · isplitr [HS]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iexact R8
      · iexact HS
    · iexact Hg
  · show (_ : sProp 𝕄) ⊢ _
    iintro ⟨⟨⟨R0, R1, R2, R3, R4, R5, R6, R7, R8⟩, HS⟩, Hg⟩
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact HS
    · iexact Hg

end Cert.Kernel.Hand

end
-- ==== Proof.K.R1RunA.lean ====
/-
  Region 1's body at the first grid point. The first condition holds there and the second does not: the scratch buffer
  is zeroed, then the two row blocks, the second layer's two weight matrices and its bias are loaded and the column sums
  of this block's activations are added into the scratch buffer. The run is a triple whose postcondition names the pieces
  the scratch buffer ends with; the output window and the last point's four operands are not touched.
-/
import proofs.«156587_j64527588655232_1_alg».proof.Proof.K.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the scratch buffer at the first point, with the proof that on whole memrefs —
    the five operands it loads at their contents, the scratch buffer at anything — the body runs to any continuation
    that holds the five operands as they were and the scratch buffer with those pieces written. -/
noncomputable def kernelRun1_A (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : cond1_0 i) (hc1 : ¬cond1_1 i)
    (x0 : Vec F S5000x64 .f32) (x1 : Vec F S5000x64 .f32) (x2 : Vec F S64x64 .f32) (x3 : Vec F S64 .f32) (x4 : Vec F S64x64 .f32) :
    { LS : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg11.view.loc (c : Thread nD τ) ↦[arg11.view.set]{fullShare} arg11.view.writes (Elt F) f LS)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.Kernel.Hand

end
-- ==== Proof.K.R1RunB.lean ====
/-
  Region 1's body at a grid point that is neither the first nor the last. Neither condition holds: the two row blocks,
  the second layer's two weight matrices and its bias are loaded and the column sums of this block's activations are
  added into the scratch buffer, which holds what the point before left. The run is a triple whose postcondition names
  the pieces the scratch buffer ends with; the output window and the last point's four operands are not touched.
-/
import proofs.«156587_j64527588655232_1_alg».proof.Proof.K.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the scratch buffer at a middle point, with the proof that on whole memrefs —
    the five operands it loads at their contents, the scratch buffer at what the point before left — the body runs to any
    continuation that holds the five operands as they were and the scratch buffer with those pieces written. -/
noncomputable def kernelRun1_B (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : ¬cond1_1 i)
    (x0 : Vec F S5000x64 .f32) (x1 : Vec F S5000x64 .f32) (x2 : Vec F S64x64 .f32) (x3 : Vec F S64 .f32) (x4 : Vec F S64x64 .f32) (xs : Vec F S1x64 .f32) :
    { LS : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg11.view.loc (c : Thread nD τ) ↦[arg11.view.set]{fullShare} arg11.view.writes (Elt F) f LS)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg11.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.Kernel.Hand

end
-- ==== Proof.K.R1RunC.lean ====
/-
  Region 1's body at the last grid point. The first condition fails and the second holds: the column sums of the last
  block's activations are added into the scratch buffer, which holds what the point before left; then the scratch buffer
  is read back, scaled to the pooled mean, put through the two small layers and the softmax, and the result is stored
  into the output window. The run is a triple whose postcondition names the pieces the scratch buffer and the output
  window's staging buffer end with.
-/
import proofs.«156587_j64527588655232_1_alg».proof.Proof.K.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the output window's staging buffer and in the scratch buffer at the last point,
    with the proof that on whole memrefs — the nine operands at their contents, the output's buffer at anything, the
    scratch buffer at what the point before left — the body runs to any continuation that holds the nine operands as they
    were and the two buffers with those pieces written. -/
noncomputable def kernelRun1_C (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : cond1_1 i)
    (x0 : Vec F S5000x64 .f32) (x1 : Vec F S5000x64 .f32) (x2 : Vec F S64x64 .f32) (x3 : Vec F S64 .f32) (x4 : Vec F S64x64 .f32) (x5 : Vec F S64x64 .f32) (x6 : Vec F S64 .f32) (x7 : Vec F S64x10 .f32) (x8 : Vec F S10 .f32) (xs : Vec F S1x64 .f32) :
    Σ' (L9 : List (View.Piece (Elt F) S1x10 .f32)), { LS : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg9.eq_unread hf8
    obtain rfl := harg11.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _; iexact HS

end Cert.Kernel.Hand

end
-- ==== Proof.K.R1.lean ====
/-
  Region 1 of the program (the second dense layer, the column sums carried in a scratch buffer from grid point to grid
  point, and at the last point the pooled mean, the two small layers and the softmax) at a parameter `V`, the
  TensorCore's buffer contents when the region is entered: what the scratch buffer and the output window hold after each
  point, the pipeline's proof data, its invariant, and the body obligation at every point.
-/
import proofs.«156587_j64527588655232_1_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- At the first point the pieces for the scratch buffer cover it. -/
theorem scover1_A (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : cond1_0 i) (hc1 : ¬cond1_1 i)
    (x0 : Vec F S5000x64 .f32) (x1 : Vec F S5000x64 .f32) (x2 : Vec F S64x64 .f32) (x3 : Vec F S64 .f32) (x4 : Vec F S64x64 .f32) (y : S1x64.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4).1 S1x64.size (by sl_kernel_rfl) y

/-- What the first point leaves in the scratch buffer: the column sums of the first block's activations, added to zero. -/
def sout1_A (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : cond1_0 i) (hc1 : ¬cond1_1 i)
    (x0 : Vec F S5000x64 .f32) (x1 : Vec F S5000x64 .f32) (x2 : Vec F S64x64 .f32) (x3 : Vec F S64 .f32) (x4 : Vec F S64x64 .f32) : Vec F S1x64 .f32 :=
  VS1.read (Elt F) (VS1.writes (Elt F) VS1.junk (kernelRun1_A c i arg1 harg1 arg2 harg2 arg3 harg3 arg4 harg4 arg5 harg5 arg6 harg6 arg7 harg7 arg8 harg8 arg9 harg9 arg10 harg10 arg11 harg11 hc0 hc1 x0 x1 x2 x3 x4).1)

/-- At a middle point the pieces for the scratch buffer cover it. -/
theorem scover1_B (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : ¬cond1_1 i)
    (x0 : Vec F S5000x64 .f32) (x1 : Vec F S5000x64 .f32) (x2 : Vec F S64x64 .f32) (x3 : Vec F S64 .f32) (x4 : Vec F S64x64 .f32) (xs : Vec F S1x64 .f32) (y : S1x64.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 xs).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 xs).1 S1x64.size (by sl_kernel_rfl) y

/-- What a middle point leaves in the scratch buffer: the column sums of its block's activations, added to what the
    point before left. -/
def sout1_B (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : ¬cond1_1 i)
    (x0 : Vec F S5000x64 .f32) (x1 : Vec F S5000x64 .f32) (x2 : Vec F S64x64 .f32) (x3 : Vec F S64 .f32) (x4 : Vec F S64x64 .f32) (xs : Vec F S1x64 .f32) : Vec F S1x64 .f32 :=
  VS1.read (Elt F) (VS1.writes (Elt F) VS1.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 xs).1)

/-- At the last point the pieces for the output window tile its block, so they cover it. -/
theorem cover1_C_9 (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : cond1_1 i)
    (x0 : Vec F S5000x64 .f32) (x1 : Vec F S5000x64 .f32) (x2 : Vec F S64x64 .f32) (x3 : Vec F S64 .f32) (x4 : Vec F S64x64 .f32) (x5 : Vec F S64x64 .f32) (x6 : Vec F S64 .f32) (x7 : Vec F S64x10 .f32) (x8 : Vec F S10 .f32) (xs : Vec F S1x64 .f32) (y : S1x10.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs).1 S1x10.size (by sl_kernel_rfl) y

/-- What the last point leaves in the output window's staging buffer: the softmax of the second small layer over the
    first over the pooled mean. -/
def out1_C_9 (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : cond1_1 i)
    (x0 : Vec F S5000x64 .f32) (x1 : Vec F S5000x64 .f32) (x2 : Vec F S64x64 .f32) (x3 : Vec F S64 .f32) (x4 : Vec F S64x64 .f32) (x5 : Vec F S64x64 .f32) (x6 : Vec F S64 .f32) (x7 : Vec F S64x10 .f32) (x8 : Vec F S10 .f32) (xs : Vec F S1x64 .f32) : Vec F S1x10 .f32 :=
  VO1_9.read (Elt F) (VO1_9.writes (Elt F) VO1_9.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs).1)

/-- At the last point the pieces for the scratch buffer cover it. -/
theorem scover1_C (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : cond1_1 i)
    (x0 : Vec F S5000x64 .f32) (x1 : Vec F S5000x64 .f32) (x2 : Vec F S64x64 .f32) (x3 : Vec F S64 .f32) (x4 : Vec F S64x64 .f32) (x5 : Vec F S64x64 .f32) (x6 : Vec F S64 .f32) (x7 : Vec F S64x10 .f32) (x8 : Vec F S10 .f32) (xs : Vec F S1x64 .f32) (y : S1x64.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs).2.1 S1x64.size (by sl_kernel_rfl) y

/-- What the last point leaves in the scratch buffer: the column sums over all twenty blocks. -/
def sout1_C (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : cond1_1 i)
    (x0 : Vec F S5000x64 .f32) (x1 : Vec F S5000x64 .f32) (x2 : Vec F S64x64 .f32) (x3 : Vec F S64 .f32) (x4 : Vec F S64x64 .f32) (x5 : Vec F S64x64 .f32) (x6 : Vec F S64 .f32) (x7 : Vec F S64x10 .f32) (x8 : Vec F S10 .f32) (xs : Vec F S1x64 .f32) : Vec F S1x64 .f32 :=
  VS1.read (Elt F) (VS1.writes (Elt F) VS1.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs).2.1)

/-- Where the output window is idle nothing is stored into it: a placeholder that nothing consults, since at these points
    the window is neither written back nor read at the next point. -/
def out1_idle_9 : Vec F S1x10 .f32 := VO1_9.read (Elt F) (VO1_9.writes (Elt F) VO1_9.junk [])

section Region1
variable (V : (c : Dev nD) → (b : Ref sig .tc) → Buf (Elt F) ((c : Thread nD τ).loc b))

/-! ## What the output window and the scratch buffer hold after each point -/

/-- The accumulation. What the output window's staging buffer and the scratch buffer hold after the body at position
    `n`: at position 0 the first point's case over the five blocks there; at position 19 the last point's case over the
    nine blocks there and what position 18 left in the scratch buffer; in between the middle case over the five blocks
    and what the position before left. -/
def outsAt1 (c : Dev nD) : (n : ℕ) → n < cfg1.N → Vec F S1x10 .f32 × Vec F S1x64 .f32
  | 0, hn => (out1_idle_9, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h1 : n + 1 = 19 then
      (out1_C_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2)
    else
      (out1_idle_9, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at the first point. -/
theorem outsAt1_A (c : Dev nD) (t : Fin cfg1.N) (h0 : t.val = 0) (h1 : ¬t.val = 19) :
    outsAt1 V c t.val t.isLt = (out1_idle_9, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact absurd h0 (Nat.succ_ne_zero n)

/-- `outsAt1` at a middle point: over what the point before left. -/
theorem outsAt1_B (c : Dev nD) (t : Fin cfg1.N) (h0 : ¬t.val = 0) (h1 : ¬t.val = 19) :
    outsAt1 V c t.val t.isLt = (out1_idle_9, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- `outsAt1` at the last point: over what the point before left. -/
theorem outsAt1_C (c : Dev nD) (t : Fin cfg1.N) (h0 : ¬t.val = 0) (h1 : t.val = 19) :
    outsAt1 V c t.val t.isLt = (out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- The region invariant before position `n`: before the first point the class invariant (the scratch buffer at anything);
    afterwards the nine staging buffers of the other call, the scratch buffer at what the point before left in it, and the
    generator register at some state. -/
def PhiS1 (c : Dev nD) : (n : ℕ) → n ≤ cfg1.N → sProp 𝕄
  | 0, _ => Pipeline.ΦA spec1 c
  | n + 1, hn => iprop(iprop(others1 (F := F) c ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n`: the scratch buffer at that point's contents. -/
theorem PhiS1_succ (c : Dev nD) (n : ℕ) (hn : n < cfg1.N) :
    PhiS1 V c (n + 1) hn = iprop(iprop(others1 (F := F) c ∗ owns (c : Thread nD τ) scM1 fullShare ((outsAt1 V c n hn).2)) ∗ (∃ r, prngReg c r)) := rfl

/-- Before a point that is not the first: the scratch buffer at what the point before left. -/
theorem PhiS1_pos (c : Dev nD) (n : ℕ) (h : n ≤ cfg1.N) (hz : n ≠ 0) :
    PhiS1 V c n h = iprop(iprop(others1 (F := F) c ∗ owns (c : Thread nD τ) scM1 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q1 (c : Dev nD) (w : Fin cfg1.W) : (dat1 V c).q w = fullShare := rfl
theorem owed1 (c : Dev nD) (t : Fin (cfg1.N + 1)) : (dat1 V c).owed t = 0 := rfl
theorem recorded1 (c : Dev nD) : (dat1 V c).recorded 0 = Set.univ := rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 4800000 in
/-- The body at any point. The inputs' memrefs hold their blocks; the closed forms say which of the three cases the point
    is in, so that case's run applies; the invariant hands the body the scratch buffer at what the point before left (at
    anything at the first point) and takes it back at this point's contents; where the output window is idle its buffer
    and the last point's four operands stay untouched around the run; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  by_cases h0 : t.val = 0
  · have h1 : ¬t.val = 19 := by omega
    rw [Dat.leavesExact_idle (dat1 V c) 9 t (idleAt1_9 t (fun h => h1 ((hcond1_1 t).mp h))) (noFlush1_9 t (fun h => h1 ((hcond1_1 t).mp h)))]
    rw [outsAt1_A V c t h0 h1]
    unfold sout1_A; (try dsimp only)
    rw [PhiS1_castSucc V c t, PhiS1_zero V c _ _ h0, PhiA1_eq]
    iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HR HS Hg]
    · isplitl [HR HS]
      · isplitl [HR]; · iexact HR
        unfold owns; iexists _; isplitr
        swap; · iexact HS
        ipureintro; exact View.read_writes_of_cover _ _ _ _ _ (scover1_A c _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · by_cases h1 : t.val = 19
    · rw [show (dat1 V c).leavesExact 9 t = owns (c : Thread nD τ) (ms1_9 t) fullShare ((dat1 V c).after 9 t) from by
        unfold Dat.leavesExact; rw [liveAt1_9 t ((hcond1_1 t).mpr h1)], after1_9]
      rw [outsAt1_C V c t h0 h1]
      unfold out1_C_9 sout1_C; (try dsimp only)
      rw [PhiS1_castSucc V c t, PhiS1_pos V c _ _ h0]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, ⟨%e9, H9⟩, ⟨%es, HS⟩⟩
      isplitl [HR HS Hg]
      · isplitl [HR HS]
        · isplitl [HR]; · iexact HR
          unfold owns; iexists _; isplitr
          swap; · iexact HS
          ipureintro; exact View.read_writes_of_cover _ _ _ _ _ (scover1_C c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover1_C_9 c _ _ _ _ _ _ _ _ _ _ _ _ _ _ _ _ _ _ _ _ _ _ _ _ _ _ _ _ _ _ _ _ _ _ _)
    · rw [Dat.leavesExact_idle (dat1 V c) 9 t (idleAt1_9 t (fun h => h1 ((hcond1_1 t).mp h))) (noFlush1_9 t (fun h => h1 ((hcond1_1 t).mp h)))]
      rw [outsAt1_B V c t h0 h1]
      unfold sout1_B; (try dsimp only)
      rw [PhiS1_castSucc V c t, PhiS1_pos V c _ _ h0]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HR HS Hg]
      · isplitl [HR HS]
        · isplitl [HR]; · iexact HR
          unfold owns; iexists _; isplitr
          swap; · iexact HS
          ipureintro; exact View.read_writes_of_cover _ _ _ _ _ (scover1_B c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HR, HS⟩, Hg⟩
  isplitl [HR HS]
  · isplitl [HR]; · iexact HR
    iexists _; iexact HS
  iexact Hg

/-- After the last point the invariant gives the class invariant back: the scratch's named contents are forgotten. -/
theorem hout1 (c : Dev nD) : (dat1 V c).Φ (Fin.last cfg1.N) ⊢ (Pipeline.ΦA spec1 c : sProp 𝕄) :=
  Phi_out1 V c _ (by rw [Fin.val_last]; have : cfg1.N = 20 := N_1; omega)

end Region1

end Cert.Kernel.Hand

end
-- ==== Proof.K.Run.lean ====
/-
  The run of the whole program: twenty-nine host operations, the first dense layer's region, nineteen host operations,
  the second region. The buffer contents at each of the five boundaries are written as a fold from the launch memory: a
  host stretch rewrites the buffers its operations write, a region leaves its arrays at what its write-backs fold to
  and every other buffer as entered. Each region is a segment over the thread state "every unscoped buffer at the
  boundary's contents, the generator register at some state, nothing owed"; the launch over the four segments ends with
  every unscoped buffer at the last boundary's contents, from which the arguments (no stretch writes one, a region only
  reads one) and the result (the last region's output array) are read.
-/
import proofs.«156587_j64527588655232_1_alg».proof.Proof.K.R0
import proofs.«156587_j64527588655232_1_alg».proof.Proof.K.R1
import proofs.«156587_j64527588655232_1_alg».proof.Proof.Gen.Kernel.Regions
import Idealize.ShloMosaic.Lib.StableHlo.Run
import Idealize.ShloMosaic.Lib.Pipeline.Frame
import Idealize.ShloMosaic.Lib.Pipeline.Kit
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: what region 0 is entered from. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what its write-backs fold to, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
/-- At region 0's exit each of its arrays holds what the region leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what region 1 is entered from. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what its write-backs fold to, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
/-- At region 1's exit each of its arrays holds what the region leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What a host stretch leaves unchanged -/

/-- A reference the first stretch's operations do not write holds at region 0's entry what it held at launch. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- A reference the second stretch's operations do not write holds at region 1's entry what region 0 left in it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- Region 1's first operand is region 0's output array as region 0 left it: the second stretch does not write it. -/
theorem V3_arr0 (c : Dev nD) : V3 m ρ c main_v23 = (dat0 (V1 m ρ) c).arrAt 5 cfg0.N :=
  (W3_of m ρ c main_v23 (by decide)).trans (W2_arr m ρ c 5)

/-! ## The arguments end as launched

No host operation writes an argument and a region reads it through an input window, whose array is never written
back, or bypasses it: the fold at an argument's buffer walks back to the launch memory. -/

/-- `main_arg0` ends as launched: no host operation writes it, region 0 reads it through input window 0 and the other region bypasses it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

/-- `main_arg1` ends as launched: no host operation writes it, both regions bypass it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- `main_arg2` ends as launched: no host operation writes it, region 0 reads it through input window 2 and the other region bypasses it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of m ρ c main_arg2 (by decide)
    _ = m ((c : Thread nD τ).loc main_arg2) := rfl

/-- `main_arg3` ends as launched: no host operation writes it, region 0 reads it through input window 3 and the other region bypasses it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := W1_of m ρ c main_arg3 (by decide)
    _ = m ((c : Thread nD τ).loc main_arg3) := rfl

/-- `main_arg4` ends as launched: no host operation writes it, region 0 reads it through input window 4 and the other region bypasses it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := W1_of m ρ c main_arg4 (by decide)
    _ = m ((c : Thread nD τ).loc main_arg4) := rfl

/-- `main_arg5` ends as launched: no host operation writes it, region 1 reads it through input window 2 and the other region bypasses it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 2).trans (((dat1 (V3 m ρ) c).arrAt_in 2 rfl _).trans (A_eq1 (V3 m ρ) c 2))
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-- `main_arg6` ends as launched: no host operation writes it, region 1 reads it through input window 3 and the other region bypasses it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 3).trans (((dat1 (V3 m ρ) c).arrAt_in 3 rfl _).trans (A_eq1 (V3 m ρ) c 3))
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- `main_arg7` ends as launched: no host operation writes it, region 1 reads it through input window 4 and the other region bypasses it. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 4).trans (((dat1 (V3 m ρ) c).arrAt_in 4 rfl _).trans (A_eq1 (V3 m ρ) c 4))
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- `main_arg8` ends as launched: no host operation writes it, region 1 reads it through input window 5 and the other region bypasses it. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 5).trans (((dat1 (V3 m ρ) c).arrAt_in 5 rfl _).trans (A_eq1 (V3 m ρ) c 5))
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-- `main_arg9` ends as launched: no host operation writes it, region 1 reads it through input window 6 and the other region bypasses it. -/
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 6).trans (((dat1 (V3 m ρ) c).arrAt_in 6 rfl _).trans (A_eq1 (V3 m ρ) c 6))
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

/-- `main_arg10` ends as launched: no host operation writes it, region 1 reads it through input window 7 and the other region bypasses it. -/
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 7).trans (((dat1 (V3 m ρ) c).arrAt_in 7 rfl _).trans (A_eq1 (V3 m ρ) c 7))
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

/-- `main_arg11` ends as launched: no host operation writes it, region 1 reads it through input window 8 and the other region bypasses it. -/
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := (W4_arr m ρ c 8).trans (((dat1 (V3 m ρ) c).arrAt_in 8 rfl _).trans (A_eq1 (V3 m ρ) c 8))
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

/-! ## The proof data family and the thread state -/

/-- The prefetched tables' admissible contents: no pipeline has a table. -/
abbrev admT : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admT p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the region
    invariant and comes back; nothing is owed; the kernel has no semaphore of its own. -/
def reg0 : Pipeline.RegionSeg (pcfgs (F := F)) admT (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents. Its invariant names the scratch buffer's contents
    from point to point: at entry it is made from the generator register and the scoped buffers no window stages (the
    scratch among them, at anything), and after the last point it gives them back, the scratch's contents forgotten. -/
def reg1 : Pipeline.RegionSeg (pcfgs (F := F)) admT (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed1 (V3 m ρ) c t
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) admT (pdats m ρ) launch1.win launch1.arr_whole c
      ((pdats m ρ 1 c).share_full fun w => q1 (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from owed1 (V3 m ρ) c 0]
      icases HO with ⟨%W, HO⟩; iexists W; isplitr
      · ipureintro; exact fun x _ => Or.inl ((recorded1 (V3 m ρ) c).symm ▸ Set.mem_univ x)
      iexact HO
    isplitl [Hp]; · iexact Hp
    iexact Hrest
  hin c := by
    refine BIClass.entails_trans ?_ (hin1 (V3 m ρ) c)
    unfold Pipeline.ΦA
    iintro ⟨Hp, -, Hr⟩
    isplitl [Hr]; · iexact Hr
    iexact Hp
  hout c := by
    rw [Pipeline.ownSems0_none]
    refine BIClass.entails_trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m ρ) ((pdats m ρ 1 c).share_full fun w => q1 (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ 1 c).owed (Fin.last (Pipeline.pin (pcfgs (F := F)) admT 1).N) = 0 from owed1 (V3 m ρ) c _]
    icases HO with ⟨%W, -, HO⟩; iexists W; iexact HO

/-! ## The program as segments, and the launch -/

/-- The program's four segments in order: a host segment per stretch from its boundary's contents, a region per
    pallas_call. -/
abbrev segsT : List (Pipeline.Seg (pcfgs (F := F)) admT (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of the segments. -/
theorem main_run (c : Dev nD) : main (F := F) c = Pipeline.Seg.run (segsT m ρ) := (main_chain c).trans (by chain_rfl)

set_option backward.isDefEq.respectTransparency.types false in
/-- THE RUN: from any memory with zero counters, every weakly fair execution of the program on the TensorCores
    terminates, nothing faulting, and every final memory holds each unscoped buffer at the last boundary's contents
    `W4`: the launch over the segments, the last thread state read against the final state. -/
theorem run : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) admT (pdats m ρ) () cellOf_inj emb₁ defs₀ 𝒱₀ L lv m ρ main (segsT m ρ)
    (fun c Q => by rw [main_run m ρ c])
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- Every argument array ends holding its launch contents. -/
theorem args_end {s : MemSt nD τ sig (Elt F)} {c : Dev nD}
    (h : ∀ b ∈ Pipeline.ucRefs τ sig, s.mem ((c : Thread nD τ).1, b) = W4 m ρ c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11) :=
  ⟨(h _ (mem_uc main_arg0 (by decide))).trans (W4_main_arg0 m ρ c),
    (h _ (mem_uc main_arg1 (by decide))).trans (W4_main_arg1 m ρ c),
    (h _ (mem_uc main_arg2 (by decide))).trans (W4_main_arg2 m ρ c),
    (h _ (mem_uc main_arg3 (by decide))).trans (W4_main_arg3 m ρ c),
    (h _ (mem_uc main_arg4 (by decide))).trans (W4_main_arg4 m ρ c),
    (h _ (mem_uc main_arg5 (by decide))).trans (W4_main_arg5 m ρ c),
    (h _ (mem_uc main_arg6 (by decide))).trans (W4_main_arg6 m ρ c),
    (h _ (mem_uc main_arg7 (by decide))).trans (W4_main_arg7 m ρ c),
    (h _ (mem_uc main_arg8 (by decide))).trans (W4_main_arg8 m ρ c),
    (h _ (mem_uc main_arg9 (by decide))).trans (W4_main_arg9 m ρ c),
    (h _ (mem_uc main_arg10 (by decide))).trans (W4_main_arg10 m ρ c),
    (h _ (mem_uc main_arg11 (by decide))).trans (W4_main_arg11 m ρ c)⟩

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => args_end m ρ (h c)) (run m ρ)

/-- THE RESULT: the program runs, its result array ends at what region 1's write-backs fold to, and its argument
    arrays end unchanged. -/
theorem run_value : θ_run defs (onTc (τ := τ) (main (F := F))) ⟨m, fun _ => 0, ρ⟩ (fun r => ∀ c : Dev nD,
      r.2.mem ((c.tc : Thread nD τ).loc main_v39) = (dat1 (V3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v39 (by decide))).trans (W4_arr m ρ c 9), args_end m ρ (h c)⟩) (run m ρ)

end Cert.Kernel.Hand

end
-- ==== Proof.KI.R0.lean ====
/-
  Region 0 of the program (the first dense layer) at a parameter `V`, the TensorCore's buffer contents when the region is
  entered: each window's block at a grid point, what the body leaves in the output window's staging buffer as a function
  of the five input blocks, the body's triple, the pipeline's proof data and the body obligation at every point.
  The body loads its five input blocks whole, computes one value and stores it whole into the output block; it carries
  nothing from point to point, so the region invariant is the scoped rest and the generator register, untouched.
-/
import proofs.«156587_j64527588655232_1_alg».proof.Proof.Gen.KernelIdeal.Launch
import proofs.«156587_j64527588655232_1_alg».proof.Proof.Gen.KernelIdeal.Skeleton
import proofs.«156587_j64527588655232_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_a : Rect S5000x8 := Rect.unit (s := S5000x8) ![0, 0] S5000x8.size inb_S5000x8_S5000x8_0_0
abbrev r0_w : Rect S8x64 := Rect.unit (s := S8x64) ![0, 0] S8x64.size inb_S8x64_S8x64_0_0
abbrev r0_b : Rect S64 := Rect.unit (s := S64) ![0] S64.size inb_S64_S64_0
abbrev r0_o : Rect S5000x64 := Rect.unit (s := S5000x64) ![0, 0] S5000x64.size inb_S5000x64_S5000x64_0_0

/-- Input window 0's current staging buffer holds its block at every point, fetched there or not: where it is not
    fetched its block index has not moved, so the block kept from the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it is not
    fetched its block index has not moved, so the block kept from the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it is not
    fetched its block index has not moved, so the block kept from the point before is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it is not
    fetched its block index has not moved, so the block kept from the point before is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it is not
    fetched its block index has not moved, so the block kept from the point before is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The one store is of the whole output block, so it covers it. -/
theorem cover0_5 (p0 : Vec F S5000x64 .f32) (y : S5000x64.Idx) :
    ∃ pc ∈ ([⟨r0_o, p0⟩] : List (View.Piece (Elt F) S5000x64 .f32)), y ∈ pc.1.set :=
  View.cover_of_tiled [⟨r0_o, p0⟩] S5000x64.size (by rfl) y

/-- The output window's staging buffer after the body, from the five input blocks (windows 0 to 4 in order): the one
    store's payload over the loaded blocks. -/
def out0_5 (x0 : Vec F S5000x8 .f32) (x1 : Vec F S5000x8 .f32) (x2 : Vec F S8x64 .f32) (x3 : Vec F S64 .f32) (x4 : Vec F S8x64 .f32) : Vec F S5000x64 .f32 :=
  View.canon [⟨r0_o, k0_pay1 (View.ld x0 r0_a) (View.ld x1 r0_a) (View.ld x2 r0_w) (View.ld x4 r0_w) (View.ld x3 r0_b)⟩]

set_option maxHeartbeats 4000000 in
/-- The kernel body on whole staging memrefs, the five inputs' at read contents and the output's at anything, runs to
    the continuation holding the inputs' as they were and the output's at `out0_5` of the inputs'. -/
theorem sound_kernel0 (c : Dev nD) (E : Set ℕ) (i : grid0.Coords)
    (arg1 : Memref sig .tc .vmem S5000x8 .f32) (harg1 : arg1.IsWhole) (arg2 : Memref sig .tc .vmem S5000x8 .f32) (harg2 : arg2.IsWhole)
    (arg3 : Memref sig .tc .vmem S8x64 .f32) (harg3 : arg3.IsWhole) (arg4 : Memref sig .tc .vmem S64 .f32) (harg4 : arg4.IsWhole)
    (arg5 : Memref sig .tc .vmem S8x64 .f32) (harg5 : arg5.IsWhole) (arg6 : Memref sig .tc .vmem S5000x64 .f32) (harg6 : arg6.IsWhole)
    (x0 : Vec F S5000x8 .f32) (x1 : Vec F S5000x8 .f32) (x2 : Vec F S8x64 .f32) (x3 : Vec F S64 .f32) (x4 : Vec F S8x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__sage1_kernel i arg1 harg1 arg2 harg2 arg3 harg3 arg4 harg4 arg5 harg5 arg6 harg6) K := by
  simp only [cc0__sage1_kernel_eq_skeleton]; unfold cc0__sage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

/-- What the body leaves in each input window's buffer: its block, in place. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Base.lean ====
/-
  Region 1 of the program at a parameter `V`, the TensorCore's buffer contents when the region is entered: what the
  three control cases of its body share. Each window's block at a grid point; the two conditions on the grid
  coordinate in closed form (the first holds at point 0 only, the second at point 19 only); where the output window is
  idle; the staging memrefs at a point and the scratch buffer that carries the column sums from point to point; and the
  class invariant with that scratch buffer set apart from the nine staging buffers of the other call.
-/
import proofs.«156587_j64527588655232_1_alg».proof.Proof.Gen.KernelIdeal.Launch
import proofs.«156587_j64527588655232_1_alg».proof.Proof.Gen.KernelIdeal.Skeleton
import proofs.«156587_j64527588655232_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, so the block kept from the point before is this point's. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved, so the block kept from the point before is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved, so the block kept from the point before is this point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved, so the block kept from the point before is this point's. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved, so the block kept from the point before is this point's. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched its block index has not moved, so the block kept from the point before is this point's. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: where it is not
    fetched its block index has not moved, so the block kept from the point before is this point's. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: where it is not
    fetched its block index has not moved, so the block kept from the point before is this point's. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not: where it is not
    fetched its block index has not moved, so the block kept from the point before is this point's. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions on the grid coordinate -/

/-- The first condition: the grid coordinate is 0 (the scratch buffer is zeroed there). -/
abbrev cond1_0 (i : grid1.Coords) : Prop := (Scalar.cmpi .ne (Scalar.extui (Scalar.cmpi .eq (BitVec.ofNat 32 (i 0).val) 0#32)) 0#32) = 1#1
/-- It holds at point 0 only. -/
theorem hcond1_0 : ∀ t : Fin cfg1.N, cond1_0 (grid1.coords t) ↔ t.val = 0 :=
  (by decide +kernel : ∀ t : Fin grid1.N, cond1_0 (grid1.coords t) ↔ t.val = 0)

/-- The second condition: the grid coordinate is 19 (the pooled mean, the two small layers and the softmax are computed there). -/
abbrev cond1_1 (i : grid1.Coords) : Prop := k1_cond2 i = 1#1
/-- It holds at point 19 only. -/
theorem hcond1_1 : ∀ t : Fin cfg1.N, cond1_1 (grid1.coords t) ↔ t.val = 19 :=
  (by decide +kernel : ∀ t : Fin grid1.N, cond1_1 (grid1.coords t) ↔ t.val = 19)

/-! ## Where the windows are idle -/

/-- Window 0, an input, is never idle. -/
theorem liveAt1_0 : ∀ t : Fin cfg1.N, cfg1.idle 0 (grid1.coords t) = false := by decide +kernel
/-- Window 1, an input, is never idle. -/
theorem liveAt1_1 : ∀ t : Fin cfg1.N, cfg1.idle 1 (grid1.coords t) = false := by decide +kernel
/-- Window 2, an input, is never idle. -/
theorem liveAt1_2 : ∀ t : Fin cfg1.N, cfg1.idle 2 (grid1.coords t) = false := by decide +kernel
/-- Window 3, an input, is never idle. -/
theorem liveAt1_3 : ∀ t : Fin cfg1.N, cfg1.idle 3 (grid1.coords t) = false := by decide +kernel
/-- Window 4, an input, is never idle. -/
theorem liveAt1_4 : ∀ t : Fin cfg1.N, cfg1.idle 4 (grid1.coords t) = false := by decide +kernel
/-- Window 5, an input, is never idle. -/
theorem liveAt1_5 : ∀ t : Fin cfg1.N, cfg1.idle 5 (grid1.coords t) = false := by decide +kernel
/-- Window 6, an input, is never idle. -/
theorem liveAt1_6 : ∀ t : Fin cfg1.N, cfg1.idle 6 (grid1.coords t) = false := by decide +kernel
/-- Window 7, an input, is never idle. -/
theorem liveAt1_7 : ∀ t : Fin cfg1.N, cfg1.idle 7 (grid1.coords t) = false := by decide +kernel
/-- Window 8, an input, is never idle. -/
theorem liveAt1_8 : ∀ t : Fin cfg1.N, cfg1.idle 8 (grid1.coords t) = false := by decide +kernel
/-- Where the second condition fails nothing is stored into the output window: it is idle there, -/
theorem idleAt1_9 : ∀ t : Fin cfg1.N, ¬cond1_1 (grid1.coords t) → cfg1.idle 9 (grid1.coords t) = true := by decide +kernel
/-- and its block is not written back there. -/
theorem noFlush1_9 : ∀ t : Fin cfg1.N, ¬cond1_1 (grid1.coords t) → (cfg1.win 9).flush t = false := by decide +kernel
/-- Where the second condition holds the output window is live. -/
theorem liveAt1_9 : ∀ t : Fin cfg1.N, cond1_1 (grid1.coords t) → cfg1.idle 9 (grid1.coords t) = false := by decide +kernel

/-! ## The memrefs the body is called with -/

/-- One staging buffer of the output window, through which its contents are stated. -/
abbrev VO1_9 : View sig .tc .vmem S1x10 .f32 := (Memref.whole cc1_stg9_0 : Memref sig .tc .vmem S1x10 .f32).view
/-- Each window's current staging memref at point `t`, and its wholeness. -/
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x10 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S10 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x10 .f32 := win1_9.stage (cfg1.slots t 9)
abbrev hs1_9 (t : Fin cfg1.N) : (ms1_9 t).IsWhole := hstage1_9 ((cfg1.slots t 9).cast nbuf1_9)
/-- The scratch operand: a whole scoped buffer of the kernel's own, in which the column sums are carried. -/
abbrev scM1 : Memref sig .tc .vmem S1x64 .f32 := Memref.whole cc1_scratch0
/-- The same as a view: what the scratch buffer holds is stated through it. -/
abbrev VS1 : View sig .tc .vmem S1x64 .f32 := (scM1).view

/-! ## The class invariant, the scratch buffer set apart -/

/-- The nine staging buffers of the other call, each whole at some contents: the region never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant is the nine staging buffers of the other call, the scratch buffer owned at some contents, and the
    generator register at some state. -/
theorem PhiA1_eq (c : Dev nD) :
    (Pipeline.ΦA spec1 c : sProp 𝕄)
      = iprop(iprop(others1 (F := F) c ∗ (∃ d, owns (c : Thread nD τ) scM1 fullShare d)) ∗ (∃ r, prngReg c r)) := by
  unfold Pipeline.ΦA; rw [scopedRest1_eq]; simp only [scM1, owns_whole]
  unfold others1
  refine BI.equiv_iff.mp ⟨?_, ?_⟩
  · show (_ : sProp 𝕄) ⊢ _
    iintro ⟨⟨R0, R1, R2, R3, R4, R5, R6, R7, R8, HS⟩, Hg⟩
    isplitr [Hg]
    · isplitr [HS]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iexact R8
      · iexact HS
    · iexact Hg
  · show (_ : sProp 𝕄) ⊢ _
    iintro ⟨⟨⟨R0, R1, R2, R3, R4, R5, R6, R7, R8⟩, HS⟩, Hg⟩
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      iexact HS
    · iexact Hg

end Cert.KernelIdeal.Hand

end
-- ==== Proof.KI.R1RunA.lean ====
/-
  Region 1's body at the first grid point. The first condition holds there and the second does not: the scratch buffer
  is zeroed, then the two row blocks, the second layer's two weight matrices and its bias are loaded and the column sums
  of this block's activations are added into the scratch buffer. The run is a triple whose postcondition names the pieces
  the scratch buffer ends with; the output window and the last point's four operands are not touched.
-/
import proofs.«156587_j64527588655232_1_alg».proof.Proof.KI.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- The pieces the body's stores leave in the scratch buffer at the first point, with the proof that on whole memrefs —
    the five operands it loads at their contents, the scratch buffer at anything — the body runs to any continuation
    that holds the five operands as they were and the scratch buffer with those pieces written. -/
noncomputable def kernelRun1_A (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : cond1_0 i) (hc1 : ¬cond1_1 i)
    (x0 : Vec F S5000x64 .f32) (x1 : Vec F S5000x64 .f32) (x2 : Vec F S64x64 .f32) (x3 : Vec F S64 .f32) (x4 : Vec F S64x64 .f32) :
    { LS : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg11.view.loc (c : Thread nD τ) ↦[arg11.view.set]{fullShare} arg11.view.writes (Elt F) f LS)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.KernelIdeal.Hand

end
-- ==== Proof.KI.R1RunB.lean ====
/-
  Region 1's body at a grid point that is neither the first nor the last. Neither condition holds: the two row blocks,
  the second layer's two weight matrices and its bias are loaded and the column sums of this block's activations are
  added into the scratch buffer, which holds what the point before left. The run is a triple whose postcondition names
  the pieces the scratch buffer ends with; the output window and the last point's four operands are not touched.
-/
import proofs.«156587_j64527588655232_1_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- The pieces the body's stores leave in the scratch buffer at a middle point, with the proof that on whole memrefs —
    the five operands it loads at their contents, the scratch buffer at what the point before left — the body runs to any
    continuation that holds the five operands as they were and the scratch buffer with those pieces written. -/
noncomputable def kernelRun1_B (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : ¬cond1_1 i)
    (x0 : Vec F S5000x64 .f32) (x1 : Vec F S5000x64 .f32) (x2 : Vec F S64x64 .f32) (x3 : Vec F S64 .f32) (x4 : Vec F S64x64 .f32) (xs : Vec F S1x64 .f32) :
    { LS : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg11.view.loc (c : Thread nD τ) ↦[arg11.view.set]{fullShare} arg11.view.writes (Elt F) f LS)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg11.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.KernelIdeal.Hand

end
-- ==== Proof.KI.R1RunC.lean ====
/-
  Region 1's body at the last grid point. The first condition fails and the second holds: the column sums of the last
  block's activations are added into the scratch buffer, which holds what the point before left; then the scratch buffer
  is read back, scaled to the pooled mean, put through the two small layers and the softmax, and the result is stored
  into the output window. The run is a triple whose postcondition names the pieces the scratch buffer and the output
  window's staging buffer end with.
-/
import proofs.«156587_j64527588655232_1_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
/-- The pieces the body's stores leave in the output window's staging buffer and in the scratch buffer at the last point,
    with the proof that on whole memrefs — the nine operands at their contents, the output's buffer at anything, the
    scratch buffer at what the point before left — the body runs to any continuation that holds the nine operands as they
    were and the two buffers with those pieces written. -/
noncomputable def kernelRun1_C (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : cond1_1 i)
    (x0 : Vec F S5000x64 .f32) (x1 : Vec F S5000x64 .f32) (x2 : Vec F S64x64 .f32) (x3 : Vec F S64 .f32) (x4 : Vec F S64x64 .f32) (x5 : Vec F S64x64 .f32) (x6 : Vec F S64 .f32) (x7 : Vec F S64x10 .f32) (x8 : Vec F S10 .f32) (xs : Vec F S1x64 .f32) :
    Σ' (L9 : List (View.Piece (Elt F) S1x10 .f32)), { LS : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS)) -∗ K ⟨⟩))
          ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg8.eq_unread hf7; obtain rfl := harg9.eq_unread hf8
    obtain rfl := harg11.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _; iexact HS

end Cert.KernelIdeal.Hand

end
-- ==== Proof.KI.R1.lean ====
/-
  Region 1 of the program (the second dense layer, the column sums carried in a scratch buffer from grid point to grid
  point, and at the last point the pooled mean, the two small layers and the softmax) at a parameter `V`, the
  TensorCore's buffer contents when the region is entered: what the scratch buffer and the output window hold after each
  point, the pipeline's proof data, its invariant, and the body obligation at every point.
-/
import proofs.«156587_j64527588655232_1_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## What each case leaves -/

/-- At the first point the pieces for the scratch buffer cover it. -/
theorem scover1_A (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : cond1_0 i) (hc1 : ¬cond1_1 i)
    (x0 : Vec F S5000x64 .f32) (x1 : Vec F S5000x64 .f32) (x2 : Vec F S64x64 .f32) (x3 : Vec F S64 .f32) (x4 : Vec F S64x64 .f32) (y : S1x64.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4).1 S1x64.size (by sl_kernel_rfl) y

/-- What the first point leaves in the scratch buffer: the column sums of the first block's activations, added to zero. -/
def sout1_A (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : cond1_0 i) (hc1 : ¬cond1_1 i)
    (x0 : Vec F S5000x64 .f32) (x1 : Vec F S5000x64 .f32) (x2 : Vec F S64x64 .f32) (x3 : Vec F S64 .f32) (x4 : Vec F S64x64 .f32) : Vec F S1x64 .f32 :=
  VS1.read (Elt F) (VS1.writes (Elt F) VS1.junk (kernelRun1_A c i arg1 harg1 arg2 harg2 arg3 harg3 arg4 harg4 arg5 harg5 arg6 harg6 arg7 harg7 arg8 harg8 arg9 harg9 arg10 harg10 arg11 harg11 hc0 hc1 x0 x1 x2 x3 x4).1)

/-- At a middle point the pieces for the scratch buffer cover it. -/
theorem scover1_B (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : ¬cond1_1 i)
    (x0 : Vec F S5000x64 .f32) (x1 : Vec F S5000x64 .f32) (x2 : Vec F S64x64 .f32) (x3 : Vec F S64 .f32) (x4 : Vec F S64x64 .f32) (xs : Vec F S1x64 .f32) (y : S1x64.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 xs).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 xs).1 S1x64.size (by sl_kernel_rfl) y

/-- What a middle point leaves in the scratch buffer: the column sums of its block's activations, added to what the
    point before left. -/
def sout1_B (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : ¬cond1_1 i)
    (x0 : Vec F S5000x64 .f32) (x1 : Vec F S5000x64 .f32) (x2 : Vec F S64x64 .f32) (x3 : Vec F S64 .f32) (x4 : Vec F S64x64 .f32) (xs : Vec F S1x64 .f32) : Vec F S1x64 .f32 :=
  VS1.read (Elt F) (VS1.writes (Elt F) VS1.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 xs).1)

/-- At the last point the pieces for the output window tile its block, so they cover it. -/
theorem cover1_C_9 (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : cond1_1 i)
    (x0 : Vec F S5000x64 .f32) (x1 : Vec F S5000x64 .f32) (x2 : Vec F S64x64 .f32) (x3 : Vec F S64 .f32) (x4 : Vec F S64x64 .f32) (x5 : Vec F S64x64 .f32) (x6 : Vec F S64 .f32) (x7 : Vec F S64x10 .f32) (x8 : Vec F S10 .f32) (xs : Vec F S1x64 .f32) (y : S1x10.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs).1 S1x10.size (by sl_kernel_rfl) y

/-- What the last point leaves in the output window's staging buffer: the softmax of the second small layer over the
    first over the pooled mean. -/
def out1_C_9 (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : cond1_1 i)
    (x0 : Vec F S5000x64 .f32) (x1 : Vec F S5000x64 .f32) (x2 : Vec F S64x64 .f32) (x3 : Vec F S64 .f32) (x4 : Vec F S64x64 .f32) (x5 : Vec F S64x64 .f32) (x6 : Vec F S64 .f32) (x7 : Vec F S64x10 .f32) (x8 : Vec F S10 .f32) (xs : Vec F S1x64 .f32) : Vec F S1x10 .f32 :=
  VO1_9.read (Elt F) (VO1_9.writes (Elt F) VO1_9.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs).1)

/-- At the last point the pieces for the scratch buffer cover it. -/
theorem scover1_C (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : cond1_1 i)
    (x0 : Vec F S5000x64 .f32) (x1 : Vec F S5000x64 .f32) (x2 : Vec F S64x64 .f32) (x3 : Vec F S64 .f32) (x4 : Vec F S64x64 .f32) (x5 : Vec F S64x64 .f32) (x6 : Vec F S64 .f32) (x7 : Vec F S64x10 .f32) (x8 : Vec F S10 .f32) (xs : Vec F S1x64 .f32) (y : S1x64.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs).2.1 S1x64.size (by sl_kernel_rfl) y

/-- What the last point leaves in the scratch buffer: the column sums over all twenty blocks. -/
def sout1_C (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : cond1_1 i)
    (x0 : Vec F S5000x64 .f32) (x1 : Vec F S5000x64 .f32) (x2 : Vec F S64x64 .f32) (x3 : Vec F S64 .f32) (x4 : Vec F S64x64 .f32) (x5 : Vec F S64x64 .f32) (x6 : Vec F S64 .f32) (x7 : Vec F S64x10 .f32) (x8 : Vec F S10 .f32) (xs : Vec F S1x64 .f32) : Vec F S1x64 .f32 :=
  VS1.read (Elt F) (VS1.writes (Elt F) VS1.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs).2.1)

/-- Where the output window is idle nothing is stored into it: a placeholder that nothing consults, since at these points
    the window is neither written back nor read at the next point. -/
def out1_idle_9 : Vec F S1x10 .f32 := VO1_9.read (Elt F) (VO1_9.writes (Elt F) VO1_9.junk [])

section Region1
variable (V : (c : Dev nD) → (b : Ref sig .tc) → Buf (Elt F) ((c : Thread nD τ).loc b))

/-! ## What the output window and the scratch buffer hold after each point -/

/-- The accumulation. What the output window's staging buffer and the scratch buffer hold after the body at position
    `n`: at position 0 the first point's case over the five blocks there; at position 19 the last point's case over the
    nine blocks there and what position 18 left in the scratch buffer; in between the middle case over the five blocks
    and what the position before left. -/
def outsAt1 (c : Dev nD) : (n : ℕ) → n < cfg1.N → Vec F S1x10 .f32 × Vec F S1x64 .f32
  | 0, hn => (out1_idle_9, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h1 : n + 1 = 19 then
      (out1_C_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1 (Memref.isWhole_whole _) (fun h => Nat.succ_ne_zero n ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2)
    else
      (out1_idle_9, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1 (Memref.isWhole_whole _) (fun h => Nat.succ_ne_zero n ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at the first point. -/
theorem outsAt1_A (c : Dev nD) (t : Fin cfg1.N) (h0 : t.val = 0) (h1 : ¬t.val = 19) :
    outsAt1 V c t.val t.isLt = (out1_idle_9, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact absurd h0 (Nat.succ_ne_zero n)

/-- `outsAt1` at a middle point: over what the point before left. -/
theorem outsAt1_B (c : Dev nD) (t : Fin cfg1.N) (h0 : ¬t.val = 0) (h1 : ¬t.val = 19) :
    outsAt1 V c t.val t.isLt = (out1_idle_9, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

/-- `outsAt1` at the last point: over what the point before left. -/
theorem outsAt1_C (c : Dev nD) (t : Fin cfg1.N) (h0 : ¬t.val = 0) (h1 : t.val = 19) :
    outsAt1 V c t.val t.isLt = (out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The region invariant -/

/-- The region invariant before position `n`: before the first point the class invariant (the scratch buffer at anything);
    afterwards the nine staging buffers of the other call, the scratch buffer at what the point before left in it, and the
    generator register at some state. -/
def PhiS1 (c : Dev nD) : (n : ℕ) → n ≤ cfg1.N → sProp 𝕄
  | 0, _ => Pipeline.ΦA spec1 c
  | n + 1, hn => iprop(iprop(others1 (F := F) c ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n`: the scratch buffer at that point's contents. -/
theorem PhiS1_succ (c : Dev nD) (n : ℕ) (hn : n < cfg1.N) :
    PhiS1 V c (n + 1) hn = iprop(iprop(others1 (F := F) c ∗ owns (c : Thread nD τ) scM1 fullShare ((outsAt1 V c n hn).2)) ∗ (∃ r, prngReg c r)) := rfl

/-- Before a point that is not the first: the scratch buffer at what the point before left. -/
theorem PhiS1_pos (c : Dev nD) (n : ℕ) (h : n ≤ cfg1.N) (hz : n ≠ 0) :
    PhiS1 V c n h = iprop(iprop(others1 (F := F) c ∗ owns (c : Thread nD τ) scM1 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q1 (c : Dev nD) (w : Fin cfg1.W) : (dat1 V c).q w = fullShare := rfl
theorem owed1 (c : Dev nD) (t : Fin (cfg1.N + 1)) : (dat1 V c).owed t = 0 := rfl
theorem recorded1 (c : Dev nD) : (dat1 V c).recorded 0 = Set.univ := rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 4800000 in
/-- The body at any point. The inputs' memrefs hold their blocks; the closed forms say which of the three cases the point
    is in, so that case's run applies; the invariant hands the body the scratch buffer at what the point before left (at
    anything at the first point) and takes it back at this point's contents; where the output window is idle its buffer
    and the last point's four operands stay untouched around the run; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  rw [show (dat1 V c).leavesExact 8 t = owns (c : Thread nD τ) (ms1_8 t) fullShare ((dat1 V c).after 8 t) from by
    unfold Dat.leavesExact; rw [liveAt1_8 t], after1_8]
  by_cases h0 : t.val = 0
  · have h1 : ¬t.val = 19 := by omega
    rw [Dat.leavesExact_idle (dat1 V c) 9 t (idleAt1_9 t (fun h => h1 ((hcond1_1 t).mp h))) (noFlush1_9 t (fun h => h1 ((hcond1_1 t).mp h)))]
    rw [outsAt1_A V c t h0 h1]
    unfold sout1_A; (try dsimp only)
    rw [PhiS1_castSucc V c t, PhiS1_zero V c _ _ h0, PhiA1_eq]
    iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HR HS Hg]
    · isplitl [HR HS]
      · isplitl [HR]; · iexact HR
        unfold owns; iexists _; isplitr
        swap; · iexact HS
        ipureintro; exact View.read_writes_of_cover _ _ _ _ _ (scover1_A c _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · by_cases h1 : t.val = 19
    · rw [show (dat1 V c).leavesExact 9 t = owns (c : Thread nD τ) (ms1_9 t) fullShare ((dat1 V c).after 9 t) from by
        unfold Dat.leavesExact; rw [liveAt1_9 t ((hcond1_1 t).mpr h1)], after1_9]
      rw [outsAt1_C V c t h0 h1]
      unfold out1_C_9 sout1_C; (try dsimp only)
      rw [PhiS1_castSucc V c t, PhiS1_pos V c _ _ h0]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS]; · iexact HS
      iintro ⟨H0, H1, H2, H3, H4, H5, H6, H7, H8, ⟨%e9, H9⟩, ⟨%es, HS⟩⟩
      isplitl [HR HS Hg]
      · isplitl [HR HS]
        · isplitl [HR]; · iexact HR
          unfold owns; iexists _; isplitr
          swap; · iexact HS
          ipureintro; exact View.read_writes_of_cover _ _ _ _ _ (scover1_C c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover1_C_9 c _ _ _ _ _ _ _ _ _ _ _ _ _ _ _ _ _ _ _ _ _ _ _ _ _ _ _ _ _ _ _ _ _ _ _)
    · rw [Dat.leavesExact_idle (dat1 V c) 9 t (idleAt1_9 t (fun h => h1 ((hcond1_1 t).mp h))) (noFlush1_9 t (fun h => h1 ((hcond1_1 t).mp h)))]
      rw [outsAt1_B V c t h0 h1]
      unfold sout1_B; (try dsimp only)
      rw [PhiS1_castSucc V c t, PhiS1_pos V c _ _ h0]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HR HS Hg]
      · isplitl [HR HS]
        · isplitl [HR]; · iexact HR
          unfold owns; iexists _; isplitr
          swap; · iexact HS
          ipureintro; exact View.read_writes_of_cover _ _ _ _ _ (scover1_B c _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the scratch's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HR, HS⟩, Hg⟩
  isplitl [HR HS]
  · isplitl [HR]; · iexact HR
    iexists _; iexact HS
  iexact Hg

/-- After the last point the invariant gives the class invariant back: the scratch's named contents are forgotten. -/
theorem hout1 (c : Dev nD) : (dat1 V c).Φ (Fin.last cfg1.N) ⊢ (Pipeline.ΦA spec1 c : sProp 𝕄) :=
  Phi_out1 V c _ (by rw [Fin.val_last]; have : cfg1.N = 20 := N_1; omega)

end Region1

end Cert.KernelIdeal.Hand

end
-- ==== Proof.KI.Run.lean ====
/-
  The run of the whole program: twenty-nine host operations, the first dense layer's region, nineteen host operations,
  the second region. The buffer contents at each of the five boundaries are written as a fold from the launch memory: a
  host stretch rewrites the buffers its operations write, a region leaves its arrays at what its write-backs fold to
  and every other buffer as entered. Each region is a segment over the thread state "every unscoped buffer at the
  boundary's contents, the generator register at some state, nothing owed"; the launch over the four segments ends with
  every unscoped buffer at the last boundary's contents, from which the arguments (no stretch writes one, a region only
  reads one) and the result (the last region's output array) are read.
-/
import proofs.«156587_j64527588655232_1_alg».proof.Proof.KI.R0
import proofs.«156587_j64527588655232_1_alg».proof.Proof.KI.R1
import proofs.«156587_j64527588655232_1_alg».proof.Proof.Gen.KernelIdeal.Regions
import Idealize.ShloMosaic.Lib.StableHlo.Run
import Idealize.ShloMosaic.Lib.Pipeline.Frame
import Idealize.ShloMosaic.Lib.Pipeline.Kit
import Idealize.ShloMosaic.Lib.Pipeline.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: what region 0 is entered from. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what its write-backs fold to, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
/-- At region 0's exit each of its arrays holds what the region leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what region 1 is entered from. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what its write-backs fold to, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
/-- At region 1's exit each of its arrays holds what the region leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What a host stretch leaves unchanged -/

/-- A reference the first stretch's operations do not write holds at region 0's entry what it held at launch. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- A reference the second stretch's operations do not write holds at region 1's entry what region 0 left in it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- Region 1's first operand is region 0's output array as region 0 left it: the second stretch does not write it. -/
theorem V3_arr0 (c : Dev nD) : V3 m ρ c main_v23 = (dat0 (V1 m ρ) c).arrAt 5 cfg0.N :=
  (W3_of m ρ c main_v23 (by decide)).trans (W2_arr m ρ c 5)

/-! ## The arguments end as launched

No host operation writes an argument and a region reads it through an input window, whose array is never written
back, or bypasses it: the fold at an argument's buffer walks back to the launch memory. -/

/-- `main_arg0` ends as launched: no host operation writes it, region 0 reads it through input window 0 and the other region bypasses it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

/-- `main_arg1` ends as launched: no host operation writes it, both regions bypass it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- `main_arg2` ends as launched: no host operation writes it, region 0 reads it through input window 2 and the other region bypasses it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of m ρ c main_arg2 (by decide)
    _ = m ((c : Thread nD τ).loc main_arg2) := rfl

/-- `main_arg3` ends as launched: no host operation writes it, region 0 reads it through input window 3 and the other region bypasses it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := W1_of m ρ c main_arg3 (by decide)
    _ = m ((c : Thread nD τ).loc main_arg3) := rfl

/-- `main_arg4` ends as launched: no host operation writes it, region 0 reads it through input window 4 and the other region bypasses it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := W1_of m ρ c main_arg4 (by decide)
    _ = m ((c : Thread nD τ).loc main_arg4) := rfl

/-- `main_arg5` ends as launched: no host operation writes it, region 1 reads it through input window 2 and the other region bypasses it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 2).trans (((dat1 (V3 m ρ) c).arrAt_in 2 rfl _).trans (A_eq1 (V3 m ρ) c 2))
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-- `main_arg6` ends as launched: no host operation writes it, region 1 reads it through input window 3 and the other region bypasses it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := (W4_arr m ρ c 3).trans (((dat1 (V3 m ρ) c).arrAt_in 3 rfl _).trans (A_eq1 (V3 m ρ) c 3))
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- `main_arg7` ends as launched: no host operation writes it, region 1 reads it through input window 4 and the other region bypasses it. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := (W4_arr m ρ c 4).trans (((dat1 (V3 m ρ) c).arrAt_in 4 rfl _).trans (A_eq1 (V3 m ρ) c 4))
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- `main_arg8` ends as launched: no host operation writes it, region 1 reads it through input window 5 and the other region bypasses it. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 5).trans (((dat1 (V3 m ρ) c).arrAt_in 5 rfl _).trans (A_eq1 (V3 m ρ) c 5))
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-- `main_arg9` ends as launched: no host operation writes it, region 1 reads it through input window 6 and the other region bypasses it. -/
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := (W4_arr m ρ c 6).trans (((dat1 (V3 m ρ) c).arrAt_in 6 rfl _).trans (A_eq1 (V3 m ρ) c 6))
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

/-- `main_arg10` ends as launched: no host operation writes it, region 1 reads it through input window 7 and the other region bypasses it. -/
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 7).trans (((dat1 (V3 m ρ) c).arrAt_in 7 rfl _).trans (A_eq1 (V3 m ρ) c 7))
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

/-- `main_arg11` ends as launched: no host operation writes it, region 1 reads it through input window 8 and the other region bypasses it. -/
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := (W4_arr m ρ c 8).trans (((dat1 (V3 m ρ) c).arrAt_in 8 rfl _).trans (A_eq1 (V3 m ρ) c 8))
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

/-! ## The proof data family and the thread state -/

/-- The prefetched tables' admissible contents: no pipeline has a table. -/
abbrev admT : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admT p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the region
    invariant and comes back; nothing is owed; the kernel has no semaphore of its own. -/
def reg0 : Pipeline.RegionSeg (pcfgs (F := F)) admT (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) admT (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents. Its invariant names the scratch buffer's contents
    from point to point: at entry it is made from the generator register and the scoped buffers no window stages (the
    scratch among them, at anything), and after the last point it gives them back, the scratch's contents forgotten. -/
def reg1 : Pipeline.RegionSeg (pcfgs (F := F)) admT (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed1 (V3 m ρ) c t
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) admT (pdats m ρ) launch1.win launch1.arr_whole c
      ((pdats m ρ 1 c).share_full fun w => q1 (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from owed1 (V3 m ρ) c 0]
      icases HO with ⟨%W, HO⟩; iexists W; isplitr
      · ipureintro; exact fun x _ => Or.inl ((recorded1 (V3 m ρ) c).symm ▸ Set.mem_univ x)
      iexact HO
    isplitl [Hp]; · iexact Hp
    iexact Hrest
  hin c := by
    refine BIClass.entails_trans ?_ (hin1 (V3 m ρ) c)
    unfold Pipeline.ΦA
    iintro ⟨Hp, -, Hr⟩
    isplitl [Hr]; · iexact Hr
    iexact Hp
  hout c := by
    rw [Pipeline.ownSems0_none]
    refine BIClass.entails_trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m ρ) ((pdats m ρ 1 c).share_full fun w => q1 (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m ρ 1 c).owed (Fin.last (Pipeline.pin (pcfgs (F := F)) admT 1).N) = 0 from owed1 (V3 m ρ) c _]
    icases HO with ⟨%W, -, HO⟩; iexists W; iexact HO

/-! ## The program as segments, and the launch -/

/-- The program's four segments in order: a host segment per stretch from its boundary's contents, a region per
    pallas_call. -/
abbrev segsT : List (Pipeline.Seg (pcfgs (F := F)) admT (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of the segments. -/
theorem main_run (c : Dev nD) : main (F := F) c = Pipeline.Seg.run (segsT m ρ) := (main_chain c).trans (by chain_rfl)

set_option backward.isDefEq.respectTransparency.types false in
/-- THE RUN: from any memory with zero counters, every weakly fair execution of the program on the TensorCores
    terminates, nothing faulting, and every final memory holds each unscoped buffer at the last boundary's contents
    `W4`: the launch over the segments, the last thread state read against the final state. -/
theorem run : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) admT (pdats m ρ) () cellOf_inj emb₁ defs₀ 𝒱₀ L lv m ρ main (segsT m ρ)
    (fun c Q => by rw [main_run m ρ c])
    (by simp only [segsT, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- Every argument array ends holding its launch contents. -/
theorem args_end {s : MemSt nD τ sig (Elt F)} {c : Dev nD}
    (h : ∀ b ∈ Pipeline.ucRefs τ sig, s.mem ((c : Thread nD τ).1, b) = W4 m ρ c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11) :=
  ⟨(h _ (mem_uc main_arg0 (by decide))).trans (W4_main_arg0 m ρ c),
    (h _ (mem_uc main_arg1 (by decide))).trans (W4_main_arg1 m ρ c),
    (h _ (mem_uc main_arg2 (by decide))).trans (W4_main_arg2 m ρ c),
    (h _ (mem_uc main_arg3 (by decide))).trans (W4_main_arg3 m ρ c),
    (h _ (mem_uc main_arg4 (by decide))).trans (W4_main_arg4 m ρ c),
    (h _ (mem_uc main_arg5 (by decide))).trans (W4_main_arg5 m ρ c),
    (h _ (mem_uc main_arg6 (by decide))).trans (W4_main_arg6 m ρ c),
    (h _ (mem_uc main_arg7 (by decide))).trans (W4_main_arg7 m ρ c),
    (h _ (mem_uc main_arg8 (by decide))).trans (W4_main_arg8 m ρ c),
    (h _ (mem_uc main_arg9 (by decide))).trans (W4_main_arg9 m ρ c),
    (h _ (mem_uc main_arg10 (by decide))).trans (W4_main_arg10 m ρ c),
    (h _ (mem_uc main_arg11 (by decide))).trans (W4_main_arg11 m ρ c)⟩

/-- THE FRAME: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => args_end m ρ (h c)) (run m ρ)

/-- THE RESULT: the program runs, its result array ends at what region 1's write-backs fold to, and its argument
    arrays end unchanged. -/
theorem run_value : θ_run defs (onTc (τ := τ) (main (F := F))) ⟨m, fun _ => 0, ρ⟩ (fun r => ∀ c : Dev nD,
      r.2.mem ((c.tc : Thread nD τ).loc main_v39) = (dat1 (V3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v39 (by decide))).trans (W4_arr m ρ c 9), args_end m ρ (h c)⟩) (run m ρ)

end Cert.KernelIdeal.Hand

end
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.LibRectify.lean ====
/-
  The rectifier beside an affine layer, entry by entry at the extended reals, as a vector unit writes it (the maximum
  with a splat of the zero word) and as host operations write it (the maximum with a rank-0 zero constant repeated
  over the shape): both are `max y 0`-by-the-zero-word at every entry.
-/
import proofs.«156587_j64527588655232_1_alg».proof.Proof.LibDense

noncomputable section
namespace Cert.Lib.Rectify
open Idealize.ShloMosaic
open Idealize.ShloMosaic.ValueIdx
open Cert.Lib.Dense

/-- The rectifier at one entry: the maximum with the f32 zero word's value. -/
def relu1 (y : EReal) : EReal :=
  FloatOps.maximumf (F := Ideal) (φ := .f32) y (Scalar.ofBits .f32 0x00000000#32)

/-- The rectifier over an array of entries. -/
def relu {S : Shape} (Y : S.Idx → EReal) : S.Idx → EReal := fun j => relu1 (Y j)

/-- The vector unit's rectifier: the maximum with a splat of the zero word. -/
theorem relu_vec {S : Shape} (Y : FVec Ideal S .f32) :
    maximumf Y (broadcast S (Scalar.ofBits .f32 0x00000000#32)) = relu Y := rfl

/-- The host's rectifier: the maximum with the rank-0 zero constant repeated over the shape. -/
theorem relu_host {S : Shape} (Y : FVec Ideal S .f32) (e : (⟨0, ![]⟩ : Shape).BroadcastsInDim S (![] : Fin 0 → Fin S.rank)) :
    maximumf Y (broadcastInDim S ![] e (constant ⟨0, ![]⟩ .f32 0x00000000#32)) = relu Y := by
  funext j
  show FloatOps.maximumf (Y j) (broadcastInDim S ![] e (constant (F := Ideal) ⟨0, ![]⟩ .f32 0x00000000#32) j) = _
  rw [splat0_apply]
  rfl

end Cert.Lib.Rectify
-- ==== Proof.LibBlockSum.lean ====
/-
  A sum over n * b consecutive indices is the sum of n consecutive runs of b of them: the law that joins a contraction
  accumulated block by block along the contracted axis with the same contraction done at once. It holds in any
  commutative additive monoid (so on the extended reals with no finiteness assumed), for any number n of blocks and
  any block length b. Three forms: over initial segments of the naturals, over the finite index types with a function
  of the natural position, and for a function of the n * b positions themselves.
-/
import Mathlib.Algebra.BigOperators.Fin
import Mathlib.Algebra.BigOperators.Intervals

open scoped BigOperators

namespace Cert.LibBlockSum

variable {M : Type*} [AddCommMonoid M]

/-- A sum over the first `n * b` naturals, cut into `n` consecutive runs of `b`: run `s` holds the positions
    `b * s + x` for `x < b`. -/
theorem sum_range_mul (g : ℕ → M) (n b : ℕ) :
    ∑ k ∈ Finset.range (n * b), g k = ∑ s ∈ Finset.range n, ∑ x ∈ Finset.range b, g (b * s + x) := by
  induction n with
  | zero => simp
  | succ n ih => rw [Nat.succ_mul, Finset.sum_range_add, ih, Finset.sum_range_succ, Nat.mul_comm b n]

/-- The same with the positions and the positions inside a run as finite types. -/
theorem sum_fin_mul (g : ℕ → M) (n b : ℕ) :
    ∑ k : Fin (n * b), g k.val = ∑ s ∈ Finset.range n, ∑ x : Fin b, g (b * s + x.val) := by
  rw [Fin.sum_univ_eq_sum_range (fun k => g k) (n * b), sum_range_mul]
  exact Finset.sum_congr rfl fun s _ => (Fin.sum_univ_eq_sum_range (fun x => g (b * s + x)) b).symm

/-- The same for a function of the `N = n * b` positions themselves: run `s`'s position `x` is position `b * s + x`
    (the guard is true on every term: `s < n` and `x < b`). -/
theorem sum_fin_blocks {N : ℕ} (n b : ℕ) (hN : N = n * b) (f : Fin N → M) :
    ∑ k, f k = ∑ s ∈ Finset.range n, ∑ x : Fin b, (if h : b * s + x.val < N then f ⟨b * s + x.val, h⟩ else 0) := by
  subst hN
  have e := sum_fin_mul (fun k => if h : k < n * b then f ⟨k, h⟩ else 0) n b
  simp only [Fin.is_lt, dite_true, Fin.eta] at e
  exact e

end Cert.LibBlockSum
-- ==== Proof.Spec.lean ====
/-
  What both programs compute, entry by entry at the extended reals, over literal shapes.

  A two-sided dense layer: entry (r, c) is the rectifier of  (∑ k, Mn (r, k) · Wl (k, c)) + (∑ k, X (r, k) · Wr (k, c)) + b c,
  the neighbourhood mean against the left weights, the node's own features against the right ones, plus the bias.
  The column sums of an [M, N] array; the pooled mean, the column sum times the real 1 / M... here 1 / 100000.
  Addition on the extended reals is commutative and associative, so the order in which the three summands of a layer's
  entry are added, and the grouping of a column sum into runs of rows, do not matter; no finiteness is used anywhere.
-/
import proofs.«156587_j64527588655232_1_alg».proof.Proof.LibDense
import proofs.«156587_j64527588655232_1_alg».proof.Proof.LibRectify
import proofs.«156587_j64527588655232_1_alg».proof.Proof.LibBlockSum

noncomputable section
namespace Cert.Spec
open Idealize.ShloMosaic
open Idealize.ShloMosaic.ValueIdx
open Cert.Lib.Dense Cert.Lib.Rectify

/-- One entry of a two-sided dense layer with the rectifier. -/
def sage {M K N : Nat} (X Mn : (⟨2, ![M, K]⟩ : Shape).Idx → EReal) (Wl Wr : (⟨2, ![K, N]⟩ : Shape).Idx → EReal)
    (b : (⟨1, ![N]⟩ : Shape).Idx → EReal) : (⟨2, ![M, N]⟩ : Shape).Idx → EReal :=
  fun j => relu1 (((∑ k : Fin K, Mn (ix2 (j 0) k) * Wl (ix2 k (j 1))) + (∑ k : Fin K, X (ix2 (j 0) k) * Wr (ix2 k (j 1)))) + b (ix1 (j 1)))

/-- The sum of column `c` of an [M, N] array. -/
def colsum {M N : Nat} (H : (⟨2, ![M, N]⟩ : Shape).Idx → EReal) (c : Fin N) : EReal := ∑ r : Fin M, H (ix2 r c)

/-- The column sums as a row [1, N] scaled by the real `1 / 100000`: the mean over 100000 rows. -/
def pooled {M N : Nat} (H : (⟨2, ![M, N]⟩ : Shape).Idx → EReal) : (⟨2, ![1, N]⟩ : Shape).Idx → EReal :=
  fun i => colsum H (i 1) * ((1 / 100000 : ℝ) : EReal)

/-- A layer's entry looks only at row `j 0` of the two left operands, column `j 1` of the weights and entry `j 1` of the
    bias: a block of rows of `X` and `Mn` gives the same entries as the whole arrays at the block's rows. -/
theorem sage_congr {Mb M K N : Nat} (xb mb : (⟨2, ![Mb, K]⟩ : Shape).Idx → EReal) (X Mn : (⟨2, ![M, K]⟩ : Shape).Idx → EReal)
    (Wl Wr : (⟨2, ![K, N]⟩ : Shape).Idx → EReal) (b : (⟨1, ![N]⟩ : Shape).Idx → EReal)
    (y : (⟨2, ![Mb, N]⟩ : Shape).Idx) (i : (⟨2, ![M, N]⟩ : Shape).Idx) (hc : y 1 = i 1)
    (hx : ∀ k : Fin K, xb (ix2 (y 0) k) = X (ix2 (i 0) k)) (hm : ∀ k : Fin K, mb (ix2 (y 0) k) = Mn (ix2 (i 0) k)) :
    sage xb mb Wl Wr b y = sage X Mn Wl Wr b i := by
  unfold sage
  rw [hc]
  simp only [hx, hm]

end Cert.Spec
-- ==== Proof.Val.Pay.lean ====
/-
  The kernels' pure values read at the extended reals as the specification's functions.

  A two-sided dense layer as a vector unit writes it: the neighbourhood-mean block against the left weights and the
  feature block against the right weights, each a block product into a zero accumulator (a change of float format is the
  identity here, so the narrowed operands are the operands), the two products added, the bias row repeated down the block
  added, and the maximum with a splat of the zero word: entry by entry that is the specification's layer, summands in the
  same order. The second kernel sums the layer's block down its columns: reducing the FIRST axis of an [a, b] array, the
  reduced index c with row r put back is (r, c), so the reduction at c is the sum over the rows of column c; made a
  row [1, b] and added to a row, entry (0, c) gains that column sum. The row the second kernel starts from is all zeros.
-/
import proofs.«156587_j64527588655232_1_alg».proof.Proof.Gen.KernelIdeal.Skeleton
import proofs.«156587_j64527588655232_1_alg».proof.Proof.Spec
import Idealize.ShloMosaic.PureOps.Ideal.Laws
import Idealize.ShloMosaic.Lib.ValueIdx
import Idealize.ShloMosaic.Lib.Pipeline.Value

noncomputable section
namespace Cert.KernelIdeal.Val
open Idealize.ShloMosaic Idealize.ShloMosaic.ValueIdx
open Cert.KernelIdeal Cert.KernelIdeal.Gen
open Cert.Lib.Dense Cert.Lib.Rectify

/-- The printed contraction records are the row-major product's: axis 1 of the left operand against axis 0 of the right. -/
theorem dot0 : dot_S5000x8_S8x64_S5000x64_1_0_0_1_n_n = DotDims.plain 5000 8 64 := rfl
theorem dot1 : dot_S5000x64_S64x64_S5000x64_1_0_0_1_n_n = DotDims.plain 5000 64 64 := rfl

/-- The reduced index c with row r put back on the first axis is (r, c). -/
theorem lift_col {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext x; apply Fin.ext
  fin_cases x <;> rfl

/-- The vector unit's sum over the first axis, at column `c`: the sum over the rows of that column. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ) (c : Fin b) :
    multiReduction .add [0] ⟨1, ![b]⟩ src acc h hφ hacc (ix1 c) = ∑ r : Fin a, src (ix2 r c) := by
  rw [Ideal.multiReduction_add_single]
  exact Finset.sum_congr rfl fun k _ => congrArg src (lift_col h c k)

/-- The row the second kernel starts its running sum from: a splat of the zero word. -/
theorem k1_pay1_eq : k1_pay1 (F := Ideal) = fun _ => (0 : EReal) := by
  exact (shapeCast_self _ _).trans (funext fun _ => Ideal.ofBits_zero_f32)

/-- A two-sided layer as a vector unit writes it: two block products into zero accumulators added, the bias row
    repeated down the block added, then the maximum with a splat of the zero word. -/
theorem layer_vec {M K N : Nat} (x m : FVec Ideal ⟨2, ![M, K]⟩ .f32) (wl wr : FVec Ideal ⟨2, ![K, N]⟩ .f32) (b : FVec Ideal ⟨1, ![N]⟩ .f32)
    (sb : (⟨1, ![N]⟩ : Shape).ShapeCasts ⟨2, ![1, N]⟩) (bt : (⟨2, ![1, N]⟩ : Shape).Broadcasts ⟨2, ![M, N]⟩) :
    maximumf (addf (addf (matmul (DotDims.plain M K N) none m wl (constant ⟨2, ![M, N]⟩ .f32 0x00000000#32))
          (matmul (DotDims.plain M K N) none x wr (constant ⟨2, ![M, N]⟩ .f32 0x00000000#32)))
        (broadcastTo ⟨2, ![M, N]⟩ (shapeCast ⟨2, ![1, N]⟩ b sb) bt))
      (broadcast ⟨2, ![M, N]⟩ (Scalar.ofBits .f32 0x00000000#32)) = Cert.Spec.sage x m wl wr b := by
  rw [relu_vec, shapeCast_row]
  funext j
  show relu1 ((FloatOps.matmul (DotDims.plain M K N) none m wl (constant _ .f32 0x00000000#32) j
      + FloatOps.matmul (DotDims.plain M K N) none x wr (constant _ .f32 0x00000000#32) j)
      + broadcastTo ⟨2, ![M, N]⟩ (biasRow b) bt j) = _
  rw [plain_matmul_apply, plain_matmul_apply, broadcastTo_apply (biasRow b) bt j (ix2 0 (j 1))]
  · rfl
  · intro a
    match a with
    | ⟨0, _⟩ => simp
    | ⟨1, _⟩ =>
      show (j 1).val = if N = 1 then 0 else (j 1).val
      split_ifs with h
      · have := (j 1).isLt; simp at this; omega
      · rfl

/-- The first kernel's stored block is the layer over its feature block, mean block, weights and bias. -/
theorem k0_pay1_eq (xb mb : FVec Ideal S5000x8 .f32) (wl wr : FVec Ideal S8x64 .f32) (b : FVec Ideal S64 .f32) :
    k0_pay1 (F := Ideal) xb mb wl wr b = Cert.Spec.sage xb mb wl wr b := by
  unfold k0_pay1
  rw [shapeCast_self]
  exact layer_vec xb mb wl wr b _ _

/-- The column sums by the vector unit, made a row and added to a row: entry (0, c) gains the sum of column c. -/
theorem colsum_vec {M N : Nat} (H : FVec Ideal ⟨2, ![M, N]⟩ .f32) (s : FVec Ideal ⟨2, ![1, N]⟩ .f32)
    (h : (⟨2, ![M, N]⟩ : Shape).Reduces [0] (⟨1, ![N]⟩ : Shape)) (hφ : FKind.Formats .f32)
    (hacc : (0x00000000#32 : BitVec 32) = FKind.add.neutral .f32 hφ) (sc : (⟨1, ![N]⟩ : Shape).ShapeCasts ⟨2, ![1, N]⟩) :
    addf s (shapeCast ⟨2, ![1, N]⟩ (multiReduction .add [0] ⟨1, ![N]⟩ H 0x00000000#32 h hφ hacc) sc)
      = fun i => s i + Cert.Spec.colsum H (i 1) := by
  rw [shapeCast_row]
  funext i
  exact congrArg (s i + ·) (multiReduction_add_col H _ h hφ hacc (i 1))

/-- The second kernel's stored row: the row as loaded plus the column sums of the layer over the block. -/
theorem k1_pay2_eq (hb mb : FVec Ideal S5000x64 .f32) (wl wr : FVec Ideal S64x64 .f32) (b : FVec Ideal S64 .f32) (s : FVec Ideal S1x64 .f32) :
    k1_pay2 (F := Ideal) hb mb wl wr b s = fun i => s i + Cert.Spec.colsum (Cert.Spec.sage hb mb wl wr b) (i 1) := by
  unfold k1_pay2
  rw [shapeCast_self, shapeCast_self]
  refine (shapeCast_self _ _).trans ?_
  refine Eq.trans ?_ (colsum_vec (Cert.Spec.sage hb mb wl wr b) s reduces_S5000x64_S64 (.inl rfl) rfl shapeCasts_S64_S1x64)
  exact congrArg (fun H => addf s (shapeCast S1x64 (multiReduction .add [0] S64 H 0x00000000#32 reduces_S5000x64_S64 (.inl rfl) rfl) shapeCasts_S64_S1x64))
    (layer_vec hb mb wl wr b _ _)
end Cert.KernelIdeal.Val
-- ==== Proof.Val.R0Value.lean ====
/-
  Region 0's output array after its pipeline, at the extended reals: the two-sided dense layer of the whole input arrays.
  Each grid point writes back the layer of its blocks of 5000 rows of the features and of the neighbourhood mean against
  the whole weights and bias; a layer's entry looks only at its own row of the two left operands, so a block of rows gives
  the layer's entries at those rows; the twenty blocks of 5000 rows cover the 100000 rows, row r lying in block r / 5000.
-/
import proofs.«156587_j64527588655232_1_alg».proof.Proof.KI.R0
import proofs.«156587_j64527588655232_1_alg».proof.Proof.Val.Pay
import proofs.«156587_j64527588655232_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

theorem off2_zero : (![0, 0] : Fin 2 → Nat) = fun _ => 0 := funext fun a => by fin_cases a <;> rfl
theorem off1_zero : (![0] : Fin 1 → Nat) = fun _ => 0 := funext fun a => by fin_cases a <;> rfl

/-- The index maps over the grid: the features' and the mean's block of rows is the output's, in the one block of
    columns; the weights and the bias are at their one block throughout; the output's row block is among the twenty. -/
theorem index_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

/-- Every one of the twenty row blocks is some point's. -/
theorem index_onto0 : ∀ q : Fin 20, ∃ t : Fin cfg0.N, win0_5.index t = ![q.val, 0] :=
  (by decide +kernel : ∀ q : Fin 20, ∃ t : Fin grid0.N, win0_5.index t = ![q.val, 0])

/-- The layer of blocks of rows: where the blocks of the two left operands are the arrays' rows from `q * 5000` on, the
    layer's entry at row `y 0` of the block is the whole arrays' layer's entry at row `q * 5000 + y 0`. -/
theorem sage_of_rows (X Mn : S100000x8.Idx → EReal) (Wl Wr : S8x64.Idx → EReal) (b : S64.Idx → EReal)
    (xb mb : S5000x8.Idx → EReal) (wl wr : S8x64.Idx → EReal) (bb : S64.Idx → EReal) (q : Nat)
    (hxb : ∀ (z : S5000x8.Idx) (i : S100000x8.Idx), (i 0).val = q * 5000 + (z 0).val → (i 1).val = (z 1).val → xb z = X i)
    (hmb : ∀ (z : S5000x8.Idx) (i : S100000x8.Idx), (i 0).val = q * 5000 + (z 0).val → (i 1).val = (z 1).val → mb z = Mn i)
    (hwl : wl = Wl) (hwr : wr = Wr) (hbb : bb = b)
    (y : S5000x64.Idx) (i : S100000x64.Idx) (h0 : (i 0).val = q * 5000 + (y 0).val) (h1 : (i 1).val = (y 1).val) :
    Cert.Spec.sage xb mb wl wr bb y = Cert.Spec.sage X Mn Wl Wr b i := by
  subst hwl; subst hwr; subst hbb
  refine Cert.Spec.sage_congr xb mb X Mn wl wr bb y i (Fin.ext h1.symm) (fun k => ?_) (fun k => ?_)
  · exact hxb _ _ h0 rfl
  · exact hmb _ _ h0 rfl

section Region0
variable (V : (c : Dev nD) → (b : Ref sig .tc) → Buf (Elt Ideal) ((c : Thread nD τ).loc b))

/-- What point `t` writes back is block `t` of the layer of the whole arrays as the region finds them. -/
theorem flushed0_5_eq (c : Dev nD) (t : Fin cfg0.N) :
    (dat0 (F := Ideal) V c).flushed 5 t = ((cfg0.win 5).blk t).view.read (Elt Ideal)
      (Cert.Spec.sage (V c main_arg0) (V c main_v22) (V c main_arg2) (V c main_arg4) (V c main_arg3)) := by
  show (cfg0.win 5).cut (grid0.coords t) ((dat0 (F := Ideal) V c).after 5 t) = _
  rw [after0_5]
  unfold out0_5
  rw [View.canon_unit_zero off2_zero]
  simp only [View.ld_unit_zero (S := S5000x8) off2_zero, View.ld_unit_zero (S := S8x64) off2_zero, View.ld_unit_zero (S := S64) off1_zero]
  rw [k0_pay1_eq]
  obtain ⟨e00, e01, e10, e11, e20, e21, e30, e40, e41, e5le, e51⟩ := index_facts0 t
  funext y
  show Cert.Spec.sage (iblk0 V c 0 t) (iblk0 V c 1 t) (iblk0 V c 2 t) (iblk0 V c 4 t) (iblk0 V c 3 t) y
    = Cert.Spec.sage (V c main_arg0) (V c main_v22) (V c main_arg2) (V c main_arg4) (V c main_arg3) (((cfg0.win 5).blk t).view.emb y)
  refine sage_of_rows _ _ _ _ _ _ _ _ _ _ (win0_5.index t (0 : Fin 2)) ?_ ?_ ?_ ?_ ?_ y _ ?_ ?_
  · intro z i h0 h1
    show V c main_arg0 (((cfg0.win 0).blk t).view.emb z) = V c main_arg0 i
    congr 1
    funext a; apply Fin.ext
    match a with
    | ⟨0, _⟩ => show win0_0.index t (0 : Fin 2) * 5000 + 1 * (z 0).val = (i 0).val; omega
    | ⟨1, _⟩ => show win0_0.index t (1 : Fin 2) * 8 + 1 * (z 1).val = (i 1).val; omega
  · intro z i h0 h1
    show V c main_v22 (((cfg0.win 1).blk t).view.emb z) = V c main_v22 i
    congr 1
    funext a; apply Fin.ext
    match a with
    | ⟨0, _⟩ => show win0_1.index t (0 : Fin 2) * 5000 + 1 * (z 0).val = (i 0).val; omega
    | ⟨1, _⟩ => show win0_1.index t (1 : Fin 2) * 8 + 1 * (z 1).val = (i 1).val; omega
  · funext z
    show V c main_arg2 (((cfg0.win 2).blk t).view.emb z) = V c main_arg2 z
    congr 1
    funext a; apply Fin.ext
    match a with
    | ⟨0, _⟩ => show win0_2.index t (0 : Fin 2) * 8 + 1 * (z 0).val = (z 0).val; omega
    | ⟨1, _⟩ => show win0_2.index t (1 : Fin 2) * 64 + 1 * (z 1).val = (z 1).val; omega
  · funext z
    show V c main_arg4 (((cfg0.win 4).blk t).view.emb z) = V c main_arg4 z
    congr 1
    funext a; apply Fin.ext
    match a with
    | ⟨0, _⟩ => show win0_4.index t (0 : Fin 2) * 8 + 1 * (z 0).val = (z 0).val; omega
    | ⟨1, _⟩ => show win0_4.index t (1 : Fin 2) * 64 + 1 * (z 1).val = (z 1).val; omega
  · funext z
    show V c main_arg3 (((cfg0.win 3).blk t).view.emb z) = V c main_arg3 z
    congr 1
    funext a; apply Fin.ext
    match a with
    | ⟨0, _⟩ => show win0_3.index t (0 : Fin 1) * 64 + 1 * (z 0).val = (z 0).val; omega
  · show win0_5.index t (0 : Fin 2) * 5000 + 1 * (y 0).val = win0_5.index t (0 : Fin 2) * 5000 + (y 0).val; omega
  · show win0_5.index t (1 : Fin 2) * 64 + 1 * (y 1).val = (y 1).val; omega

/-- An index of the output array is in point `t`'s block iff each coordinate is in the block's range on its axis. -/
theorem mem_blk0_5 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v23).slice (win0_5.rect t)).set ↔ _
  rw [View.set_slice_whole, Rect.mem_set_unit]
  exact Iff.rfl

/-- Every index of the output array is in some point's block: row `r` in that of the point whose row block is `r / 5000`. -/
theorem covered0_5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := index_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0_5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The output array after the region: the layer of the whole arrays as the region finds them. -/
theorem arrAt0_5 (c : Dev nD) :
    (Cert.KernelIdeal.Hand.dat0 (F := Ideal) V c).arrAt 5 cfg0.N = Cert.Spec.sage (V c main_arg0) (V c main_v22) (V c main_arg2) (V c main_arg4) (V c main_arg3) :=
  (dat0 (F := Ideal) V c).arrAt_eq_of_cover 5 _ (fun t _ => flushed0_5_eq V c t) covered0_5

end Region0

end Cert.KernelIdeal.Val

end
-- ==== Proof.Val.Blocks.lean ====
/-
  The column sums of a layer over 100000 rows, gathered block by block.

  The rows are cut into 20 consecutive blocks of 5000: row q of block s is row 5000 * s + q. A sum over the 100000 rows
  is the sum over the blocks of the sums over each block's rows; a layer's entry at a row looks only at that row of its
  two left operands, so over a block of rows it is the entry of the whole arrays at the block's row. Hence the column
  sum over all rows is the sum over the blocks of the blocks' column sums, and a running sum started from zero that
  gains one block's column sums at a time holds, after the last block, the column sums of the whole; scaled by the real
  1 / 100000 that is the pooled mean. Addition on the extended reals is commutative and associative; nothing else is used.
-/
import proofs.«156587_j64527588655232_1_alg».proof.Proof.Spec
import Mathlib.Algebra.BigOperators.Fin
import Mathlib.Algebra.BigOperators.Intervals

noncomputable section
namespace Cert.Spec
open Idealize.ShloMosaic
open Idealize.ShloMosaic.ValueIdx

/-- Row q of block s of an array of 20 blocks of 5000 rows. -/
def blockRow (s : Fin 20) (q : Fin 5000) : Fin 100000 := ⟨5000 * s.val + q.val, by omega⟩

/-- The column sum of the layer over all 100000 rows is the sum over the 20 blocks of the column sums of the layer over
    each block's 5000 rows. -/
theorem colsum_blocks {K N : Nat} (X Mn : (⟨2, ![100000, K]⟩ : Shape).Idx → EReal) (Wl Wr : (⟨2, ![K, N]⟩ : Shape).Idx → EReal)
    (b : (⟨1, ![N]⟩ : Shape).Idx → EReal) (xb mb : Fin 20 → (⟨2, ![5000, K]⟩ : Shape).Idx → EReal)
    (hx : ∀ s q k, xb s (ix2 q k) = X (ix2 (blockRow s q) k)) (hm : ∀ s q k, mb s (ix2 q k) = Mn (ix2 (blockRow s q) k)) (c : Fin N) :
    ∑ s : Fin 20, colsum (sage (xb s) (mb s) Wl Wr b) c = colsum (sage X Mn Wl Wr b) c := by
  unfold colsum
  refine Eq.trans ?_ (Cert.LibBlockSum.sum_fin_blocks 20 5000 rfl (fun r : Fin 100000 => sage X Mn Wl Wr b (ix2 r c))).symm
  refine Eq.trans ?_ (Fin.sum_univ_eq_sum_range (fun s => ∑ x : Fin 5000,
    (if h : 5000 * s + x.val < 100000 then sage X Mn Wl Wr b (ix2 (⟨5000 * s + x.val, h⟩ : Fin 100000) c) else 0)) 20)
  refine Finset.sum_congr rfl fun s _ => Finset.sum_congr rfl fun q _ => ?_
  have h : 5000 * s.val + q.val < 100000 := by omega
  rw [dif_pos h]
  exact sage_congr (xb s) (mb s) X Mn Wl Wr b (ix2 q c) (ix2 (blockRow s q) c) rfl (fun k => hx s q k) (fun k => hm s q k)

/-- The running sum after the first n + 1 blocks, started from zero. -/
def runSum {K N : Nat} (xb mb : Fin 20 → (⟨2, ![5000, K]⟩ : Shape).Idx → EReal) (Wl Wr : (⟨2, ![K, N]⟩ : Shape).Idx → EReal)
    (b : (⟨1, ![N]⟩ : Shape).Idx → EReal) : (n : ℕ) → n < 20 → (⟨2, ![1, N]⟩ : Shape).Idx → EReal
  | 0, h => fun i => (0 : EReal) + colsum (sage (xb ⟨0, h⟩) (mb ⟨0, h⟩) Wl Wr b) (i 1)
  | n + 1, h => fun i => runSum xb mb Wl Wr b n (Nat.lt_of_succ_lt h) i + colsum (sage (xb ⟨n + 1, h⟩) (mb ⟨n + 1, h⟩) Wl Wr b) (i 1)

/-- The running sum after block n is the sum of the column sums of blocks 0 … n. -/
theorem runSum_eq {K N : Nat} (xb mb : Fin 20 → (⟨2, ![5000, K]⟩ : Shape).Idx → EReal) (Wl Wr : (⟨2, ![K, N]⟩ : Shape).Idx → EReal)
    (b : (⟨1, ![N]⟩ : Shape).Idx → EReal) (n : ℕ) (h : n < 20) (i : (⟨2, ![1, N]⟩ : Shape).Idx) :
    runSum xb mb Wl Wr b n h i
      = ∑ s ∈ Finset.range (n + 1), (if hs : s < 20 then colsum (sage (xb ⟨s, hs⟩) (mb ⟨s, hs⟩) Wl Wr b) (i 1) else 0) := by
  induction n with
  | zero =>
    rw [Finset.sum_range_one, dif_pos h]
    exact zero_add _
  | succ n ih =>
    rw [Finset.sum_range_succ, dif_pos h, ← ih (Nat.lt_of_succ_lt h)]
    rfl

/-- After the last block the running sum, scaled by the real 1 / 100000, is the pooled mean of the layer over all rows. -/
theorem runSum_last {K N : Nat} (X Mn : (⟨2, ![100000, K]⟩ : Shape).Idx → EReal) (Wl Wr : (⟨2, ![K, N]⟩ : Shape).Idx → EReal)
    (b : (⟨1, ![N]⟩ : Shape).Idx → EReal) (xb mb : Fin 20 → (⟨2, ![5000, K]⟩ : Shape).Idx → EReal)
    (hx : ∀ s q k, xb s (ix2 q k) = X (ix2 (blockRow s q) k)) (hm : ∀ s q k, mb s (ix2 q k) = Mn (ix2 (blockRow s q) k))
    (i : (⟨2, ![1, N]⟩ : Shape).Idx) :
    runSum xb mb Wl Wr b 19 (by omega) i * ((1 / 100000 : ℝ) : EReal) = pooled (sage X Mn Wl Wr b) i := by
  unfold pooled
  refine congrArg (· * ((1 / 100000 : ℝ) : EReal)) ?_
  rw [runSum_eq, ← colsum_blocks X Mn Wl Wr b xb mb hx hm (i 1)]
  refine (Fin.sum_univ_eq_sum_range (fun s => if hs : s < 20 then colsum (sage (xb ⟨s, hs⟩) (mb ⟨s, hs⟩) Wl Wr b) (i 1) else 0) 20).symm.trans ?_
  exact Finset.sum_congr rfl fun s _ => dif_pos s.isLt

end Cert.Spec
-- ==== Proof.Ref.Base.lean ====
/-
  The reference's run read back one operation at a time: this module only brings the reference's run and its
  read-at-an-index lemmas into scope for the modules that state what the reference computes.
-/
import proofs.«156587_j64527588655232_1_alg».proof.Proof.Gen.ReferenceIdeal.Run
import proofs.«156587_j64527588655232_1_alg».proof.Proof.Gen.ReferenceIdeal.Read
-- ==== Proof.LibRowReduce.lean ====
/-
  Reductions along the rows of a matrix, read at a row written by its coordinate.

  For an `[a, b]` array reduced over its second axis the reduced index `i` with column `k` put back is `(i, k)`;
  so the vector unit's sum of a row is the sum over the columns of that row, its maximum the fold of `max` over them
  from the accumulator's value, and the host's reduce with a maximum body the same fold from the initial value.
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {a b : ℕ} {φ : FTy}

/-- The reduced index `i` with column `k` put back on the second axis is `(i, k)`. -/
theorem lift_row (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- The vector unit's sum over the second axis, at row `i`: the sum over the columns of that row. -/
theorem multiReduction_add_row (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- The vector unit's maximum over the second axis, at row `i`: the fold of `max` over the columns of that row. -/
theorem multiReduction_maximumf_row (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (fun f => Finset.fold max (Ideal.ofBits φ acc) f (Finset.univ : Finset (Fin b)))
    (funext fun k => congrArg src (lift_row h i k))

/-- The host's reduce with a maximum body over the second axis, at row `i`: the fold of `max` from the initial value
    over the columns of that row. -/
theorem hostReduce_maximumf_row {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x init h' h hu]
  exact congrArg (fun f => Finset.fold max (init (Shape.Idx.first hu)) f (Finset.univ : Finset (Fin b)))
    (funext fun k => congrArg x (lift_row h i k))

end Cert.LibRowReduce

end
-- ==== Proof.LibKeepdims.lean ====
/-
  Layout and reduction forms that a `keepdims=True` reduction meets, read at an index written by coordinates.

  A sum kept as a column — `[a]` viewed as `[a, 1]` — and that column, or a single `[1, 1]` cell, spread
  back over an `[a, b]` block read one entry of the smaller array; and a host sum over the last two axes of a
  rank-4 array is, at each index of the two axes kept, the double sum over the two coordinates dropped (every
  index that drops to `(p, q)` is `(p, q, l, k)` for exactly one pair `(l, k)`).
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-! ## A column made of a vector, and spread over a block -/

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single cell `[1, 1]` broadcast to `[a, b]` reads that cell at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-! ## A host sum over the last two of four axes -/

/-- The host's float sum over axes 2 and 3 of an `[a, b, c, d]` array, at `(p, q)`: the initial value plus the
    sum over `l` and `k` of the operand at `(p, q, l, k)`. The indices that drop to `(p, q)` correspond one to
    one to the pairs `(l, k)` of their last two coordinates. -/
theorem hostReduceAdd_lastTwo {a b c d : ℕ}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  refine congrArg (init + ·) ?_
  rw [← Finset.sum_product' (Finset.univ : Finset (Fin c)) (Finset.univ : Finset (Fin d)) (fun l k => x (ix4 p q l k))]
  -- the axes kept are 0 and 1, whatever the extents: a dropped index has the source's first two coordinates
  have d0 : ∀ i : (⟨4, ![a, b, c, d]⟩ : Shape).Idx, (h.drop i 0 : ℕ) = i 0 := fun _ => rfl
  have d1 : ∀ i : (⟨4, ![a, b, c, d]⟩ : Shape).Idx, (h.drop i 1 : ℕ) = i 1 := fun _ => rfl
  refine Finset.sum_nbij' (fun i => (i 2, i 3)) (fun lk => ix4 p q lk.1 lk.2) ?_ ?_ ?_ ?_ ?_
  · intro i _; exact Finset.mem_product.2 ⟨Finset.mem_univ _, Finset.mem_univ _⟩
  · intro lk _
    refine Finset.mem_filter.2 ⟨Finset.mem_univ _, funext fun ax => Fin.ext ?_⟩
    match ax with
    | ⟨0, _⟩ => exact d0 _
    | ⟨1, _⟩ => exact d1 _
  · intro i hi
    have hj := (Finset.mem_filter.1 hi).2
    funext ax; apply Fin.ext
    match ax with
    | ⟨0, _⟩ => show p.val = (i 0).val; rw [← d0 i, hj]; rfl
    | ⟨1, _⟩ => show q.val = (i 1).val; rw [← d1 i, hj]; rfl
    | ⟨2, _⟩ => rfl
    | ⟨3, _⟩ => rfl
  · intro lk _; rfl
  · intro i hi
    have hj := (Finset.mem_filter.1 hi).2
    refine congrArg x ?_
    funext ax; apply Fin.ext
    match ax with
    | ⟨0, _⟩ => show (i 0).val = p.val; rw [← d0 i, hj]; rfl
    | ⟨1, _⟩ => show (i 1).val = q.val; rw [← d1 i, hj]; rfl
    | ⟨2, _⟩ => rfl
    | ⟨3, _⟩ => rfl

end Cert.LibKeepdims

end
-- ==== Proof.Val.Tail.lean ====
/-
  THE LAST STRETCH, from the pooled row g : [1, 64] to the class probabilities [1, 10], entry by entry at the extended reals.

  hidden := rectifier (g · W1 + b1), a row [1, 64];  logits := hidden · W2 + b2, a row [1, 10];  the result is the softmax
  of that one row as both programs spell it: with m the maximum of the row — folded from the word of −∞ and then taken
  against that word once more —, every entry is exp (logit − m) over the sum of those exponentials along the row.
  The word of −∞ is kept as a word; the sum starts from the zero word, whose value is 0.

  * `Cert.Tail.tail`: that function of g, W1, b1, W2, b2 (`hidden`, `rowMax`, `expShift`, `softmax` are its parts);
  * `pay_affine_row`, `softmax_vec`: a one-row block product into a zero accumulator plus a bias made a row, and the
    row softmax written with vector reductions over the second axis, a [1] → [1, 1] cast and a [1, 1] → [1, N] spread;
  * `Cert.KernelIdeal.Val.k1_pay3_eq`: the kernel's last value is `tail` of the column sums times the real 1 / 100000
    (the named reciprocal is that rational at the extended reals; a change of float format is the identity there);
  * `Cert.ReferenceIdeal.RefVal.tail_eq`: the reference's stages from its pooled row to its result are `tail` of that row,
    read stage by stage at an index (two dot products with a repeated bias, the rectifier against a rank-0 zero, the
    host's maximum fold and float sum along the row).
-/
import proofs.«156587_j64527588655232_1_alg».proof.Proof.Gen.KernelIdeal.Skeleton
import proofs.«156587_j64527588655232_1_alg».proof.Proof.Ref.Base
import proofs.«156587_j64527588655232_1_alg».proof.Proof.Spec
import proofs.«156587_j64527588655232_1_alg».proof.Proof.LibDense
import proofs.«156587_j64527588655232_1_alg».proof.Proof.LibRectify
import proofs.«156587_j64527588655232_1_alg».proof.Proof.LibRowReduce
import proofs.«156587_j64527588655232_1_alg».proof.Proof.LibKeepdims
import Idealize.ShloMosaic.PureOps.IdealRules

noncomputable section

open scoped BigOperators

namespace Cert.Tail
open Idealize.ShloMosaic
open Idealize.ShloMosaic.ValueIdx
open Cert.Lib.Dense Cert.Lib.Rectify

/-- The hidden layer: the rectifier of the pooled row against the first weights plus the first bias. -/
def hidden {K N : Nat} (g : (⟨2, ![1, K]⟩ : Shape).Idx → EReal) (w1 : (⟨2, ![K, N]⟩ : Shape).Idx → EReal)
    (b1 : (⟨1, ![N]⟩ : Shape).Idx → EReal) : (⟨2, ![1, N]⟩ : Shape).Idx → EReal := relu (affine g w1 (biasRow b1))

/-- The maximum of the one row of an [1, N] array, folded from the word of −∞ and then taken against that word once more. -/
def rowMax {N : Nat} (L : (⟨2, ![1, N]⟩ : Shape).Idx → EReal) : EReal :=
  max (Ideal.ofBits .f32 0xFF800000#32)
    ((Finset.univ : Finset (Fin N)).fold max (Ideal.ofBits .f32 0xFF800000#32) (fun k => L (ix2 0 k)))

/-- The exponential of an entry less the row's maximum. -/
def expShift {N : Nat} (L : (⟨2, ![1, N]⟩ : Shape).Idx → EReal) (j : (⟨2, ![1, N]⟩ : Shape).Idx) : EReal :=
  Ideal.exp (L j - rowMax L)

/-- The softmax of the one row: each shifted exponential over their sum. -/
def softmax {N : Nat} (L : (⟨2, ![1, N]⟩ : Shape).Idx → EReal) : (⟨2, ![1, N]⟩ : Shape).Idx → EReal :=
  fun j => Ideal.div (expShift L j) (∑ k : Fin N, expShift L (ix2 0 k))

/-- From the pooled row to the class probabilities. -/
def tail (g : (⟨2, ![1, 64]⟩ : Shape).Idx → EReal) (w1 : (⟨2, ![64, 64]⟩ : Shape).Idx → EReal)
    (b1 : (⟨1, ![64]⟩ : Shape).Idx → EReal) (w2 : (⟨2, ![64, 10]⟩ : Shape).Idx → EReal)
    (b2 : (⟨1, ![10]⟩ : Shape).Idx → EReal) : (⟨2, ![1, 10]⟩ : Shape).Idx → EReal :=
  softmax (affine (hidden g w1 b1) w2 (biasRow b2))

/-- A block product of a one-row matrix into a zero accumulator plus a bias vector made a row. -/
theorem pay_affine_row {K N : Nat} (x : FVec Ideal ⟨2, ![1, K]⟩ .f32) (w : FVec Ideal ⟨2, ![K, N]⟩ .f32)
    (b : FVec Ideal ⟨1, ![N]⟩ .f32) (sc : (⟨1, ![N]⟩ : Shape).ShapeCasts ⟨2, ![1, N]⟩) :
    addf (matmul (DotDims.plain 1 K N) none x w (constant ⟨2, ![1, N]⟩ .f32 0x00000000#32)) (shapeCast ⟨2, ![1, N]⟩ b sc)
      = affine x w (biasRow b) := by
  funext y
  show FloatOps.matmul (DotDims.plain 1 K N) none x w (constant _ .f32 0x00000000#32) y + shapeCast ⟨2, ![1, N]⟩ b sc y = _
  rw [plain_matmul_apply, shapeCast_row]
  rfl

/-- The vector unit's softmax of the one row. -/
theorem softmax_vec {N : Nat} (L : FVec Ideal ⟨2, ![1, N]⟩ .f32)
    (h : (⟨2, ![1, N]⟩ : Shape).Reduces [1] (⟨1, ![1]⟩ : Shape))
    (hm : (0xFF800000#32 : BitVec FTy.f32.bits) = FKind.maximumf.neutral .f32 (.inl rfl))
    (ha : (0x00000000#32 : BitVec FTy.f32.bits) = FKind.add.neutral .f32 (.inl rfl))
    (sc : (⟨1, ![1]⟩ : Shape).ShapeCasts ⟨2, ![1, 1]⟩) (bc : (⟨2, ![1, 1]⟩ : Shape).Broadcasts ⟨2, ![1, N]⟩) :
    divf (exp (subf L (broadcastTo ⟨2, ![1, N]⟩ (shapeCast ⟨2, ![1, 1]⟩
          (maximumf (broadcast ⟨1, ![1]⟩ (Scalar.ofBits .f32 0xFF800000#32))
            (multiReduction .maximumf [1] ⟨1, ![1]⟩ L 0xFF800000#32 h (.inl rfl) hm)) sc) bc)))
      (broadcastTo ⟨2, ![1, N]⟩ (shapeCast ⟨2, ![1, 1]⟩
          (multiReduction .add [1] ⟨1, ![1]⟩ (exp (subf L (broadcastTo ⟨2, ![1, N]⟩ (shapeCast ⟨2, ![1, 1]⟩
          (maximumf (broadcast ⟨1, ![1]⟩ (Scalar.ofBits .f32 0xFF800000#32))
            (multiReduction .maximumf [1] ⟨1, ![1]⟩ L 0xFF800000#32 h (.inl rfl) hm)) sc) bc))) 0x00000000#32 h (.inl rfl) ha) sc) bc)
      = softmax L := by
  have hM : ∀ j : (⟨2, ![1, N]⟩ : Shape).Idx, broadcastTo ⟨2, ![1, N]⟩ (shapeCast ⟨2, ![1, 1]⟩
          (maximumf (broadcast ⟨1, ![1]⟩ (Scalar.ofBits .f32 0xFF800000#32))
            (multiReduction .maximumf [1] ⟨1, ![1]⟩ L 0xFF800000#32 h (.inl rfl) hm)) sc) bc j = rowMax L := by
    intro j
    obtain ⟨p, q, rfl⟩ : ∃ (p : Fin 1) (q : Fin N), j = ix2 p q := ⟨j 0, j 1, eq_ix2 j⟩
    rw [Cert.LibKeepdims.broadcastTo_11_ab_apply, Cert.LibKeepdims.shapeCast_a_a1_apply]
    show FloatOps.maximumf (Scalar.ofBits .f32 0xFF800000#32)
      (multiReduction .maximumf [1] ⟨1, ![1]⟩ L 0xFF800000#32 h (.inl rfl) hm (ix1 0)) = _
    rw [Cert.LibRowReduce.multiReduction_maximumf_row]
    rfl
  have hE : exp (subf L (broadcastTo ⟨2, ![1, N]⟩ (shapeCast ⟨2, ![1, 1]⟩
          (maximumf (broadcast ⟨1, ![1]⟩ (Scalar.ofBits .f32 0xFF800000#32))
            (multiReduction .maximumf [1] ⟨1, ![1]⟩ L 0xFF800000#32 h (.inl rfl) hm)) sc) bc)) = expShift L := by
    funext j
    show Ideal.exp (L j - broadcastTo ⟨2, ![1, N]⟩ (shapeCast ⟨2, ![1, 1]⟩
          (maximumf (broadcast ⟨1, ![1]⟩ (Scalar.ofBits .f32 0xFF800000#32))
            (multiReduction .maximumf [1] ⟨1, ![1]⟩ L 0xFF800000#32 h (.inl rfl) hm)) sc) bc j) = _
    rw [hM]
    rfl
  rw [hE]
  funext j
  obtain ⟨p, q, rfl⟩ : ∃ (p : Fin 1) (q : Fin N), j = ix2 p q := ⟨j 0, j 1, eq_ix2 j⟩
  show Ideal.div (expShift L (ix2 p q)) (broadcastTo ⟨2, ![1, N]⟩ (shapeCast ⟨2, ![1, 1]⟩
          (multiReduction (F := Ideal) .add [1] ⟨1, ![1]⟩ (expShift L) 0x00000000#32 h (.inl rfl) ha) sc) bc (ix2 p q)) = _
  rw [Cert.LibKeepdims.broadcastTo_11_ab_apply, Cert.LibKeepdims.shapeCast_a_a1_apply, Cert.LibRowReduce.multiReduction_add_row]
  rfl

end Cert.Tail

namespace Cert.KernelIdeal.Val
open Idealize.ShloMosaic
open Idealize.ShloMosaic.ValueIdx
open Cert.Lib.Dense Cert.Lib.Rectify Cert.Tail

/-- The named reciprocal is the rational 1 / 100000 at the extended reals. -/
theorem inv_100000 : Named.named (F := Ideal) Cert.KernelIdeal.κ "inv_100000" (φ := .f32) 0x3727C5AC#32 = ((1 / 100000 : ℝ) : EReal) :=
  IdealRules.named_const.ideal_named_scalar _ _ _ _ rfl

/-- The kernel's last value: the softmax of the logits over the hidden layer of the column sums scaled by 1 / 100000. -/
theorem k1_pay3_eq (s : FVec Ideal Cert.KernelIdeal.S1x64 .f32) (w1 : FVec Ideal Cert.KernelIdeal.S64x64 .f32)
    (b1 : FVec Ideal Cert.KernelIdeal.S64 .f32) (w2 : FVec Ideal Cert.KernelIdeal.S64x10 .f32) (b2 : FVec Ideal Cert.KernelIdeal.S10 .f32) :
    Cert.KernelIdeal.Gen.k1_pay3 (F := Ideal) s w1 b1 w2 b2
      = Cert.Tail.tail (fun i => s i * ((1 / 100000 : ℝ) : EReal)) w1 b1 w2 b2 := by
  unfold Cert.KernelIdeal.Gen.k1_pay3
  refine (softmax_vec _ _ _ _ _ _).trans ?_
  unfold Cert.Tail.tail
  refine congrArg softmax ?_
  refine (pay_affine_row (K := 64) (N := 10) _ w2 b2 _).trans ?_
  refine congrArg (fun X => affine X w2 (biasRow b2)) ?_
  unfold Cert.Tail.hidden
  refine (relu_vec _).trans ?_
  refine congrArg relu ?_
  refine (pay_affine_row (K := 64) (N := 64) _ w1 b1 _).trans ?_
  refine congrArg (fun X => affine X w1 (biasRow b1)) ?_
  funext i
  show s i * Named.named (F := Ideal) Cert.KernelIdeal.κ "inv_100000" (φ := .f32) 0x3727C5AC#32 = _
  rw [inv_100000]

end Cert.KernelIdeal.Val

namespace Cert.ReferenceIdeal.RefVal
open Idealize.ShloMosaic Idealize.SL.Sem
open Idealize.ShloMosaic.ValueIdx
open Cert.Lib.Dense Cert.Lib.Rectify Cert.Tail
open Cert.ReferenceIdeal Cert.ReferenceIdeal.Read

variable (x0 : (⟨S100000x8, .f32⟩ : BufTy).Contents (Elt Ideal)) (x1 : (⟨S2x1600000, .i32⟩ : BufTy).Contents (Elt Ideal))
  (x2 : (⟨S8x64, .f32⟩ : BufTy).Contents (Elt Ideal)) (x3 : (⟨S64, .f32⟩ : BufTy).Contents (Elt Ideal))
  (x4 : (⟨S8x64, .f32⟩ : BufTy).Contents (Elt Ideal)) (x5 : (⟨S64x64, .f32⟩ : BufTy).Contents (Elt Ideal))
  (x6 : (⟨S64, .f32⟩ : BufTy).Contents (Elt Ideal)) (x7 x8 : (⟨S64x64, .f32⟩ : BufTy).Contents (Elt Ideal))
  (x9 : (⟨S64, .f32⟩ : BufTy).Contents (Elt Ideal)) (x10 : (⟨S64x10, .f32⟩ : BufTy).Contents (Elt Ideal))
  (x11 : (⟨S10, .f32⟩ : BufTy).Contents (Elt Ideal))

/-- The first affine layer of the stretch, over the pooled row. -/
theorem v66_eq : val_main_v66 (F := Ideal) x0 x1 x2 x3 x4 x5 x6 x7 x8 x9
    = affine (val_main_v63 (F := Ideal) x0 x1 x2 x3 x4 x5 x6 x7) x8 (biasRow x9) := by
  funext i
  obtain ⟨p, q, rfl⟩ : ∃ (p : Fin 1) (q : Fin 64), i = ix2 p q := ⟨i 0, i 1, eq_ix2 i⟩
  rw [val_main_v66_apply, val_main_v64_apply, val_main_v65_apply]
  generalize val_main_v63 (F := Ideal) x0 x1 x2 x3 x4 x5 x6 x7 = g
  have hl : ∀ k : Fin 64, lidx_main_v64 (ix2 p q) k = ix2 p k := fun k =>
    funext fun a => Fin.ext (by match a with | ⟨0, _⟩ => rfl | ⟨1, _⟩ => rfl)
  have hr : ∀ k : Fin 64, ridx_main_v64 (ix2 p q) k = ix2 k q := fun k =>
    funext fun a => Fin.ext (by match a with | ⟨0, _⟩ => rfl | ⟨1, _⟩ => rfl)
  have hb : idx_main_v65 (ix2 p q) = ix1 q := funext fun a => Fin.ext (by match a with | ⟨0, _⟩ => rfl)
  simp only [hl, hr, hb]
  rfl

/-- The hidden layer. -/
theorem v67_eq : val_main_v67 (F := Ideal) x0 x1 x2 x3 x4 x5 x6 x7 x8 x9
    = hidden (val_main_v63 (F := Ideal) x0 x1 x2 x3 x4 x5 x6 x7) x8 x9 := by
  unfold val_main_v67 val_main_call2_v0 val_main_call2_cst
  rw [v66_eq]
  exact relu_host _ _

/-- The logits. -/
theorem v70_eq : val_main_v70 (F := Ideal) x0 x1 x2 x3 x4 x5 x6 x7 x8 x9 x10 x11
    = affine (val_main_v67 (F := Ideal) x0 x1 x2 x3 x4 x5 x6 x7 x8 x9) x10 (biasRow x11) := by
  funext i
  obtain ⟨p, q, rfl⟩ : ∃ (p : Fin 1) (q : Fin 10), i = ix2 p q := ⟨i 0, i 1, eq_ix2 i⟩
  rw [val_main_v70_apply, val_main_v68_apply, val_main_v69_apply]
  generalize val_main_v67 (F := Ideal) x0 x1 x2 x3 x4 x5 x6 x7 x8 x9 = g
  have hl : ∀ k : Fin 64, lidx_main_v68 (ix2 p q) k = ix2 p k := fun k =>
    funext fun a => Fin.ext (by match a with | ⟨0, _⟩ => rfl | ⟨1, _⟩ => rfl)
  have hr : ∀ k : Fin 64, ridx_main_v68 (ix2 p q) k = ix2 k q := fun k =>
    funext fun a => Fin.ext (by match a with | ⟨0, _⟩ => rfl | ⟨1, _⟩ => rfl)
  have hb : idx_main_v69 (ix2 p q) = ix1 q := funext fun a => Fin.ext (by match a with | ⟨0, _⟩ => rfl)
  simp only [hl, hr, hb]
  rfl

/-- The softmax of the logits' one row. -/
theorem v81_eq : val_main_v81 (F := Ideal) x0 x1 x2 x3 x4 x5 x6 x7 x8 x9 x10 x11 = softmax (val_main_v70 (F := Ideal) x0 x1 x2 x3 x4 x5 x6 x7 x8 x9 x10 x11) := by
  have hE : ∀ j : S1x10.Idx, val_main_v77 (F := Ideal) x0 x1 x2 x3 x4 x5 x6 x7 x8 x9 x10 x11 j = expShift (val_main_v70 (F := Ideal) x0 x1 x2 x3 x4 x5 x6 x7 x8 x9 x10 x11) j := by
    intro j
    rw [val_main_v77_apply, val_main_v76_apply, val_main_v75_apply, val_main_v74_apply, val_main_v73_apply,
      val_main_v72_apply, val_main_cst_13_apply]
    unfold val_main_v71
    generalize val_main_v70 (F := Ideal) x0 x1 x2 x3 x4 x5 x6 x7 x8 x9 x10 x11 = L
    have hi : idx_main_v74 (idx_main_v75 j) = ix1 (0 : Fin 1) := funext fun a => Fin.ext (by match a with | ⟨0, _⟩ => rfl)
    rw [hi, Cert.LibRowReduce.hostReduce_maximumf_row _ _ _ (by decide)]
    rfl
  funext i
  obtain ⟨p, q, rfl⟩ : ∃ (p : Fin 1) (q : Fin 10), i = ix2 p q := ⟨i 0, i 1, eq_ix2 i⟩
  rw [val_main_v81_apply, val_main_v80_apply, val_main_v79_apply, val_main_v78_apply, val_main_cst_14_apply]
  simp only [hE]
  generalize val_main_v70 (F := Ideal) x0 x1 x2 x3 x4 x5 x6 x7 x8 x9 x10 x11 = L
  have hi : ∀ k : Fin 10, idx_main_v78 (idx_main_v79 (idx_main_v80 (ix2 p q))) k = ix2 (0 : Fin 1) k := fun k =>
    funext fun a => Fin.ext (by match a with | ⟨0, _⟩ => rfl | ⟨1, _⟩ => rfl)
  simp only [hi]
  show Ideal.div (expShift L (ix2 p q)) (Ideal.ofBits .f32 0x00000000#32 + ∑ k : Fin 10, expShift L (ix2 0 k)) = _
  rw [Ideal.ofBits_zero_f32, zero_add]
  rfl

/-- The reference's stretch from its pooled row to its result is `tail` of that row. -/
theorem tail_eq : val_main_v81 (F := Ideal) x0 x1 x2 x3 x4 x5 x6 x7 x8 x9 x10 x11
    = Cert.Tail.tail (val_main_v63 (F := Ideal) x0 x1 x2 x3 x4 x5 x6 x7) x8 x9 x10 x11 := by
  rw [v81_eq, v70_eq, v67_eq]
  rfl

end Cert.ReferenceIdeal.RefVal

end
-- ==== Proof.Val.R1Value.lean ====
/-
  Region 1's output array after its pipeline, at the extended reals: the class probabilities of the pooled mean of the
  second layer over all 100000 rows. The scratch buffer carries a running sum: the first grid point zeroes it and adds
  the column sums of the layer of its block of rows, every later point adds its own block's; after the twentieth block
  the running sum is the column sums over all rows. The last point scales it by 1 / 100000, applies the two small layers
  and the softmax, and its one block, the whole [1, 10] array, is the only one written back.
-/
import proofs.«156587_j64527588655232_1_alg».proof.Proof.KI.R1
import proofs.«156587_j64527588655232_1_alg».proof.Proof.Val.Pay
import proofs.«156587_j64527588655232_1_alg».proof.Proof.Val.Blocks
import proofs.«156587_j64527588655232_1_alg».proof.Proof.Val.Tail
import proofs.«156587_j64527588655232_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx

theorem zero2 : (![0, 0] : Fin 2 → Nat) = fun _ => 0 := funext fun a => by fin_cases a <;> rfl
theorem zero1 : (![0] : Fin 1 → Nat) = fun _ => 0 := funext fun a => by fin_cases a <;> rfl

/-! ## What each case's stores leave, as the payloads of the loaded blocks -/

section Pieces
variable {F : FTy → Type} [FloatOps F] [Named F]

/-- The first point zeroes the scratch buffer, reads the zero row back and leaves the zero row plus its block's column sums. -/
theorem sout1_A_eq (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : cond1_0 i) (hc1 : ¬cond1_1 i)
    (x0 : Vec F S5000x64 .f32) (x1 : Vec F S5000x64 .f32) (x2 : Vec F S64x64 .f32) (x3 : Vec F S64 .f32) (x4 : Vec F S64x64 .f32) :
    sout1_A c i arg1 harg1 arg2 harg2 arg3 harg3 arg4 harg4 arg5 harg5 arg6 harg6 arg7 harg7 arg8 harg8 arg9 harg9 arg10 harg10 arg11 harg11 hc0 hc1 x0 x1 x2 x3 x4 = k1_pay2 x0 x1 x2 x4 x3 (k1_pay1 (F := F)) := by
  unfold sout1_A
  rw [View.read_writes_eq_canon _ _ _ (scover1_A c i arg1 harg1 arg2 harg2 arg3 harg3 arg4 harg4 arg5 harg5 arg6 harg6 arg7 harg7 arg8 harg8 arg9 harg9 arg10 harg10 arg11 harg11 hc0 hc1 x0 x1 x2 x3 x4)]
  unfold kernelRun1_A
  dsimp only
  sl_unfold_words
  rw [View.canon_cons_unit_zero (S := S1x64) zero2, View.readCov_unit_zero (S := S1x64) _ zero2]
  simp only [View.readAt_eq_ld, harg1.read_unread, harg2.read_unread, harg3.read_unread, harg4.read_unread, harg5.read_unread, View.ld_unit_zero (S := S5000x64) zero2, View.ld_unit_zero (S := S64x64) zero2, View.ld_unit_zero (S := S64) zero1, View.ld_unit_zero (S := S1x64) zero2]

/-- A middle point leaves what the point before left plus its block's column sums. -/
theorem sout1_B_eq (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : ¬cond1_1 i)
    (x0 : Vec F S5000x64 .f32) (x1 : Vec F S5000x64 .f32) (x2 : Vec F S64x64 .f32) (x3 : Vec F S64 .f32) (x4 : Vec F S64x64 .f32) (xs : Vec F S1x64 .f32) :
    sout1_B c i arg1 harg1 arg2 harg2 arg3 harg3 arg4 harg4 arg5 harg5 arg6 harg6 arg7 harg7 arg8 harg8 arg9 harg9 arg10 harg10 arg11 harg11 hc0 hc1 x0 x1 x2 x3 x4 xs = k1_pay2 x0 x1 x2 x4 x3 xs := by
  unfold sout1_B
  rw [View.read_writes_eq_canon _ _ _ (scover1_B c i arg1 harg1 arg2 harg2 arg3 harg3 arg4 harg4 arg5 harg5 arg6 harg6 arg7 harg7 arg8 harg8 arg9 harg9 arg10 harg10 arg11 harg11 hc0 hc1 x0 x1 x2 x3 x4 xs)]
  unfold kernelRun1_B
  dsimp only
  sl_unfold_words
  rw [View.canon_unit_zero (S := S1x64) zero2]
  simp only [View.readAt_eq_ld, harg1.read_unread, harg2.read_unread, harg3.read_unread, harg4.read_unread, harg5.read_unread, harg11.read_unread, View.ld_unit_zero (S := S5000x64) zero2, View.ld_unit_zero (S := S64x64) zero2, View.ld_unit_zero (S := S64) zero1, View.ld_unit_zero (S := S1x64) zero2]

/-- The last point leaves in the scratch buffer what the point before left plus its block's column sums, -/
theorem sout1_C_eq (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : cond1_1 i)
    (x0 : Vec F S5000x64 .f32) (x1 : Vec F S5000x64 .f32) (x2 : Vec F S64x64 .f32) (x3 : Vec F S64 .f32) (x4 : Vec F S64x64 .f32) (x5 : Vec F S64x64 .f32) (x6 : Vec F S64 .f32) (x7 : Vec F S64x10 .f32) (x8 : Vec F S10 .f32) (xs : Vec F S1x64 .f32) :
    sout1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs = k1_pay2 x0 x1 x2 x4 x3 xs := by
  unfold sout1_C
  rw [View.read_writes_eq_canon _ _ _ (scover1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs)]
  unfold kernelRun1_C
  dsimp only
  sl_unfold_words
  rw [View.canon_unit_zero (S := S1x64) zero2]
  simp only [View.readAt_eq_ld, harg1.read_unread, harg2.read_unread, harg3.read_unread, harg4.read_unread, harg5.read_unread, harg6.read_unread, harg7.read_unread, harg8.read_unread, harg9.read_unread, harg11.read_unread, View.ld_unit_zero (S := S5000x64) zero2, View.ld_unit_zero (S := S64x64) zero2, View.ld_unit_zero (S := S64) zero1, View.ld_unit_zero (S := S1x64) zero2, View.ld_unit_zero (S := S64x10) zero2, View.ld_unit_zero (S := S10) zero1]

/-- and in the output window's buffer the last value of that sum read back, over the four operands of the two small layers. -/
theorem out1_C_9_eq (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64 .f32) (harg7 : arg7.IsWhole) (arg8 : Memref sig .tc .vmem S64x10 .f32) (harg8 : arg8.IsWhole) (arg9 : Memref sig .tc .vmem S10 .f32) (harg9 : arg9.IsWhole) (arg10 : Memref sig .tc .vmem S1x10 .f32) (harg10 : arg10.IsWhole) (arg11 : Memref sig .tc .vmem S1x64 .f32) (harg11 : arg11.IsWhole) (hc0 : ¬cond1_0 i) (hc1 : cond1_1 i)
    (x0 : Vec F S5000x64 .f32) (x1 : Vec F S5000x64 .f32) (x2 : Vec F S64x64 .f32) (x3 : Vec F S64 .f32) (x4 : Vec F S64x64 .f32) (x5 : Vec F S64x64 .f32) (x6 : Vec F S64 .f32) (x7 : Vec F S64x10 .f32) (x8 : Vec F S10 .f32) (xs : Vec F S1x64 .f32) :
    out1_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs = k1_pay3 (k1_pay2 x0 x1 x2 x4 x3 xs) x5 x6 x7 x8 := by
  unfold out1_C_9
  rw [View.read_writes_eq_canon _ _ _ (cover1_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs)]
  unfold kernelRun1_C
  dsimp only
  sl_unfold_words
  rw [View.canon_unit_zero (S := S1x10) zero2]
  simp only [View.readAt_eq_ld, harg1.read_unread, harg2.read_unread, harg3.read_unread, harg4.read_unread, harg5.read_unread, harg6.read_unread, harg7.read_unread, harg8.read_unread, harg9.read_unread, harg11.read_unread, View.readCov_unit_zero (S := S1x64) _ zero2, View.ld_unit_zero (S := S5000x64) zero2, View.ld_unit_zero (S := S64x64) zero2, View.ld_unit_zero (S := S64) zero1, View.ld_unit_zero (S := S1x64) zero2, View.ld_unit_zero (S := S64x10) zero2, View.ld_unit_zero (S := S10) zero1]

end Pieces

/-- One step of the running sum over blocks and arrays of the literal types: with the weights' and the bias's blocks the
    whole arrays, the stored row is the carried row plus the column sums of the layer of the two blocks of rows. -/
theorem step_eq (hb mb : S5000x64.Idx → EReal) (wl wr Wl Wr : S64x64.Idx → EReal) (b B : S64.Idx → EReal) (s s' : S1x64.Idx → EReal)
    (hwl : wl = Wl) (hwr : wr = Wr) (hbB : b = B) (hs : s = s') :
    k1_pay2 (F := Ideal) hb mb wl wr b s = fun i => s' i + Cert.Spec.colsum (Cert.Spec.sage hb mb Wl Wr B) (i 1) := by
  subst hwl; subst hwr; subst hbB; subst hs
  exact k1_pay2_eq hb mb wl wr b s

/-- The index maps over the grid: the features' and the mean's block of rows is the point's own, in the one block of
    columns; every other window is at its one block throughout. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = 0 ∧ win1_9.index t (1 : Fin 2) = 0 :=
  (by decide +kernel : ∀ t : Fin grid1.N, _)

section Region1
variable (V : (c : Dev nD) → (b : Ref sig .tc) → Buf (Elt Ideal) ((c : Thread nD τ).loc b))

/-- The blocks and the arrays by their literal types. -/
abbrev hblk (c : Dev nD) (t : Fin cfg1.N) : S5000x64.Idx → EReal := iblk1 V c 0 t
abbrev mblk (c : Dev nD) (t : Fin cfg1.N) : S5000x64.Idx → EReal := iblk1 V c 1 t
abbrev wlblk (c : Dev nD) (t : Fin cfg1.N) : S64x64.Idx → EReal := iblk1 V c 2 t
abbrev bblk (c : Dev nD) (t : Fin cfg1.N) : S64.Idx → EReal := iblk1 V c 3 t
abbrev wrblk (c : Dev nD) (t : Fin cfg1.N) : S64x64.Idx → EReal := iblk1 V c 4 t
abbrev w1blk (c : Dev nD) (t : Fin cfg1.N) : S64x64.Idx → EReal := iblk1 V c 5 t
abbrev b1blk (c : Dev nD) (t : Fin cfg1.N) : S64.Idx → EReal := iblk1 V c 6 t
abbrev w2blk (c : Dev nD) (t : Fin cfg1.N) : S64x10.Idx → EReal := iblk1 V c 7 t
abbrev b2blk (c : Dev nD) (t : Fin cfg1.N) : S10.Idx → EReal := iblk1 V c 8 t
abbrev harr (c : Dev nD) : S100000x64.Idx → EReal := V c main_v23
abbrev marr (c : Dev nD) : S100000x64.Idx → EReal := V c main_v38
abbrev wlarr (c : Dev nD) : S64x64.Idx → EReal := V c main_arg5
abbrev barr (c : Dev nD) : S64.Idx → EReal := V c main_arg6
abbrev wrarr (c : Dev nD) : S64x64.Idx → EReal := V c main_arg7
abbrev w1arr (c : Dev nD) : S64x64.Idx → EReal := V c main_arg8
abbrev b1arr (c : Dev nD) : S64.Idx → EReal := V c main_arg9
abbrev w2arr (c : Dev nD) : S64x10.Idx → EReal := V c main_arg10
abbrev b2arr (c : Dev nD) : S10.Idx → EReal := V c main_arg11

/-- A block of the features at point `t`, row `q`, is the array's row `5000 * t + q`. -/
theorem hblk_apply (c : Dev nD) (t : Fin cfg1.N) (z : S5000x64.Idx) (i : S100000x64.Idx)
    (h0 : (i 0).val = 5000 * t.val + (z 0).val) (h1 : (i 1).val = (z 1).val) : hblk V c t z = harr V c i := by
  obtain ⟨e00, e01, -⟩ := index_facts1 t
  show V c main_v23 (((cfg1.win 0).blk t).view.emb z) = V c main_v23 i
  congr 1
  funext a; apply Fin.ext
  match a with
  | ⟨0, _⟩ => show win1_0.index t (0 : Fin 2) * 5000 + 1 * (z 0).val = (i 0).val; omega
  | ⟨1, _⟩ => show win1_0.index t (1 : Fin 2) * 64 + 1 * (z 1).val = (i 1).val; omega

theorem mblk_apply (c : Dev nD) (t : Fin cfg1.N) (z : S5000x64.Idx) (i : S100000x64.Idx)
    (h0 : (i 0).val = 5000 * t.val + (z 0).val) (h1 : (i 1).val = (z 1).val) : mblk V c t z = marr V c i := by
  obtain ⟨-, -, e10, e11, -⟩ := index_facts1 t
  show V c main_v38 (((cfg1.win 1).blk t).view.emb z) = V c main_v38 i
  congr 1
  funext a; apply Fin.ext
  match a with
  | ⟨0, _⟩ => show win1_1.index t (0 : Fin 2) * 5000 + 1 * (z 0).val = (i 0).val; omega
  | ⟨1, _⟩ => show win1_1.index t (1 : Fin 2) * 64 + 1 * (z 1).val = (i 1).val; omega

/-- A window at its one block throughout holds the whole array. -/
theorem wlblk_eq (c : Dev nD) (t : Fin cfg1.N) : wlblk V c t = wlarr V c := by
  obtain ⟨-, -, -, -, e0, e1, -⟩ := index_facts1 t
  funext z
  show V c main_arg5 (((cfg1.win 2).blk t).view.emb z) = V c main_arg5 z
  congr 1
  funext a; apply Fin.ext
  match a with
  | ⟨0, _⟩ => show win1_2.index t (0 : Fin 2) * 64 + 1 * (z 0).val = (z 0).val; omega
  | ⟨1, _⟩ => show win1_2.index t (1 : Fin 2) * 64 + 1 * (z 1).val = (z 1).val; omega

theorem bblk_eq (c : Dev nD) (t : Fin cfg1.N) : bblk V c t = barr V c := by
  obtain ⟨-, -, -, -, -, -, e0, -⟩ := index_facts1 t
  funext z
  show V c main_arg6 (((cfg1.win 3).blk t).view.emb z) = V c main_arg6 z
  congr 1
  funext a; apply Fin.ext
  match a with
  | ⟨0, _⟩ => show win1_3.index t (0 : Fin 1) * 64 + 1 * (z 0).val = (z 0).val; omega

theorem wrblk_eq (c : Dev nD) (t : Fin cfg1.N) : wrblk V c t = wrarr V c := by
  obtain ⟨-, -, -, -, -, -, -, e0, e1, -⟩ := index_facts1 t
  funext z
  show V c main_arg7 (((cfg1.win 4).blk t).view.emb z) = V c main_arg7 z
  congr 1
  funext a; apply Fin.ext
  match a with
  | ⟨0, _⟩ => show win1_4.index t (0 : Fin 2) * 64 + 1 * (z 0).val = (z 0).val; omega
  | ⟨1, _⟩ => show win1_4.index t (1 : Fin 2) * 64 + 1 * (z 1).val = (z 1).val; omega

theorem w1blk_eq (c : Dev nD) (t : Fin cfg1.N) : w1blk V c t = w1arr V c := by
  obtain ⟨-, -, -, -, -, -, -, -, -, e0, e1, -⟩ := index_facts1 t
  funext z
  show V c main_arg8 (((cfg1.win 5).blk t).view.emb z) = V c main_arg8 z
  congr 1
  funext a; apply Fin.ext
  match a with
  | ⟨0, _⟩ => show win1_5.index t (0 : Fin 2) * 64 + 1 * (z 0).val = (z 0).val; omega
  | ⟨1, _⟩ => show win1_5.index t (1 : Fin 2) * 64 + 1 * (z 1).val = (z 1).val; omega

theorem b1blk_eq (c : Dev nD) (t : Fin cfg1.N) : b1blk V c t = b1arr V c := by
  obtain ⟨-, -, -, -, -, -, -, -, -, -, -, e0, -⟩ := index_facts1 t
  funext z
  show V c main_arg9 (((cfg1.win 6).blk t).view.emb z) = V c main_arg9 z
  congr 1
  funext a; apply Fin.ext
  match a with
  | ⟨0, _⟩ => show win1_6.index t (0 : Fin 1) * 64 + 1 * (z 0).val = (z 0).val; omega

theorem w2blk_eq (c : Dev nD) (t : Fin cfg1.N) : w2blk V c t = w2arr V c := by
  obtain ⟨-, -, -, -, -, -, -, -, -, -, -, -, e0, e1, -⟩ := index_facts1 t
  funext z
  show V c main_arg10 (((cfg1.win 7).blk t).view.emb z) = V c main_arg10 z
  congr 1
  funext a; apply Fin.ext
  match a with
  | ⟨0, _⟩ => show win1_7.index t (0 : Fin 2) * 64 + 1 * (z 0).val = (z 0).val; omega
  | ⟨1, _⟩ => show win1_7.index t (1 : Fin 2) * 10 + 1 * (z 1).val = (z 1).val; omega

theorem b2blk_eq (c : Dev nD) (t : Fin cfg1.N) : b2blk V c t = b2arr V c := by
  obtain ⟨-, -, -, -, -, -, -, -, -, -, -, -, -, -, e0, -⟩ := index_facts1 t
  funext z
  show V c main_arg11 (((cfg1.win 8).blk t).view.emb z) = V c main_arg11 z
  congr 1
  funext a; apply Fin.ext
  match a with
  | ⟨0, _⟩ => show win1_8.index t (0 : Fin 1) * 10 + 1 * (z 0).val = (z 0).val; omega

/-- Point `s` of the twenty, as a point of the grid. -/
abbrev pt (s : Fin 20) : Fin cfg1.N := ⟨s.val, lt_of_lt_of_eq s.isLt (show (20 : ℕ) = cfg1.N from N_1.symm)⟩

/-- The scratch buffer after point `n` holds the running sum over blocks 0 to `n`: by induction on the point. -/
theorem scratch_eq (c : Dev nD) : ∀ (n : ℕ) (h : n < cfg1.N) (h' : n < 20),
    (outsAt1 (F := Ideal) V c n h).2
      = Cert.Spec.runSum (fun s => hblk V c (pt s)) (fun s => mblk V c (pt s)) (wlarr V c) (wrarr V c) (barr V c) n h'
  | 0, h, h' => by
    rw [outsAt1_A V c ⟨0, h⟩ rfl (fun e => by dsimp only at e; omega)]
    dsimp only
    refine (sout1_A_eq (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) scM1 (Memref.isWhole_whole _) _ _ (hblk V c ⟨0, h⟩) (mblk V c ⟨0, h⟩) (wlblk V c ⟨0, h⟩) (bblk V c ⟨0, h⟩) (wrblk V c ⟨0, h⟩)).trans ?_
    refine (step_eq (hblk V c ⟨0, h⟩) (mblk V c ⟨0, h⟩) (wlblk V c ⟨0, h⟩) (wrblk V c ⟨0, h⟩) (wlarr V c) (wrarr V c) (bblk V c ⟨0, h⟩) (barr V c)
      (k1_pay1 (F := Ideal)) (fun _ => (0 : EReal)) (wlblk_eq V c ⟨0, h⟩) (wrblk_eq V c ⟨0, h⟩) (bblk_eq V c ⟨0, h⟩) k1_pay1_eq).trans ?_
    rfl
  | n + 1, h, h' => by
    have ih := scratch_eq c n (Nat.lt_of_succ_lt h) (Nat.lt_of_succ_lt h')
    by_cases h19 : n + 1 = 19
    · rw [outsAt1_C V c ⟨n + 1, h⟩ (Nat.succ_ne_zero n) h19]
      dsimp only
      refine (sout1_C_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) scM1 (Memref.isWhole_whole _) _ _ (hblk V c ⟨n + 1, h⟩) (mblk V c ⟨n + 1, h⟩) (wlblk V c ⟨n + 1, h⟩) (bblk V c ⟨n + 1, h⟩) (wrblk V c ⟨n + 1, h⟩) (w1blk V c ⟨n + 1, h⟩) (b1blk V c ⟨n + 1, h⟩) (w2blk V c ⟨n + 1, h⟩) (b2blk V c ⟨n + 1, h⟩) (outsAt1 (F := Ideal) V c n (Nat.lt_of_succ_lt h)).2).trans ?_
      refine (step_eq (hblk V c ⟨n + 1, h⟩) (mblk V c ⟨n + 1, h⟩) (wlblk V c ⟨n + 1, h⟩) (wrblk V c ⟨n + 1, h⟩) (wlarr V c) (wrarr V c) (bblk V c ⟨n + 1, h⟩) (barr V c)
        (outsAt1 (F := Ideal) V c n (Nat.lt_of_succ_lt h)).2 _ (wlblk_eq V c ⟨n + 1, h⟩) (wrblk_eq V c ⟨n + 1, h⟩) (bblk_eq V c ⟨n + 1, h⟩) ih).trans ?_
      rfl
    · rw [outsAt1_B V c ⟨n + 1, h⟩ (Nat.succ_ne_zero n) h19]
      dsimp only
      refine (sout1_B_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) scM1 (Memref.isWhole_whole _) _ _ (hblk V c ⟨n + 1, h⟩) (mblk V c ⟨n + 1, h⟩) (wlblk V c ⟨n + 1, h⟩) (bblk V c ⟨n + 1, h⟩) (wrblk V c ⟨n + 1, h⟩) (outsAt1 (F := Ideal) V c n (Nat.lt_of_succ_lt h)).2).trans ?_
      refine (step_eq (hblk V c ⟨n + 1, h⟩) (mblk V c ⟨n + 1, h⟩) (wlblk V c ⟨n + 1, h⟩) (wrblk V c ⟨n + 1, h⟩) (wlarr V c) (wrarr V c) (bblk V c ⟨n + 1, h⟩) (barr V c)
        (outsAt1 (F := Ideal) V c n (Nat.lt_of_succ_lt h)).2 _ (wlblk_eq V c ⟨n + 1, h⟩) (wrblk_eq V c ⟨n + 1, h⟩) (bblk_eq V c ⟨n + 1, h⟩) ih).trans ?_
      rfl

/-- What the region leaves in the output array: the class probabilities of the pooled mean of the layer over all rows. -/
abbrev result1 (c : Dev nD) : S1x10.Idx → EReal :=
  Cert.Tail.tail (Cert.Spec.pooled (Cert.Spec.sage (harr V c) (marr V c) (wlarr V c) (wrarr V c) (barr V c))) (w1arr V c) (b1arr V c) (w2arr V c) (b2arr V c)

/-- The two small layers and the softmax over arrays of the literal types, with the operands' blocks the whole arrays
    and the scaled row the pooled mean. -/
theorem last_eq (s : S1x64.Idx → EReal) (g : S1x64.Idx → EReal) (w1 W1 : S64x64.Idx → EReal) (b1 B1 : S64.Idx → EReal)
    (w2 W2 : S64x10.Idx → EReal) (b2 B2 : S10.Idx → EReal)
    (hw1 : w1 = W1) (hb1 : b1 = B1) (hw2 : w2 = W2) (hb2 : b2 = B2) (hg : ∀ i, s i * ((1 / 100000 : ℝ) : EReal) = g i) :
    k1_pay3 (F := Ideal) s w1 b1 w2 b2 = Cert.Tail.tail g W1 B1 W2 B2 := by
  subst hw1; subst hb1; subst hw2; subst hb2
  refine (k1_pay3_eq s w1 b1 w2 b2).trans ?_
  exact congrArg (fun x => Cert.Tail.tail x w1 b1 w2 b2) (funext hg)

/-- After the last point the output window's buffer holds the result. -/
theorem out_last (c : Dev nD) (h : 19 < cfg1.N) : (outsAt1 (F := Ideal) V c 19 h).1 = result1 V c := by
  have hs := scratch_eq V c 19 h (by decide)
  rw [outsAt1_C V c ⟨19, h⟩ (fun e => by dsimp only at e; omega) rfl] at hs ⊢
  dsimp only at hs ⊢
  refine (out1_C_9_eq (F := Ideal) c (grid1.coords ⟨19, h⟩) (ms1_0 ⟨19, h⟩) (hs1_0 ⟨19, h⟩) (ms1_1 ⟨19, h⟩) (hs1_1 ⟨19, h⟩) (ms1_2 ⟨19, h⟩) (hs1_2 ⟨19, h⟩) (ms1_3 ⟨19, h⟩) (hs1_3 ⟨19, h⟩) (ms1_4 ⟨19, h⟩) (hs1_4 ⟨19, h⟩) (ms1_5 ⟨19, h⟩) (hs1_5 ⟨19, h⟩) (ms1_6 ⟨19, h⟩) (hs1_6 ⟨19, h⟩) (ms1_7 ⟨19, h⟩) (hs1_7 ⟨19, h⟩) (ms1_8 ⟨19, h⟩) (hs1_8 ⟨19, h⟩) (ms1_9 ⟨19, h⟩) (hs1_9 ⟨19, h⟩) scM1 (Memref.isWhole_whole _) _ _ (hblk V c ⟨19, h⟩) (mblk V c ⟨19, h⟩) (wlblk V c ⟨19, h⟩) (bblk V c ⟨19, h⟩) (wrblk V c ⟨19, h⟩) (w1blk V c ⟨19, h⟩) (b1blk V c ⟨19, h⟩) (w2blk V c ⟨19, h⟩) (b2blk V c ⟨19, h⟩) (outsAt1 (F := Ideal) V c 18 (Nat.lt_of_succ_lt h)).2).trans ?_
  have hs' := (sout1_C_eq (F := Ideal) c (grid1.coords ⟨19, h⟩) (ms1_0 ⟨19, h⟩) (hs1_0 ⟨19, h⟩) (ms1_1 ⟨19, h⟩) (hs1_1 ⟨19, h⟩) (ms1_2 ⟨19, h⟩) (hs1_2 ⟨19, h⟩) (ms1_3 ⟨19, h⟩) (hs1_3 ⟨19, h⟩) (ms1_4 ⟨19, h⟩) (hs1_4 ⟨19, h⟩) (ms1_5 ⟨19, h⟩) (hs1_5 ⟨19, h⟩) (ms1_6 ⟨19, h⟩) (hs1_6 ⟨19, h⟩) (ms1_7 ⟨19, h⟩) (hs1_7 ⟨19, h⟩) (ms1_8 ⟨19, h⟩) (hs1_8 ⟨19, h⟩) (ms1_9 ⟨19, h⟩) (hs1_9 ⟨19, h⟩) scM1 (Memref.isWhole_whole _) _ _ (hblk V c ⟨19, h⟩) (mblk V c ⟨19, h⟩) (wlblk V c ⟨19, h⟩) (bblk V c ⟨19, h⟩) (wrblk V c ⟨19, h⟩) (w1blk V c ⟨19, h⟩) (b1blk V c ⟨19, h⟩) (w2blk V c ⟨19, h⟩) (b2blk V c ⟨19, h⟩) (outsAt1 (F := Ideal) V c 18 (Nat.lt_of_succ_lt h)).2).symm.trans hs
  refine last_eq _ _ (w1blk V c ⟨19, h⟩) (w1arr V c) (b1blk V c ⟨19, h⟩) (b1arr V c) (w2blk V c ⟨19, h⟩) (w2arr V c) (b2blk V c ⟨19, h⟩) (b2arr V c)
    (w1blk_eq V c ⟨19, h⟩) (b1blk_eq V c ⟨19, h⟩) (w2blk_eq V c ⟨19, h⟩) (b2blk_eq V c ⟨19, h⟩) (fun i => ?_)
  rw [hs']
  exact Cert.Spec.runSum_last (harr V c) (marr V c) (wlarr V c) (wrarr V c) (barr V c) (fun s => hblk V c (pt s)) (fun s => mblk V c (pt s))
    (fun s q k => hblk_apply V c (pt s) (ix2 q k) (ix2 (Cert.Spec.blockRow s q) k) rfl rfl)
    (fun s q k => mblk_apply V c (pt s) (ix2 q k) (ix2 (Cert.Spec.blockRow s q) k) rfl rfl) i

/-- The same at a point known to be the last. -/
theorem out_last_at (c : Dev nD) (t : Fin cfg1.N) (h19 : t.val = 19) : (outsAt1 (F := Ideal) V c t.val t.isLt).1 = result1 V c := by
  obtain ⟨n, hn⟩ := t
  dsimp only at h19
  subst h19
  exact out_last V c hn

/-- The output window's one block is the whole array: a row of ten read through it is the row. -/
theorem whole_block1_9 (t : Fin cfg1.N) (G : S1x10.Idx → EReal) :
    (cfg1.win 9).cut (grid1.coords t) G = ((cfg1.win 9).blk t).view.read (Elt Ideal) G := by
  obtain ⟨-, -, -, -, -, -, -, -, -, -, -, -, -, -, -, e0, e1⟩ := index_facts1 t
  funext y
  show G y = G (((cfg1.win 9).blk t).view.emb y)
  congr 1
  funext a; apply Fin.ext
  match a with
  | ⟨0, _⟩ => show (y 0).val = win1_9.index t (0 : Fin 2) * 1 + 1 * (y 0).val; omega
  | ⟨1, _⟩ => show (y 1).val = win1_9.index t (1 : Fin 2) * 10 + 1 * (y 1).val; omega

/-- The one write-back, at the last point, writes the result: its block is the whole array. -/
theorem flushed1_9_eq (c : Dev nD) (t : Fin cfg1.N) (hf : (cfg1.win 9).flush t = true) :
    (dat1 (F := Ideal) V c).flushed 9 t = ((cfg1.win 9).blk t).view.read (Elt Ideal) (result1 V c) := by
  have h19 : t.val = 19 := by have := (flush1_9 t).mp hf; have := lt_of_lt_of_eq t.isLt (show cfg1.N = 20 from N_1); omega
  show (cfg1.win 9).cut (grid1.coords t) ((dat1 (F := Ideal) V c).after 9 t) = _
  rw [after1_9, out_last_at V c t h19]
  exact whole_block1_9 t (result1 V c)

/-- An index of the output array is in point `t`'s block iff each coordinate is in the block's range on its axis. -/
theorem mem_blk1_9 (t : Fin cfg1.N) (i : S1x10.Idx) :
    i ∈ ((cfg1.win 9).blk t).view.set ↔ ∀ a : Fin 2, win1_9.index t a * S1x10.size a ≤ (i a).val ∧ (i a).val < win1_9.index t a * S1x10.size a + S1x10.size a := by
  show i ∈ ((View.whole main_v39).slice (win1_9.rect t)).set ↔ _
  rw [View.set_slice_whole, Rect.mem_set_unit]
  exact Iff.rfl

/-- Every index of the output array is in the last point's block. -/
theorem covered1_9 (i : S1x10.Idx) :
    ∃ t : Fin cfg1.N, (cfg1.win 9).flush t = true ∧ i ∈ ((cfg1.win 9).blk t).view.set := by
  have hi0 : (i 0).val < 1 := (i 0).isLt
  have hi1 : (i 1).val < 10 := (i 1).isLt
  have h : 19 < cfg1.N := lt_of_lt_of_eq (by decide : 19 < 20) (show (20 : ℕ) = cfg1.N from N_1.symm)
  obtain ⟨-, -, -, -, -, -, -, -, -, -, -, -, -, -, -, e0, e1⟩ := index_facts1 ⟨19, h⟩
  refine ⟨⟨19, h⟩, (flush1_9 ⟨19, h⟩).mpr rfl, ?_⟩
  rw [mem_blk1_9]
  intro a
  match a with
  | ⟨0, _⟩ => show win1_9.index ⟨19, h⟩ (0 : Fin 2) * 1 ≤ (i 0).val ∧ (i 0).val < win1_9.index ⟨19, h⟩ (0 : Fin 2) * 1 + 1; omega
  | ⟨1, _⟩ => show win1_9.index ⟨19, h⟩ (1 : Fin 2) * 10 ≤ (i 1).val ∧ (i 1).val < win1_9.index ⟨19, h⟩ (1 : Fin 2) * 10 + 10; omega

/-- The output array after the region: the class probabilities of the pooled mean of the second layer over all rows. -/
theorem arrAt1_9 (c : Dev nD) :
    (Cert.KernelIdeal.Hand.dat1 (F := Ideal) V c).arrAt 9 cfg1.N
      = Cert.Tail.tail (Cert.Spec.pooled (Cert.Spec.sage (V c main_v23) (V c main_v38) (V c main_arg5) (V c main_arg7) (V c main_arg6))) (V c main_arg8) (V c main_arg9) (V c main_arg10) (V c main_arg11) :=
  (dat1 (F := Ideal) V c).arrAt_eq_of_cover 9 (result1 V c) (flushed1_9_eq V c) covered1_9

end Region1

end Cert.KernelIdeal.Val

end
-- ==== Proof.Val.Agg.lean ====
/-
  The neighbourhood mean both programs compute with the same host operations, as one function of a feature array and
  the edge list: the source row of the edge list with negative entries wrapped by the node count, the features
  gathered at the sources, added up at the destinations, and divided by the in-degree floored at one (the in-degree
  being the ones added up at the destinations). It is carried whole: nothing in the proof looks inside it.
-/
import proofs.«156587_j64527588655232_1_alg».proof.KernelIdeal
import proofs.«156587_j64527588655232_1_alg».proof.Proof.Gen.KernelIdeal

noncomputable section
namespace Cert.KernelIdeal.Val
open Idealize.ShloMosaic Cert.KernelIdeal Cert.KernelIdeal.Gen

variable {F : FTy → Type} [FloatOps F]

/-- Row 0 of the edge list: the sources. -/
def srcRow (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000
/-- Row 1 of the edge list: the destinations. -/
def dstRow (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000
/-- The sources as a column of gather indices, a negative one wrapped by the node count. -/
def srcCol (ei : (⟨S2x1600000, .i32⟩ : BufTy).Contents (Elt F)) : (⟨S1600000x1, .i32⟩ : BufTy).Contents (Elt F) :=
  broadcastInDim S1600000x1 ![0] bcast_S1600000_S1600000x1_0
    (select (cmpi .slt (srcRow (F := F) ei) (broadcastInDim S1600000 ![] bcast_S_S1600000 (constantI S_ 32 0#32)))
      (addi (srcRow (F := F) ei) (broadcastInDim S1600000 ![] bcast_S_S1600000 (constantI S_ 32 100000#32))) (srcRow (F := F) ei))
/-- The destinations as a column of scatter indices. -/
def dstCol (ei : (⟨S2x1600000, .i32⟩ : BufTy).Contents (Elt F)) : (⟨S1600000x1, .i32⟩ : BufTy).Contents (Elt F) :=
  broadcastInDim S1600000x1 ![0] bcast_S1600000_S1600000x1_0 (dstRow (F := F) ei)
/-- The in-degree of every node: the ones added up at the destinations. -/
def deg (ei : (⟨S2x1600000, .i32⟩ : BufTy).Contents (Elt F)) : (⟨S100000, .f32⟩ : BufTy).Contents (Elt F) :=
  Host.scatterAdd scatter_S100000_S1600000x1_S1600000_n_0_0_1 (broadcastInDim S100000 ![] bcast_S_S100000 (constant S_ .f32 0x00000000#32))
    (dstCol (F := F) ei) (broadcastInDim S1600000 ![] bcast_S_S1600000 (constant S_ .f32 0x3F800000#32))
/-- The in-degree floored at one. -/
def degFloor (ei : (⟨S2x1600000, .i32⟩ : BufTy).Contents (Elt F)) : (⟨S100000, .f32⟩ : BufTy).Contents (Elt F) :=
  maximumf (deg (F := F) ei) (broadcastInDim S100000 ![] bcast_S_S100000 (constant S_ .f32 0x3F800000#32))

/-- The neighbourhood mean of an 8-column feature array. -/
def agg8 (x : (⟨S100000x8, .f32⟩ : BufTy).Contents (Elt F)) (ei : (⟨S2x1600000, .i32⟩ : BufTy).Contents (Elt F)) : (⟨S100000x8, .f32⟩ : BufTy).Contents (Elt F) :=
  Host.divf (Host.scatterAdd scatter_S100000x8_S1600000x1_S1600000x8_1_0_0_1 (broadcastInDim S100000x8 ![] bcast_S_S100000x8 (constant S_ .f32 0x00000000#32))
      (dstCol (F := F) ei) (Host.gather gather_S100000x8_S1600000x1_S1600000x8_1_0_n_n_0_1_18 x (srcCol (F := F) ei)))
    (broadcastInDim S100000x8 ![0, 1] bcast_S100000x1_S100000x8_0_1 (broadcastInDim S100000x1 ![0] bcast_S100000_S100000x1_0 (degFloor (F := F) ei)))

/-- The neighbourhood mean of a 64-column feature array. -/
def agg64 (h : (⟨S100000x64, .f32⟩ : BufTy).Contents (Elt F)) (ei : (⟨S2x1600000, .i32⟩ : BufTy).Contents (Elt F)) : (⟨S100000x64, .f32⟩ : BufTy).Contents (Elt F) :=
  Host.divf (Host.scatterAdd scatter_S100000x64_S1600000x1_S1600000x64_1_0_0_1 (broadcastInDim S100000x64 ![] bcast_S_S100000x64 (constant S_ .f32 0x00000000#32))
      (dstCol (F := F) ei) (Host.gather gather_S100000x64_S1600000x1_S1600000x64_1_0_n_n_0_1_164 h (srcCol (F := F) ei)))
    (broadcastInDim S100000x64 ![0, 1] bcast_S100000x1_S100000x64_0_1 (broadcastInDim S100000x1 ![0] bcast_S100000_S100000x1_0 (degFloor (F := F) ei)))

end Cert.KernelIdeal.Val
-- ==== Proof.Val.HostChain.lean ====
/-
  What the kernel program's two stretches of host operations leave in the buffers the pallas_calls read, as the shared
  neighbourhood-mean chain: after the first stretch the mean of the node features; after the second the mean of the
  first layer's output, which reuses the source row, the destination row and the in-degree the first stretch computed.
  Stated over any contents of the buffers before the stretch.
-/
import proofs.«156587_j64527588655232_1_alg».proof.Proof.Val.Agg
import proofs.«156587_j64527588655232_1_alg».proof.Proof.Gen.KernelIdeal.Launch
import Idealize.ShloMosaic.Lib.StableHlo.Run

set_option maxRecDepth 16384
noncomputable section
namespace Cert.KernelIdeal.Val
open Idealize.ShloMosaic Idealize.ShloMosaic.TcCoe Idealize.SL.Sem Idealize.ShloMosaic.StableHlo Cert.KernelIdeal Cert.KernelIdeal.Gen

variable {F : FTy → Type} [FloatOps F] [Named F]

/-- After the first stretch the source row of the edge list is in its buffer. -/
theorem after0_v1 (W : Valuation τ sig (Elt F)) :
    StableHlo.after hostOps0 W (Proc.devRef .tc main_v1) = srcRow (F := F) (W (Proc.devRef .tc main_arg1)) := by
  unfold srcRow
  after_results_simp
  try rfl

/-- After the first stretch the destination row of the edge list is in its buffer. -/
theorem after0_v3 (W : Valuation τ sig (Elt F)) :
    StableHlo.after hostOps0 W (Proc.devRef .tc main_v3) = dstRow (F := F) (W (Proc.devRef .tc main_arg1)) := by
  unfold dstRow
  after_results_simp
  try rfl

/-- After the first stretch the in-degree is in its buffer. -/
theorem after0_v7 (W : Valuation τ sig (Elt F)) :
    StableHlo.after hostOps0 W (Proc.devRef .tc main_v7) = deg (F := F) (W (Proc.devRef .tc main_arg1)) := by
  unfold deg dstCol dstRow
  after_results_simp
  try rfl

/-- After the first stretch the buffer the first pallas_call reads as its second operand holds the neighbourhood mean
    of the node features. -/
theorem after0_v22 (W : Valuation τ sig (Elt F)) :
    StableHlo.after hostOps0 W (Proc.devRef .tc main_v22)
      = agg8 (F := F) (W (Proc.devRef .tc main_arg0)) (W (Proc.devRef .tc main_arg1)) := by
  unfold agg8 degFloor deg dstCol srcCol srcRow dstRow
  after_results_simp
  try rfl

/-- After the second stretch the buffer the second pallas_call reads as its second operand holds the neighbourhood
    mean of the first layer's output, when the three buffers the stretch reuses hold the edge list's rows and the
    in-degree. -/
theorem after1_v38 (W : Valuation τ sig (Elt F)) (ei : (⟨S2x1600000, .i32⟩ : BufTy).Contents (Elt F))
    (h1 : W (Proc.devRef .tc main_v1) = srcRow (F := F) ei) (h3 : W (Proc.devRef .tc main_v3) = dstRow (F := F) ei)
    (h7 : W (Proc.devRef .tc main_v7) = deg (F := F) ei) :
    StableHlo.after hostOps1 W (Proc.devRef .tc main_v38) = agg64 (F := F) (W (Proc.devRef .tc main_v23)) ei := by
  unfold agg64 degFloor dstCol srcCol
  rw [← h1, ← h3, ← h7]
  after_results_simp
  try rfl

end Cert.KernelIdeal.Val
-- ==== Proof.Ref.Layers.lean ====
/-
  The reference's two dense layers and its pooled mean, entry by entry at the extended reals, as the specification's
  functions. A layer of the reference adds the bias to the neighbourhood mean's product first and the node's own product
  second; the specification adds the two products first and the bias last. Addition on the extended reals is commutative
  and associative, so the two orders agree at every entry, finite or not. The pooled mean divides the column sums by the
  real 100000, which at the extended reals is the product with the real 1 / 100000 on every value. The neighbourhood
  means themselves are carried whole: they are the same chain of host operations in both programs.
-/
import proofs.«156587_j64527588655232_1_alg».proof.Proof.Ref.Base
import proofs.«156587_j64527588655232_1_alg».proof.Proof.Spec
import proofs.«156587_j64527588655232_1_alg».proof.Proof.Val.Agg
import Idealize.ShloMosaic.PureOps.Ideal
import Idealize.ShloMosaic.PureOps.Ideal.Laws
import Idealize.ShloMosaic.Lib.ValueIdx

noncomputable section
namespace Cert.ReferenceIdeal.RefVal
open Idealize.ShloMosaic Idealize.ShloMosaic.ValueIdx
open Cert.ReferenceIdeal Cert.ReferenceIdeal.Read
open Cert.Lib.Rectify

/-- The neighbourhood mean of the input features is the shared chain. -/
theorem mean1_eq (x0 : (⟨S100000x8, .f32⟩ : BufTy).Contents (Elt Ideal)) (x1 : (⟨S2x1600000, .i32⟩ : BufTy).Contents (Elt Ideal)) :
    val_main_v22 (F := Ideal) x0 x1 = Cert.KernelIdeal.Val.agg8 (F := Ideal) x0 x1 := rfl

/-- The neighbourhood mean of the first layer's output is the shared chain. -/
theorem mean2_eq (x0 : (⟨S100000x8, .f32⟩ : BufTy).Contents (Elt Ideal)) (x1 : (⟨S2x1600000, .i32⟩ : BufTy).Contents (Elt Ideal)) (x2 : (⟨S8x64, .f32⟩ : BufTy).Contents (Elt Ideal)) (x3 : (⟨S64, .f32⟩ : BufTy).Contents (Elt Ideal)) (x4 : (⟨S8x64, .f32⟩ : BufTy).Contents (Elt Ideal)) :
    val_main_v52 (F := Ideal) x0 x1 x2 x3 x4
      = Cert.KernelIdeal.Val.agg64 (F := Ideal) (val_main_v29 (F := Ideal) x0 x1 x2 x3 x4) x1 := rfl

/-- One entry of a layer as the reference adds it up, (mean product + bias) + own product, then the rectifier, is the
    specification's entry, (mean product + own product) + bias, then the rectifier. -/
theorem sage_entry {M K N : Nat} (X Mn : (⟨2, ![M, K]⟩ : Shape).Idx → EReal) (Wl Wr : (⟨2, ![K, N]⟩ : Shape).Idx → EReal)
    (b : (⟨1, ![N]⟩ : Shape).Idx → EReal) (j : (⟨2, ![M, N]⟩ : Shape).Idx)
    (lm lx : Fin K → (⟨2, ![M, K]⟩ : Shape).Idx) (rl rr : Fin K → (⟨2, ![K, N]⟩ : Shape).Idx) (bi : (⟨1, ![N]⟩ : Shape).Idx)
    (hlm : ∀ k, lm k = ix2 (j 0) k) (hlx : ∀ k, lx k = ix2 (j 0) k)
    (hrl : ∀ k, rl k = ix2 k (j 1)) (hrr : ∀ k, rr k = ix2 k (j 1)) (hbi : bi = ix1 (j 1)) :
    FloatOps.maximumf (F := Ideal) (φ := .f32)
        (FloatOps.addf (F := Ideal) (φ := .f32)
          (FloatOps.addf (F := Ideal) (φ := .f32) (∑ k : Fin K, Mn (lm k) * Wl (rl k)) (b bi))
          (∑ k : Fin K, X (lx k) * Wr (rr k)))
        (FloatOps.ofBits (F := Ideal) .f32 0x00000000#32)
      = Cert.Spec.sage X Mn Wl Wr b j := by
  unfold Cert.Spec.sage relu1
  simp only [hlm, hlx, hrl, hrr, hbi]
  refine congrArg (fun t => FloatOps.maximumf (F := Ideal) (φ := .f32) t _) ?_
  exact add_right_comm _ _ _

/-- The reference's first layer. -/
theorem layer1_eq (x0 : (⟨S100000x8, .f32⟩ : BufTy).Contents (Elt Ideal)) (x1 : (⟨S2x1600000, .i32⟩ : BufTy).Contents (Elt Ideal)) (x2 : (⟨S8x64, .f32⟩ : BufTy).Contents (Elt Ideal)) (x3 : (⟨S64, .f32⟩ : BufTy).Contents (Elt Ideal)) (x4 : (⟨S8x64, .f32⟩ : BufTy).Contents (Elt Ideal)) :
    val_main_v29 (F := Ideal) x0 x1 x2 x3 x4 = Cert.Spec.sage x0 (val_main_v22 (F := Ideal) x0 x1) x2 x4 x3 := by
  funext i
  rw [val_main_v29_apply, val_main_v28_apply, val_main_v26_apply, val_main_v23_apply, val_main_v25_apply,
    val_main_v24_apply, val_main_v27_apply, val_main_call0_v0_apply, val_main_call0_cst_apply]
  generalize val_main_v22 (F := Ideal) x0 x1 = mn
  refine sage_entry (M := 100000) (K := 8) (N := 64) x0 mn x2 x4 x3 i _ _ _ _ _ ?_ ?_ ?_ ?_ ?_
  · intro k; exact funext fun a => Fin.ext (by match a with | ⟨0, _⟩ => rfl | ⟨1, _⟩ => rfl)
  · intro k; exact funext fun a => Fin.ext (by match a with | ⟨0, _⟩ => rfl | ⟨1, _⟩ => rfl)
  · intro k; exact funext fun a => Fin.ext (by match a with | ⟨0, _⟩ => rfl | ⟨1, _⟩ => rfl)
  · intro k; exact funext fun a => Fin.ext (by match a with | ⟨0, _⟩ => rfl | ⟨1, _⟩ => rfl)
  · exact funext fun a => Fin.ext (by match a with | ⟨0, _⟩ => rfl)

/-- The reference's second layer, over the first layer's output and its neighbourhood mean carried whole. -/
theorem layer2_eq (x0 : (⟨S100000x8, .f32⟩ : BufTy).Contents (Elt Ideal)) (x1 : (⟨S2x1600000, .i32⟩ : BufTy).Contents (Elt Ideal)) (x2 : (⟨S8x64, .f32⟩ : BufTy).Contents (Elt Ideal)) (x3 : (⟨S64, .f32⟩ : BufTy).Contents (Elt Ideal)) (x4 : (⟨S8x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v59 (F := Ideal) x0 x1 x2 x3 x4 x5 x6 x7
      = Cert.Spec.sage (val_main_v29 (F := Ideal) x0 x1 x2 x3 x4) (val_main_v52 (F := Ideal) x0 x1 x2 x3 x4) x5 x7 x6 := by
  funext i
  rw [val_main_v59_apply, val_main_v58_apply, val_main_v56_apply, val_main_v53_apply, val_main_v55_apply,
    val_main_v54_apply, val_main_v57_apply, val_main_call1_v0_apply, val_main_call1_cst_apply]
  generalize val_main_v52 (F := Ideal) x0 x1 x2 x3 x4 = mn
  generalize val_main_v29 (F := Ideal) x0 x1 x2 x3 x4 = h
  refine sage_entry (M := 100000) (K := 64) (N := 64) h mn x5 x7 x6 i _ _ _ _ _ ?_ ?_ ?_ ?_ ?_
  · intro k; exact funext fun a => Fin.ext (by match a with | ⟨0, _⟩ => rfl | ⟨1, _⟩ => rfl)
  · intro k; exact funext fun a => Fin.ext (by match a with | ⟨0, _⟩ => rfl | ⟨1, _⟩ => rfl)
  · intro k; exact funext fun a => Fin.ext (by match a with | ⟨0, _⟩ => rfl | ⟨1, _⟩ => rfl)
  · intro k; exact funext fun a => Fin.ext (by match a with | ⟨0, _⟩ => rfl | ⟨1, _⟩ => rfl)
  · exact funext fun a => Fin.ext (by match a with | ⟨0, _⟩ => rfl)

/-- The f32 word 0x47C35000 denotes the real 100000. -/
theorem ofBits_100000 : Ideal.ofBits .f32 0x47C35000#32 = ((100000 : ℝ) : EReal) := by
  simp [Ideal.ofBits, Ideal.ieee, -EReal.coe_mul]; norm_num

/-- The reference's pooled mean: the column sums from zero, divided by the real 100000. -/
theorem pooled_eq (x0 : (⟨S100000x8, .f32⟩ : BufTy).Contents (Elt Ideal)) (x1 : (⟨S2x1600000, .i32⟩ : BufTy).Contents (Elt Ideal)) (x2 : (⟨S8x64, .f32⟩ : BufTy).Contents (Elt Ideal)) (x3 : (⟨S64, .f32⟩ : BufTy).Contents (Elt Ideal)) (x4 : (⟨S8x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v63 (F := Ideal) x0 x1 x2 x3 x4 x5 x6 x7
      = Cert.Spec.pooled (val_main_v59 (F := Ideal) x0 x1 x2 x3 x4 x5 x6 x7) := by
  funext i
  rw [val_main_v63_apply, val_main_v61_apply, val_main_v60_apply, val_main_v62_apply, val_main_cst_11_apply,
    val_main_cst_10_apply]
  generalize val_main_v59 (F := Ideal) x0 x1 x2 x3 x4 x5 x6 x7 = H
  show Ideal.div (Ideal.ofBits .f32 0x00000000#32 + ∑ k : Fin 100000, H (idx_main_v60 (idx_main_v61 i) k))
      (Ideal.ofBits .f32 0x47C35000#32) = _
  rw [Ideal.ofBits_zero_f32, zero_add, ofBits_100000, Ideal.div_coe (by norm_num : (100000 : ℝ) ≠ 0)]
  have hs : (∑ k : Fin 100000, H (idx_main_v60 (idx_main_v61 i) k)) = ∑ r : Fin 100000, H (ix2 r (i 1)) :=
    Finset.sum_congr rfl fun k _ => congrArg H (funext fun a => Fin.ext (by match a with | ⟨0, _⟩ => rfl | ⟨1, _⟩ => rfl))
  rw [hs]
  rfl

end Cert.ReferenceIdeal.RefVal
-- ==== Proof.Val.Final.lean ====
/-
  The result of both programs as ONE function of the twelve argument arrays.

  The first layer's output H1 is the two-sided layer over the node features and their neighbourhood mean; the second
  layer's output is the same layer over H1 and H1's neighbourhood mean; the result is the last stretch (two small layers
  and the softmax) of the pooled mean of the second layer's output.
  The idealized kernel's result array holds it: region 0 writes H1 block by block, the host operations between the
  regions form H1's neighbourhood mean, region 1 carries the column sums of the second layer's blocks and finishes at the
  last grid point. The reference's composed term is it as well, stage by stage.
-/
import proofs.«156587_j64527588655232_1_alg».proof.Proof.KI.Run
import proofs.«156587_j64527588655232_1_alg».proof.Proof.Val.R0Value
import proofs.«156587_j64527588655232_1_alg».proof.Proof.Val.R1Value
import proofs.«156587_j64527588655232_1_alg».proof.Proof.Val.HostChain
import proofs.«156587_j64527588655232_1_alg».proof.Proof.Val.Tail
import proofs.«156587_j64527588655232_1_alg».proof.Proof.Ref.Layers

set_option maxRecDepth 16384
noncomputable section
namespace Cert.KernelIdeal.Val
open Idealize.ShloMosaic Idealize.ShloMosaic.TcCoe Idealize.SL.Sem Cert.KernelIdeal Cert.KernelIdeal.Gen

/-- The first layer's output. -/
def layer1 (x0 : (⟨S100000x8, .f32⟩ : BufTy).Contents (Elt Ideal)) (x1 : (⟨S2x1600000, .i32⟩ : BufTy).Contents (Elt Ideal))
    (x2 : (⟨S8x64, .f32⟩ : BufTy).Contents (Elt Ideal)) (x3 : (⟨S64, .f32⟩ : BufTy).Contents (Elt Ideal))
    (x4 : (⟨S8x64, .f32⟩ : BufTy).Contents (Elt Ideal)) : (⟨S100000x64, .f32⟩ : BufTy).Contents (Elt Ideal) :=
  Cert.Spec.sage x0 (agg8 (F := Ideal) x0 x1) x2 x4 x3

/-- The result, from the twelve arguments. -/
def result (x0 : (⟨S100000x8, .f32⟩ : BufTy).Contents (Elt Ideal)) (x1 : (⟨S2x1600000, .i32⟩ : BufTy).Contents (Elt Ideal))
    (x2 : (⟨S8x64, .f32⟩ : BufTy).Contents (Elt Ideal)) (x3 : (⟨S64, .f32⟩ : BufTy).Contents (Elt Ideal))
    (x4 : (⟨S8x64, .f32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal))
    (x8 : (⟨S64x64, .f32⟩ : BufTy).Contents (Elt Ideal)) (x9 : (⟨S64, .f32⟩ : BufTy).Contents (Elt Ideal))
    (x10 : (⟨S64x10, .f32⟩ : BufTy).Contents (Elt Ideal)) (x11 : (⟨S10, .f32⟩ : BufTy).Contents (Elt Ideal)) :
    (⟨S1x10, .f32⟩ : BufTy).Contents (Elt Ideal) :=
  Cert.Tail.tail (Cert.Spec.pooled (Cert.Spec.sage (layer1 x0 x1 x2 x3 x4) (agg64 (F := Ideal) (layer1 x0 x1 x2 x3 x4) x1) x5 x7 x6)) x8 x9 x10 x11

section Kernel
variable (m : (ℓ : Loc nD τ sig) → Buf (Elt Ideal) ℓ) (ρ : Dev nD → PrngReg) (c : Dev nD)
open Cert.KernelIdeal.Hand

/-- An argument array is as launched when region 0 is entered: the first stretch writes none. -/
theorem V1_arg (r : Ref sig .tc) (h : r ∉ hostOps0_W) : V1 (F := Ideal) m ρ c r = m ((c : Thread nD τ).loc r) :=
  W1_of m ρ c r h

/-- And when region 1 is entered, if it is no array region 0 writes back into. -/
theorem V3_arg (r : Ref sig .tc) (h1 : r ∉ hostOps1_W) (h2 : ∀ w, Pipeline.arrRef spec0 w ≠ r) (h0 : r ∉ hostOps0_W) :
    V3 (F := Ideal) m ρ c r = m ((c : Thread nD τ).loc r) :=
  (W3_of m ρ c r h1).trans ((W2_of_ne m ρ c r h2).trans (W1_of m ρ c r h0))

/-- The first layer's output is in its buffer when region 1 is entered. -/
theorem V3_v23 : V3 (F := Ideal) m ρ c main_v23
    = layer1 (m ((c : Thread nD τ).loc main_arg0)) (m ((c : Thread nD τ).loc main_arg1)) (m ((c : Thread nD τ).loc main_arg2))
        (m ((c : Thread nD τ).loc main_arg3)) (m ((c : Thread nD τ).loc main_arg4)) := by
  rw [V3_arr0, arrAt0_5]
  unfold layer1
  rw [V1_arg m ρ c main_arg0 (by decide), V1_arg m ρ c main_arg2 (by decide), V1_arg m ρ c main_arg3 (by decide), V1_arg m ρ c main_arg4 (by decide)]
  refine congrArg (fun M => Cert.Spec.sage _ M _ _ _) ?_
  show StableHlo.after hostOps0 (W0 m ρ c) (Proc.devRef .tc main_v22) = _
  rw [after0_v22]

/-- Its neighbourhood mean is in the buffer region 1 reads as its second operand. -/
theorem V3_v38 : V3 (F := Ideal) m ρ c main_v38
    = agg64 (F := Ideal) (V3 (F := Ideal) m ρ c main_v23) (m ((c : Thread nD τ).loc main_arg1)) := by
  show StableHlo.after hostOps1 (W2 m ρ c) (Proc.devRef .tc main_v38) = _
  rw [after1_v38 (W2 m ρ c) (m ((c : Thread nD τ).loc main_arg1))
    ((W2_of_ne m ρ c main_v1 (by decide)).trans ((after0_v1 (W0 m ρ c)).trans rfl))
    ((W2_of_ne m ρ c main_v3 (by decide)).trans ((after0_v3 (W0 m ρ c)).trans rfl))
    ((W2_of_ne m ρ c main_v7 (by decide)).trans ((after0_v7 (W0 m ρ c)).trans rfl))]
  exact congrArg (fun h => agg64 (F := Ideal) h _) (W3_of m ρ c main_v23 (by decide)).symm

/-- The idealized kernel's result array after the run is the result function of the launch contents of the arguments. -/
theorem kernel_result : (dat1 (F := Ideal) (V3 m ρ) c).arrAt 9 cfg1.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  rw [arrAt1_9, V3_v38, V3_v23]
  rw [V3_arg m ρ c main_arg5 (by decide) (by decide) (by decide), V3_arg m ρ c main_arg6 (by decide) (by decide) (by decide),
    V3_arg m ρ c main_arg7 (by decide) (by decide) (by decide), V3_arg m ρ c main_arg8 (by decide) (by decide) (by decide),
    V3_arg m ρ c main_arg9 (by decide) (by decide) (by decide), V3_arg m ρ c main_arg10 (by decide) (by decide) (by decide),
    V3_arg m ρ c main_arg11 (by decide) (by decide) (by decide)]
  rfl

end Kernel

end Cert.KernelIdeal.Val

namespace Cert.ReferenceIdeal.RefVal
open Idealize.ShloMosaic Idealize.ShloMosaic.TcCoe Idealize.SL.Sem Cert.ReferenceIdeal Cert.ReferenceIdeal.Gen Cert.ReferenceIdeal.Read

/-- The reference's composed result term is the result function of its arguments. -/
theorem reference_result (m : (ℓ : Loc nD τ sig) → Buf (Elt Ideal) ℓ) (c : Dev nD) :
    Cert.ReferenceIdeal.Value.res_main_v81 (F := Ideal) m c
      = Cert.KernelIdeal.Val.result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) := by
  rw [val_main_v81_eq, tail_eq, pooled_eq, layer2_eq, mean2_eq, layer1_eq, mean1_eq]
  rfl

end Cert.ReferenceIdeal.RefVal
-- ==== Proof.lean ====
/-
  The certificate's claim: a two-layer neighbourhood-mean network with a pooled mean, two small layers and a softmax,
  as a Pallas program of two pallas_calls among host operations, against its plain jnp reference, over the extended reals.

  * The frames. The kernel program's @main is a stretch of host operations (the neighbourhood mean of the node features),
    the first pallas_call (the first layer, one block of 5000 rows per grid point), a second stretch of host operations
    (the neighbourhood mean of the first layer's output), and the second pallas_call, whose body carries the column sums
    of the second layer's blocks in a scratch buffer from grid point to grid point and at the last point computes the
    pooled mean, the two small layers and the softmax. Both the word-level program and its idealization run to the end
    from any memory, nothing faulting, and leave the twelve argument arrays as launched (Proof/K/Run.lean, Proof/KI/Run.lean:
    the same argument for both programs). The reference is host operations only: its frame is its run with the result dropped.
  * The idealization replaces one literal of the last payload, the f32 nearest to 1/100000, by the rational 1/100000.
  * At the extended reals both programs compute ONE function of the arguments (Proof/Val/Final.lean, `result`): the two
    programs add the three summands of a layer's entry in different orders, the kernel adds the column sums block by block
    and multiplies by 1/100000 where the reference sums once and divides by 100000; addition there is commutative and
    associative and the quotient by a nonzero real is the product with its inverse on every extended real, so no
    finiteness of the inputs is used.
-/
import proofs.«156587_j64527588655232_1_alg».proof.Defs
import proofs.«156587_j64527588655232_1_alg».proof.Proof.Gen.Kernel
import proofs.«156587_j64527588655232_1_alg».proof.Proof.Gen.KernelIdeal
import proofs.«156587_j64527588655232_1_alg».proof.Proof.Gen.ReferenceIdeal
import proofs.«156587_j64527588655232_1_alg».proof.Proof.Gen.Pre_finite_inputs
import proofs.«156587_j64527588655232_1_alg».proof.Proof.K.Run
import proofs.«156587_j64527588655232_1_alg».proof.Proof.KI.Run
import proofs.«156587_j64527588655232_1_alg».proof.Proof.Val.Final
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the certificate's table gives the name the value 1/100000, and the printed constant
    is that value at the extended reals. -/
theorem preserves : Cert.preserves_Kernel_KernelIdeal :=
  IdealRules.named_const.statement Cert.KernelIdeal.κ "inv_100000" .f32 0x3727C5AC#32 ((1 / 100000 : ℝ) : EReal) rfl

/-- From memories that agree on the arguments both idealized programs end with the result function of those arguments in
    their result arrays. -/
theorem algebraic : Cert.algebraic_KernelIdeal_ReferenceIdeal := by
  intro m ρ m' ρ' _ hagree
  refine ⟨fun c => (Cert.KernelIdeal.Hand.dat1 (F := Ideal) (Cert.KernelIdeal.Hand.V3 m ρ) c).arrAt 9 Cert.KernelIdeal.cfg1.N,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v81 (F := Ideal) m' c
      = (Cert.KernelIdeal.Hand.dat1 (F := Ideal) (Cert.KernelIdeal.Hand.V3 m ρ) c).arrAt 9 Cert.KernelIdeal.cfg1.N
  rw [Cert.ReferenceIdeal.RefVal.reference_result, Cert.KernelIdeal.Val.kernel_result]
  obtain ⟨h0, h1, h2, h3, h4, h5, h6, h7, h8, h9, h10, h11⟩ := hagree c
  rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
